-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S1000 : Shape := ⟨1, ![1000]⟩
abbrev S1000x512 : Shape := ⟨2, ![1000, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1000 : S_.BroadcastsInDim S1000 (![] : Fin 0 → Fin S1000.rank)
  reducesTo_S1000_S_d0 : S1000.ReducesTo [0] S_
  bcast_S_S1000x512 : S_.BroadcastsInDim S1000x512 (![] : Fin 0 → Fin S1000x512.rank)
  reducesTo_S1000x512_S_d0_1 : S1000x512.ReducesTo [0, 1] S_

variable [Facts]

def fn_part1 {F : FTy → Type} [FloatOps F] (main_v13 : IVec S_ 1) (main_v16 : IVec S1000x512 1) : IVec S_ 1 :=
  let main_c_5 : IVec S_ 1 := constantI S_ 1 1#1
  let main_v17 : IVec S_ 1 := (fun x v => Host.reduce IntOp.andi x v reducesTo_S1000x512_S_d0_1 h_S_) main_v16 main_c_5
  let main_v18 : IVec S_ 1 := andi main_v13 main_v17
  main_v18

def fn {F : FTy → Type} [FloatOps F] (main_arg0 : FVec F S65536x512 .f32) (main_arg1 : IVec S65536 32) (main_arg2 : FVec F S1000 .f32) (main_arg3 : FVec F S1000x512 .f32) (main_arg4 : FVec F S1000x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1000 .f32 := Host.absf main_arg2
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_v9 : FVec F S1000x512 .f32 := Host.absf main_arg3
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S1000x512 .f32 := Host.absf main_arg4
  let main_cst_4 : FVec F S_ .f32 := constant S_ .f32 0x7F800000#32
  let main_v15 : FVec F S1000x512 .f32 := broadcastInDim S1000x512 ![] bcast_S_S1000x512 main_cst_4
  let main_v16 : IVec S1000x512 1 := cmpf .olt main_v14 main_v15
  fn_part1 (F := F) main_v13 main_v16
-- ==== Kernel.lean ====
abbrev S65536x512 : Shape := ⟨2, ![65536, 512]⟩
abbrev S65536 : Shape := ⟨1, ![65536]⟩
abbrev S1000 : Shape := ⟨1, ![1000]⟩
abbrev S1000x512 : Shape := ⟨2, ![1000, 512]⟩
abbrev S1x65536 : Shape := ⟨2, ![1, 65536]⟩
abbrev S2x1024x512 : Shape := ⟨3, ![2, 1024, 512]⟩
abbrev S2x1024x1 : Shape := ⟨3, ![2, 1024, 1]⟩
abbrev S1x1024 : Shape := ⟨2, ![1, 1024]⟩
abbrev S1024x512 : Shape := ⟨2, ![1024, 512]⟩
abbrev S1x1024x512 : Shape := ⟨3, ![1, 1024, 512]⟩
abbrev S1x1024x1 : Shape := ⟨3, ![1, 1024, 1]⟩
abbrev S1024x1 : Shape := ⟨2, ![1024, 1]⟩
abbrev S1024x1024 : Shape := ⟨2, ![1024, 1024]⟩
abbrev S1024 : Shape := ⟨1, ![1024]⟩
abbrev S_ : Shape := ⟨0, ![]⟩
abbrev S1000x1 : Shape := ⟨2, ![1000, 1]⟩

abbrev nBuf : Space → Nat
  | .hbm => 80
  | .vmem => 10
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1000, .f32⟩
  | .hbm, ⟨3, _⟩ => ⟨S1000x512, .f32⟩
  | .hbm, ⟨4, _⟩ => ⟨S1000x512, .f32⟩
  | .hbm, ⟨5, _⟩ => ⟨S1x65536, .i32⟩
  | .hbm, ⟨6, _⟩ => ⟨S2x1024x512, .f32⟩
  | .hbm, ⟨7, _⟩ => ⟨S2x1024x512, .f32⟩
  | .hbm, ⟨8, _⟩ => ⟨S2x1024x1, .f32⟩
  | .hbm, ⟨9, _⟩ => ⟨S_, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S_, .f32⟩
  | .hbm, ⟨14, _⟩ => ⟨S1024x1, .f32⟩
  | .hbm, ⟨15, _⟩ => ⟨S1000x512, .f32⟩
  | .hbm, ⟨16, _⟩ => ⟨S1000x512, .f32⟩
  | .hbm, ⟨17, _⟩ => ⟨S1000x1, .f32⟩
  | .hbm, ⟨18, _⟩ => ⟨S1000, .f32⟩
  | .hbm, ⟨19, _⟩ => ⟨S_, .f32⟩
  | .hbm, ⟨20, _⟩ => ⟨S1000, .f32⟩
  | .hbm, ⟨21, _⟩ => ⟨S1000, .i1⟩
  | .hbm, ⟨22, _⟩ => ⟨S_, .f32⟩
  | .hbm, ⟨23, _⟩ => ⟨S_, .f32⟩
  | .hbm, ⟨24, _⟩ => ⟨S1000, .f32⟩
  | .hbm, ⟨25, _⟩ => ⟨S1000, .f32⟩
  | .hbm, ⟨26, _⟩ => ⟨S1000x1, .f32⟩
  | .hbm, ⟨27, _⟩ => ⟨S1000x512, .f32⟩
  | .hbm, ⟨28, _⟩ => ⟨S1000x512, .f32⟩
  | .hbm, ⟨29, _⟩ => ⟨S1000x1, .f32⟩
  | .hbm, ⟨30, _⟩ => ⟨S1000x512, .f32⟩
  | .hbm, ⟨31, _⟩ => ⟨S1000x512, .f32⟩
  | .hbm, ⟨32, _⟩ => ⟨S1000x512, .f32⟩
  | .hbm, ⟨33, _⟩ => ⟨S1000x512, .f32⟩
  | .hbm, ⟨34, _⟩ => ⟨S_, .f32⟩
  | .hbm, ⟨35, _⟩ => ⟨S1000x512, .f32⟩
  | .hbm, ⟨36, _⟩ => ⟨S1000x512, .f32⟩
  | .hbm, ⟨37, _⟩ => ⟨S1000, .f32⟩
  | .hbm, ⟨38, _⟩ => ⟨S_, .f32⟩
  | .hbm, ⟨39, _⟩ => ⟨S1000, .f32⟩
  | .hbm, ⟨40, _⟩ => ⟨S1000, .i1⟩
  | .hbm, ⟨41, _⟩ => ⟨S_, .f32⟩
  | .hbm, ⟨42, _⟩ => ⟨S1000, .f32⟩
  | .hbm, ⟨43, _⟩ => ⟨S1000, .i1⟩
  | .hbm, ⟨44, _⟩ => ⟨S_, .f32⟩
  | .hbm, ⟨45, _⟩ => ⟨S_, .f32⟩
  | .hbm, ⟨46, _⟩ => ⟨S1000, .f32⟩
  | .hbm, ⟨47, _⟩ => ⟨S1000, .f32⟩
  | .hbm, ⟨48, _⟩ => ⟨S1000, .f32⟩
  | .hbm, ⟨49, _⟩ => ⟨S_, .f32⟩
  | .hbm, ⟨50, _⟩ => ⟨S_, .f32⟩
  | .hbm, ⟨51, _⟩ => ⟨S1000, .f32⟩
  | .hbm, ⟨52, _⟩ => ⟨S1000, .f32⟩
  | .hbm, ⟨53, _⟩ => ⟨S1000x1, .f32⟩
  | .hbm, ⟨54, _⟩ => ⟨S_, .f32⟩
  | .hbm, ⟨55, _⟩ => ⟨S1000x1, .f32⟩
  | .hbm, ⟨56, _⟩ => ⟨S1000x1, .f32⟩
  | .hbm, ⟨57, _⟩ => ⟨S1000x512, .f32⟩
  | .hbm, ⟨58, _⟩ => ⟨S1000x512, .f32⟩
  | .hbm, ⟨59, _⟩ => ⟨S1000x512, .f32⟩
  | .hbm, ⟨60, _⟩ => ⟨S1000x512, .f32⟩
  | .hbm, ⟨61, _⟩ => ⟨S1000x512, .f32⟩
  | .hbm, ⟨62, _⟩ => ⟨S_, .f32⟩
  | .hbm, ⟨63, _⟩ => ⟨S1000x1, .f32⟩
  | .hbm, ⟨64, _⟩ => ⟨S1000x1, .f32⟩
  | .hbm, ⟨65, _⟩ => ⟨S1000x1, .f32⟩
  | .hbm, ⟨66, _⟩ => ⟨S1000x512, .f32⟩
  | .hbm, ⟨67, _⟩ => ⟨S1000x512, .f32⟩
  | .hbm, ⟨68, _⟩ => ⟨S1000x512, .f32⟩
  | .hbm, ⟨69, _⟩ => ⟨S1000x512, .f32⟩
  | .hbm, ⟨70, _⟩ => ⟨S1000x512, .f32⟩
  | .hbm, ⟨71, _⟩ => ⟨S_, .f32⟩
  | .hbm, ⟨72, _⟩ => ⟨S1000x1, .f32⟩
  | .hbm, ⟨73, _⟩ => ⟨S1000x1, .f32⟩
  | .hbm, ⟨74, _⟩ => ⟨S1000x512, .f32⟩
  | .hbm, ⟨75, _⟩ => ⟨S1000x512, .f32⟩
  | .hbm, ⟨76, _⟩ => ⟨S1000x512, .f32⟩
  | .hbm, ⟨77, _⟩ => ⟨S1000x512, .f32⟩
  | .hbm, ⟨78, _⟩ => ⟨S1000x512, .f32⟩
  | .hbm, ⟨79, _⟩ => ⟨S1000, .f32⟩
  | .local _ .vmem, ⟨0, _⟩ => ⟨S1x1024, .i32⟩
  | .local _ .vmem, ⟨1, _⟩ => ⟨S1x1024, .i32⟩
  | .local _ .vmem, ⟨2, _⟩ => ⟨S1024x512, .f32⟩
  | .local _ .vmem, ⟨3, _⟩ => ⟨S1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x1, .f32⟩
  | .local _ .vmem, ⟨9, _⟩ => ⟨S1x1024x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_v28 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_v29 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S65536_S1x65536 : S65536.ShapeCasts S1x65536
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  iota_S1024x1024_d0_w32 : S1024x1024.Iotas .tc 32 [0]
  broadcasts_S1x1024_S1024x1024 : S1x1024.Broadcasts S1024x1024
  natLt_1_32 : 1 < 32
  bitsLt_bf16_f32 : FTy.bits .bf16 < FTy.bits .f32
  concatenates_S1024x512_S1024x512_S1024x1024_d1 : Shape.Concatenates [S1024x512, S1024x512] S1024x1024 1
  slices_S1024x1024_o0_0_S1024x512 : S1024x1024.Slices ![0, 0] S1024x512
  slices_S1024x1024_o0_512_S1024x512 : S1024x1024.Slices ![0, 512] S1024x512
  reduces_S1024x1024_S1024 : S1024x1024.Reduces [1] S1024
  shapeCasts_S1024_S1024x1 : S1024.ShapeCasts S1024x1
  reducesTo_S2x1024x512_S1024x512_d0 : S2x1024x512.ReducesTo [0] S1024x512
  h_S_ : 0 < S_.numel
  reducesTo_S2x1024x1_S1024x1_d0 : S2x1024x1.ReducesTo [0] S1024x1
  slices_S1024x512_S1000x512_0_0 : S1024x512.Slices ![0, 0] S1000x512
  slices_S1024x1_S1000x1_0_0 : S1024x1.Slices ![0, 0] S1000x1
  shapeCasts_S1000x1_S1000 : S1000x1.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S1000x512 : S_.BroadcastsInDim S1000x512 (![] : Fin 0 → Fin S1000x512.rank)
  bcast_S_S1000x1 : S_.BroadcastsInDim S1000x1 (![] : Fin 0 → Fin S1000x1.rank)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x65536.size a
  hwx0_0 : ∀ i : grid0.Coords, EltTy.bits .i32 = 32 ∨ (Rect.block (s := S1x65536) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S2x1024x512.size a
  hwx0_2 : ∀ i : grid0.Coords, EltTy.bits .f32 = 32 ∨ (Rect.block (s := S2x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S2x1024x512.size a
  hwx0_3 : ∀ i : grid0.Coords, EltTy.bits .f32 = 32 ∨ (Rect.block (s := S2x1024x512) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S2x1024x1.size a
  hwx0_4 : ∀ i : grid0.Coords, EltTy.bits .f32 = 32 ∨ (Rect.block (s := S2x1024x1) S1x1024x1.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S1000 : Shape := ⟨1, ![1000]⟩
abbrev S1000x512 : Shape := ⟨2, ![1000, 512]⟩
abbrev S_ : Shape := ⟨0, ![]⟩
abbrev S65536x1 : Shape := ⟨2, ![65536, 1]⟩
abbrev S1000x1 : Shape := ⟨2, ![1000, 1]⟩

abbrev nBuf : Space → Nat
  | .hbm => 86
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1000, .f32⟩
  | .hbm, ⟨3, _⟩ => ⟨S1000x512, .f32⟩
  | .hbm, ⟨4, _⟩ => ⟨S1000x512, .f32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S1000, .f32⟩
  | .hbm, ⟨9, _⟩ => ⟨S65536x1, .i32⟩
  | .hbm, ⟨10, _⟩ => ⟨S1000, .f32⟩
  | .hbm, ⟨11, _⟩ => ⟨S_, .f32⟩
  | .hbm, ⟨12, _⟩ => ⟨S1000x512, .f32⟩
  | .hbm, ⟨13, _⟩ => ⟨S65536x1, .i32⟩
  | .hbm, ⟨14, _⟩ => ⟨S1000x512, .f32⟩
  | .hbm, ⟨15, _⟩ => ⟨S_, .f32⟩
  | .hbm, ⟨16, _⟩ => ⟨S1000, .f32⟩
  | .hbm, ⟨17, _⟩ => ⟨S1000, .i1⟩
  | .hbm, ⟨18, _⟩ => ⟨S_, .f32⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S1000x1, .f32⟩
  | .hbm, ⟨23, _⟩ => ⟨S1000x512, .f32⟩
  | .hbm, ⟨24, _⟩ => ⟨S1000x512, .f32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S_, .f32⟩
  | .hbm, ⟨37, _⟩ => ⟨S1000x512, .f32⟩
  | .hbm, ⟨38, _⟩ => ⟨S65536x1, .i32⟩
  | .hbm, ⟨39, _⟩ => ⟨S1000x512, .f32⟩
  | .hbm, ⟨40, _⟩ => ⟨S1000x1, .f32⟩
  | .hbm, ⟨41, _⟩ => ⟨S1000x512, .f32⟩
  | .hbm, ⟨42, _⟩ => ⟨S1000x512, .f32⟩
  | .hbm, ⟨43, _⟩ => ⟨S1000, .f32⟩
  | .hbm, ⟨44, _⟩ => ⟨S_, .f32⟩
  | .hbm, ⟨45, _⟩ => ⟨S1000, .f32⟩
  | .hbm, ⟨46, _⟩ => ⟨S1000, .i1⟩
  | .hbm, ⟨47, _⟩ => ⟨S_, .f32⟩
  | .hbm, ⟨48, _⟩ => ⟨S1000, .f32⟩
  | .hbm, ⟨49, _⟩ => ⟨S1000, .i1⟩
  | .hbm, ⟨50, _⟩ => ⟨S_, .f32⟩
  | .hbm, ⟨51, _⟩ => ⟨S_, .f32⟩
  | .hbm, ⟨52, _⟩ => ⟨S1000, .f32⟩
  | .hbm, ⟨53, _⟩ => ⟨S1000, .f32⟩
  | .hbm, ⟨54, _⟩ => ⟨S1000, .f32⟩
  | .hbm, ⟨55, _⟩ => ⟨S_, .f32⟩
  | .hbm, ⟨56, _⟩ => ⟨S_, .f32⟩
  | .hbm, ⟨57, _⟩ => ⟨S1000, .f32⟩
  | .hbm, ⟨58, _⟩ => ⟨S1000, .f32⟩
  | .hbm, ⟨59, _⟩ => ⟨S1000x1, .f32⟩
  | .hbm, ⟨60, _⟩ => ⟨S_, .f32⟩
  | .hbm, ⟨61, _⟩ => ⟨S1000x1, .f32⟩
  | .hbm, ⟨62, _⟩ => ⟨S1000x1, .f32⟩
  | .hbm, ⟨63, _⟩ => ⟨S1000x512, .f32⟩
  | .hbm, ⟨64, _⟩ => ⟨S1000x512, .f32⟩
  | .hbm, ⟨65, _⟩ => ⟨S1000x512, .f32⟩
  | .hbm, ⟨66, _⟩ => ⟨S1000x512, .f32⟩
  | .hbm, ⟨67, _⟩ => ⟨S1000x512, .f32⟩
  | .hbm, ⟨68, _⟩ => ⟨S_, .f32⟩
  | .hbm, ⟨69, _⟩ => ⟨S1000x1, .f32⟩
  | .hbm, ⟨70, _⟩ => ⟨S1000x1, .f32⟩
  | .hbm, ⟨71, _⟩ => ⟨S1000x1, .f32⟩
  | .hbm, ⟨72, _⟩ => ⟨S1000x512, .f32⟩
  | .hbm, ⟨73, _⟩ => ⟨S1000x512, .f32⟩
  | .hbm, ⟨74, _⟩ => ⟨S1000x512, .f32⟩
  | .hbm, ⟨75, _⟩ => ⟨S1000x512, .f32⟩
  | .hbm, ⟨76, _⟩ => ⟨S1000x512, .f32⟩
  | .hbm, ⟨77, _⟩ => ⟨S_, .f32⟩
  | .hbm, ⟨78, _⟩ => ⟨S1000x1, .f32⟩
  | .hbm, ⟨79, _⟩ => ⟨S1000x1, .f32⟩
  | .hbm, ⟨80, _⟩ => ⟨S1000x512, .f32⟩
  | .hbm, ⟨81, _⟩ => ⟨S1000x512, .f32⟩
  | .hbm, ⟨82, _⟩ => ⟨S1000x512, .f32⟩
  | .hbm, ⟨83, _⟩ => ⟨S1000x512, .f32⟩
  | .hbm, ⟨84, _⟩ => ⟨S1000x512, .f32⟩
  | .hbm, ⟨85, _⟩ => ⟨S1000, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_call1_v0 : Ref sig .tc := ⟨.hbm, 51, rfl⟩
abbrev main_call1_v1 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_call2_v0 : Ref sig .tc := ⟨.hbm, 56, rfl⟩
abbrev main_call2_v1 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S1000 : S_.BroadcastsInDim S1000 (![] : Fin 0 → Fin S1000.rank)
  bcast_S65536_S65536x1_0 : S65536.BroadcastsInDim S65536x1 (![0] : Fin 1 → Fin S65536x1.rank)
  bcast_S_S1000x512 : S_.BroadcastsInDim S1000x512 (![] : Fin 0 → Fin S1000x512.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S1000x1 : S_.BroadcastsInDim S1000x1 (![] : Fin 0 → Fin S1000x1.rank)
  scatter_S1000_S65536x1_S65536_n_0_0_1_wf : ScatterDims.WF S1000 S65536x1 S65536 [] [0] [0] 1
  scatter_S1000x512_S65536x1_S65536x512_1_0_0_1_wf : ScatterDims.WF S1000x512 S65536x1 S65536x512 [1] [0] [0] 1
  gather_S1000x512_S65536x1_S65536x512_1_0_n_n_0_1_1512_wf : GatherDims.WF S1000x512 S65536x1 S65536x512 [1] [0] [] [0] [] 1 ![1, 512]

variable [Facts₀]

def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def scatter_S1000x512_S65536x1_S65536x512_1_0_0_1 : ScatterDims S1000x512 S65536x1 S65536x512 where
  updateWindowDims := [1]
  insertedWindowDims := [0]
  scatterDimsToOperandDims := [0]
  indexVectorDim := 1
  wf := scatter_S1000x512_S65536x1_S65536x512_1_0_0_1_wf
def gather_S1000x512_S65536x1_S65536x512_1_0_n_n_0_1_1512 : GatherDims S1000x512 S65536x1 S65536x512 where
  offsetDims := [1]
  collapsedSliceDims := [0]
  operandBatchingDims := []
  startIndicesBatchingDims := []
  startIndexMap := [0]
  indexVectorDim := 1
  sliceSizes := ![1, 512]
  wf := gather_S1000x512_S65536x1_S65536x512_1_0_n_n_0_1_1512_wf

class Facts : Prop extends Facts₀ where

variable [Facts]
-- ==== Proof.K.Base.lean ====
/-
  The region of the kernel's program and what surrounds it: the buffer contents the region is
  entered with, each window's block at a grid point, the one branch condition of the body
  (taken exactly at the first step of each shard's inner axis), and the staging memrefs
  the body is called with.
-/
import proofs.«419242_j18021682774195_3_alg».proof.Proof.Gen.Kernel.Launch
import proofs.«419242_j18021682774195_3_alg».proof.Proof.Gen.Kernel.Skeleton
import proofs.«419242_j18021682774195_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region, stretch by stretch. -/
abbrev tailOps : List (List (HloOp τ sig (Elt F))) :=
  [hostOps1, hostOps1_1, hostOps1_2, hostOps1_3, hostOps1_4, hostOps1_5, hostOps1_6]

/-- Core `c`'s buffer contents when the region is entered: the launch contents after the one host
    line before the region (the labels recast to one row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The label window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The feature window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's one branch: "the inner grid coordinate is 0". -/
abbrev cond0_0 (i : grid0.Coords) : Prop := (Scalar.cmpi .ne (Scalar.extui (Scalar.cmpi .eq (BitVec.ofNat 32 (i 1).val) 0#32)) 0#32) = 1#1
/-- It holds at the points that are multiples of 32: the first step of each of the two shards. -/
theorem hcond0_0 : ∀ t : Fin cfg0.N, cond0_0 (grid0.coords t) ↔ t.val % 32 = 0 :=
  (by decide +kernel : ∀ t : Fin grid0.N, cond0_0 (grid0.coords t) ↔ t.val % 32 = 0)

/-- One staging buffer of each output window, through which its contents are stated. -/
abbrev VO0_2 : View sig .tc .vmem S1x1024x512 .f32 := (Memref.whole cc0_stg2_0 : Memref sig .tc .vmem S1x1024x512 .f32).view
abbrev VO0_3 : View sig .tc .vmem S1x1024x512 .f32 := (Memref.whole cc0_stg3_0 : Memref sig .tc .vmem S1x1024x512 .f32).view
abbrev VO0_4 : View sig .tc .vmem S1x1024x1 .f32 := (Memref.whole cc0_stg4_0 : Memref sig .tc .vmem S1x1024x1 .f32).view
/-- Each window's current staging memref at point `t`, as the pipeline passes it, and its wholeness. -/
abbrev ms0_0 (t : Fin cfg0.N) : Memref sig .tc .vmem S1x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)

end Cert.Kernel.Fr

end
-- ==== Proof.K.RunA.lean ====
/-
  The kernel body run once at a point where the inner grid coordinate is 0: the three accumulators,
  whatever they held, are stored with zeros and then with zeros plus this step's contribution.
  The run finds, for each accumulator, the pieces its stores leave.
-/
import proofs.«419242_j18021682774195_3_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the first step of a shard: from the two input blocks at their contents and the three
    accumulators at anything, the body runs to its end with the inputs as they were and each
    accumulator holding the pieces `L2`, `L3`, `L4` its stores wrote (last first). -/
noncomputable def kernelRun0_A (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) :
    Σ' (L2 : List (View.Piece (Elt F) S1x1024x512 .f32)) (L3 : List (View.Piece (Elt F) S1x1024x512 .f32)), { L4 : List (View.Piece (Elt F) S1x1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.Kernel.Fr

end
-- ==== Proof.K.RunB.lean ====
/-
  The kernel body run once at a point where the inner grid coordinate is not 0: each accumulator
  holds what the step before left, is loaded, and is stored with that plus this step's
  contribution.  The run finds, for each accumulator, the pieces its stores leave.
-/
import proofs.«419242_j18021682774195_3_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a later step of a shard: from the two input blocks at their contents and the three
    accumulators at their running contents `xo2`, `xo3`, `xo4`, the body runs to its end with the
    inputs as they were and each accumulator holding the pieces its stores wrote (last first). -/
noncomputable def kernelRun0_B (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) :
    Σ' (L2 : List (View.Piece (Elt F) S1x1024x512 .f32)) (L3 : List (View.Piece (Elt F) S1x1024x512 .f32)), { L4 : List (View.Piece (Elt F) S1x1024x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.Kernel.Fr

end
-- ==== Proof.K.Data.lean ====
/-
  The proof data of the kernel's one region.  After the body at grid point t, the two input
  windows' staging buffers hold their blocks, and the three accumulators hold: at a multiple of 32
  (the first step of a shard) what the body's stores leave over anything, at every other point what
  they leave over the contents of the point before (the accumulators are written back only at
  the last step of a shard, so between steps their buffers are kept).  From these the body's
  obligation at every point.
-/
import proofs.«419242_j18021682774195_3_alg».proof.Proof.K.RunA
import proofs.«419242_j18021682774195_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a shard's first step the stores into accumulator window 2 cover its block. -/
theorem cover0_A_2 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) (y : S1x1024x512.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x1024x512.size (by sl_kernel_rfl) y

/-- What a shard's first step leaves in accumulator window 2: its pieces read back. -/
def out0_A_2 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) : Vec F S1x1024x512 .f32 :=
  VO0_2.read (Elt F) (VO0_2.writes (Elt F) VO0_2.junk (kernelRun0_A c i arg2 harg2 arg3 harg3 arg4 harg4 arg5 harg5 arg6 harg6 hc0 x0 x1).1)

/-- At a later step the stores into accumulator window 2 cover its block. -/
theorem cover0_B_2 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) (y : S1x1024x512.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x1024x512.size (by sl_kernel_rfl) y

/-- What a later step leaves in accumulator window 2, over the running contents `xo·`. -/
def out0_B_2 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) : Vec F S1x1024x512 .f32 :=
  VO0_2.read (Elt F) (VO0_2.writes (Elt F) VO0_2.junk (kernelRun0_B c i arg2 harg2 arg3 harg3 arg4 harg4 arg5 harg5 arg6 harg6 hc0 x0 x1 xo2 xo3 xo4).1)

/-- At a shard's first step the stores into accumulator window 3 cover its block. -/
theorem cover0_A_3 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) (y : S1x1024x512.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x1024x512.size (by sl_kernel_rfl) y

/-- What a shard's first step leaves in accumulator window 3: its pieces read back. -/
def out0_A_3 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) : Vec F S1x1024x512 .f32 :=
  VO0_3.read (Elt F) (VO0_3.writes (Elt F) VO0_3.junk (kernelRun0_A c i arg2 harg2 arg3 harg3 arg4 harg4 arg5 harg5 arg6 harg6 hc0 x0 x1).2.1)

/-- At a later step the stores into accumulator window 3 cover its block. -/
theorem cover0_B_3 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) (y : S1x1024x512.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x1024x512.size (by sl_kernel_rfl) y

/-- What a later step leaves in accumulator window 3, over the running contents `xo·`. -/
def out0_B_3 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) : Vec F S1x1024x512 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- At a shard's first step the stores into accumulator window 4 cover its block. -/
theorem cover0_A_4 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) (y : S1x1024x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1024x1.size (by sl_kernel_rfl) y

/-- What a shard's first step leaves in accumulator window 4: its pieces read back. -/
def out0_A_4 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) : Vec F S1x1024x1 .f32 :=
  VO0_4.read (Elt F) (VO0_4.writes (Elt F) VO0_4.junk (kernelRun0_A c i arg2 harg2 arg3 harg3 arg4 harg4 arg5 harg5 arg6 harg6 hc0 x0 x1).2.2.1)

/-- At a later step the stores into accumulator window 4 cover its block. -/
theorem cover0_B_4 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) (y : S1x1024x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x1024x1.size (by sl_kernel_rfl) y

/-- What a later step leaves in accumulator window 4, over the running contents `xo·`. -/
def out0_B_4 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) : Vec F S1x1024x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the accumulators hold after each point -/

/-- The three accumulators' staging buffers after the body at position `n`: at a multiple of 32 the
    first-step contents, otherwise the later-step contents over what position `n - 1` left. -/
def outsAt0 (c : Dev nD) : (n : ℕ) → n < cfg0.N → Vec F S1x1024x512 .f32 × Vec F S1x1024x512 .f32 × Vec F S1x1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at a shard's first step. -/
theorem outsAt0_A (c : Dev nD) (t : Fin cfg0.N) (h0 : t.val % 32 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at a later step: over what the point before left. -/
theorem outsAt0_B (c : Dev nD) (t : Fin cfg0.N) (h0 : ¬t.val % 32 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the
    body at point `t` each input's buffer at its block and the accumulators' at `outsAt0`; the
    class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later step accumulator window 2's staging buffer holds what the body left at the point before:
    the buffer is written back only at a shard's last step. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later step accumulator window 3's staging buffer holds what the body left at the point before:
    the buffer is written back only at a shard's last step. -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later step accumulator window 4's staging buffer holds what the body left at the point before:
    the buffer is written back only at a shard's last step. -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' memrefs hold their blocks; at a multiple of 32 the
    first-step run applies to accumulators at anything, elsewhere the later-step run applies to
    accumulators at what the point before left; each accumulator is handed back at its pieces read
    back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 32 = 0
  · rw [outsAt0_A m c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.K.Main.lean ====
/-
  The host side of the kernel program's frame. `@main` is one host line (the labels recast to one row),
  the region, then seventy-one host lines in seven stretches. Five facts about those lines let the
  region's launch be continued through them: `@main` reduces to the region followed by the later
  lines; every later line touches only the pipeline's arrays and the buffers that bypass the region;
  none allocates; none writes an array of the pipeline; and the one line before the region writes no
  argument. From them, a run to the launch's post read after the later lines leaves the five
  arguments as they were: the feature array is a staged input, which the region only reads, and the
  other four are buffers that bypass the region and that no later line writes.
-/
import proofs.«419242_j18021682774195_3_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No line allocates -/

theorem hostOps0_fresh : (hostOps0 : List (HloOp τ sig (Elt F))).Forall fun op => op.fresh = ∅ := by
  simp only [List.Forall]; rfl
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## `@main` around the region -/

/-- `@main` is the one line before the region, the region, then the seven stretches: holding the
    launch contents it reduces to the region continued by the stretches, at the contents after the
    first line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; rfl) main_chain

/-! ## The lines after the region -/

/-- Every line after the region touches the pipeline's arrays and the bypassing buffers only: its
    buffers are unscoped TensorCore references, and with nothing prefetched every such reference is
    one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- None allocates. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-! ## What no later line writes

Each later line writes one buffer, its own result, and that is never one of the nine buffers the
frame speaks of: the pipeline's five arrays (the recast labels, the features, the three partial
results) and the other four arguments. -/

/-- The pipeline's arrays and the arguments that are no array. -/
abbrev kept : List (Ref sig .tc) :=
  [main_v0, main_arg0, main_v1_0, main_v1_1, main_v1_2, main_arg1, main_arg2, main_arg3, main_arg4]

/-- An operation whose one written buffer `y` is none of the nine writes none of them. -/
theorem not_writes_of {op : HloOp τ sig (Elt F)} {y : Ref sig .tc} (hw : op.writes = {Proc.devRef .tc y}) (h : y ∉ kept) :
    ∀ b ∈ kept, Proc.devRef (τ := τ) .tc b ∉ op.writes := fun b hb hm => by
  rw [hw, Finset.mem_singleton] at hm
  exact h (Proc.devRef_injective _ hm ▸ hb)

theorem hostOps1_keeps : ∀ op ∈ (hostOps1 : List (HloOp τ sig (Elt F))), ∀ b ∈ kept, Proc.devRef (τ := τ) .tc b ∉ op.writes := by
  intro op hop
  simp only [hostOps1, List.mem_cons, List.mem_nil_iff, or_false] at hop
  rcases hop with rfl | rfl | rfl | rfl | rfl | rfl | rfl | rfl | rfl | rfl | rfl | rfl | rfl | rfl
  all_goals exact not_writes_of rfl (by decide)

theorem hostOps1_1_keeps : ∀ op ∈ (hostOps1_1 : List (HloOp τ sig (Elt F))), ∀ b ∈ kept, Proc.devRef (τ := τ) .tc b ∉ op.writes := by
  intro op hop
  simp only [hostOps1_1, List.mem_cons, List.mem_nil_iff, or_false] at hop
  rcases hop with rfl | rfl | rfl
  all_goals exact not_writes_of rfl (by decide)

theorem hostOps1_2_keeps : ∀ op ∈ (hostOps1_2 : List (HloOp τ sig (Elt F))), ∀ b ∈ kept, Proc.devRef (τ := τ) .tc b ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl
  all_goals exact not_writes_of rfl (by decide)

theorem hostOps1_3_keeps : ∀ op ∈ (hostOps1_3 : List (HloOp τ sig (Elt F))), ∀ b ∈ kept, Proc.devRef (τ := τ) .tc b ∉ op.writes := by
  intro op hop
  simp only [hostOps1_3, List.mem_cons, List.mem_nil_iff, or_false] at hop
  rcases hop with rfl | rfl | rfl
  all_goals exact not_writes_of rfl (by decide)

theorem hostOps1_4_keeps : ∀ op ∈ (hostOps1_4 : List (HloOp τ sig (Elt F))), ∀ b ∈ kept, Proc.devRef (τ := τ) .tc b ∉ op.writes := by
  intro op hop
  simp only [hostOps1_4, List.mem_cons, List.mem_nil_iff, or_false] at hop
  rcases hop with rfl | rfl
  all_goals exact not_writes_of rfl (by decide)

theorem hostOps1_5_keeps : ∀ op ∈ (hostOps1_5 : List (HloOp τ sig (Elt F))), ∀ b ∈ kept, Proc.devRef (τ := τ) .tc b ∉ op.writes := by
  intro op hop
  simp only [hostOps1_5, List.mem_cons, List.mem_nil_iff, or_false] at hop
  rcases hop with rfl | rfl | rfl
  all_goals exact not_writes_of rfl (by decide)

theorem hostOps1_6_keeps : ∀ op ∈ (hostOps1_6 : List (HloOp τ sig (Elt F))), ∀ b ∈ kept, Proc.devRef (τ := τ) .tc b ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals exact not_writes_of rfl (by decide)

/-- No line after the region writes one of the nine. -/
theorem tail_keeps : ∀ ops ∈ (tailOps : List (List (HloOp τ sig (Elt F)))), ∀ op ∈ ops, ∀ b ∈ kept,
    Proc.devRef (τ := τ) .tc b ∉ op.writes := by
  intro ops hops
  simp only [List.mem_cons, List.mem_nil_iff, or_false] at hops
  rcases hops with rfl | rfl | rfl | rfl | rfl | rfl | rfl
  · exact hostOps1_keeps
  · exact hostOps1_1_keeps
  · exact hostOps1_2_keeps
  · exact hostOps1_3_keeps
  · exact hostOps1_4_keeps
  · exact hostOps1_5_keeps
  · exact hostOps1_6_keeps

/-- Each array of the pipeline is one of the nine. -/
theorem arrRef_mem_kept : ∀ w, Pipeline.arrRef spec0 w ∈ kept := by decide

/-- No line after the region writes an array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arrRef_mem_kept w)

/-! ## The arguments when the region is entered

The one line before the region writes the recast labels, which is no argument. -/

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The frame claim's post from the frame run's -/

/-- One of the nine that is no array of the pipeline holds, after the later lines, what it held when
    the region was entered: no later line writes it, and the region's exit contents differ from the
    entry contents at the arrays only. -/
theorem afterTail_kept (dats : (p : Fin 1) → (c : Dev nD) → Dat τ (Elt F) Unit ℕ (UR sig nD τ) ℕ (cfgs p) c) (c : Dev nD)
    (b : Ref sig .tc) (hb : b ∈ kept) (hn : ∀ w, Pipeline.arrRef spec0 w ≠ b) :
    Pipeline.afterTail₀ cfgs dats 0 (V0 m) tailOps c b = V m c b := by
  unfold Pipeline.afterTail₀
  rw [StableHlo.after_of_forall_not_mem _ _ (fun op hop => ?_), Pipeline.withArrays_of_ne _ c _ _ b hn]
  obtain ⟨ops, hops, hop'⟩ := List.mem_flatten.mp hop
  exact tail_keeps ops hops op hop' b hb

/-- THE FRAME from a frame run: for any proof data whose arrays are the region-entry contents, a run
    to the launch's post read after the later lines leaves the five arguments as launched. The
    features are window 1's array, a staged input, which ends at its entry contents; each other
    argument bypasses the region and no later line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 1).trans (((dats 0 c).arrAt_in 1 rfl _).trans ((hA c 1).trans (V_main_arg0 m c))),
     ((h c).2 main_arg1 (Pipeline.mem_restRefs_of main_arg1 rfl (by decide))).trans
        ((afterTail_kept m dats c main_arg1 (by decide) (by decide)).trans (V_main_arg1 m c)),
     ((h c).2 main_arg2 (Pipeline.mem_restRefs_of main_arg2 rfl (by decide))).trans
        ((afterTail_kept m dats c main_arg2 (by decide) (by decide)).trans (V_main_arg2 m c)),
     ((h c).2 main_arg3 (Pipeline.mem_restRefs_of main_arg3 rfl (by decide))).trans
        ((afterTail_kept m dats c main_arg3 (by decide) (by decide)).trans (V_main_arg3 m c)),
     ((h c).2 main_arg4 (Pipeline.mem_restRefs_of main_arg4 rfl (by decide))).trans
        ((afterTail_kept m dats c main_arg4 (by decide) (by decide)).trans (V_main_arg4 m c))⟩) h

end Cert.Kernel.Fr

end
-- ==== Proof.K.Frame.lean ====
/-
  The frame of the kernel's program: @main is one host line, the region, and 71 host lines; the
  library's launch theorem for that shape, given the body's obligation at every grid point, yields
  a run that terminates without fault with every array of the pipeline at what the proof data
  computes and every other buffer as the later lines leave it; the five arguments are among the
  buffers no line writes.
-/
import proofs.«419242_j18021682774195_3_alg».proof.Proof.K.Data
import proofs.«419242_j18021682774195_3_alg».proof.Proof.K.Main

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every final state has each array of the
    pipeline at the proof data's final contents and every other unscoped buffer as the lines after
    the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any float instance: the run ends with the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.KI.Base.lean ====
/-
  The region of the kernel's program and what surrounds it: the buffer contents the region is
  entered with, each window's block at a grid point, the one branch condition of the body
  (taken exactly at the first step of each shard's inner axis), and the staging memrefs
  the body is called with.
-/
import proofs.«419242_j18021682774195_3_alg».proof.Proof.Gen.KernelIdeal.Launch
import proofs.«419242_j18021682774195_3_alg».proof.Proof.Gen.KernelIdeal.Skeleton
import proofs.«419242_j18021682774195_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region, stretch by stretch. -/
abbrev tailOps : List (List (HloOp τ sig (Elt F))) :=
  [hostOps1, hostOps1_1, hostOps1_2, hostOps1_3, hostOps1_4, hostOps1_5, hostOps1_6]

/-- Core `c`'s buffer contents when the region is entered: the launch contents after the one host
    line before the region (the labels recast to one row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The label window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The feature window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's one branch: "the inner grid coordinate is 0". -/
abbrev cond0_0 (i : grid0.Coords) : Prop := (Scalar.cmpi .ne (Scalar.extui (Scalar.cmpi .eq (BitVec.ofNat 32 (i 1).val) 0#32)) 0#32) = 1#1
/-- It holds at the points that are multiples of 32: the first step of each of the two shards. -/
theorem hcond0_0 : ∀ t : Fin cfg0.N, cond0_0 (grid0.coords t) ↔ t.val % 32 = 0 :=
  (by decide +kernel : ∀ t : Fin grid0.N, cond0_0 (grid0.coords t) ↔ t.val % 32 = 0)

/-- One staging buffer of each output window, through which its contents are stated. -/
abbrev VO0_2 : View sig .tc .vmem S1x1024x512 .f32 := (Memref.whole cc0_stg2_0 : Memref sig .tc .vmem S1x1024x512 .f32).view
abbrev VO0_3 : View sig .tc .vmem S1x1024x512 .f32 := (Memref.whole cc0_stg3_0 : Memref sig .tc .vmem S1x1024x512 .f32).view
abbrev VO0_4 : View sig .tc .vmem S1x1024x1 .f32 := (Memref.whole cc0_stg4_0 : Memref sig .tc .vmem S1x1024x1 .f32).view
/-- Each window's current staging memref at point `t`, as the pipeline passes it, and its wholeness. -/
abbrev ms0_0 (t : Fin cfg0.N) : Memref sig .tc .vmem S1x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KI.RunA.lean ====
/-
  The kernel body run once at a point where the inner grid coordinate is 0: the three accumulators,
  whatever they held, are stored with zeros and then with zeros plus this step's contribution.
  The run finds, for each accumulator, the pieces its stores leave.
-/
import proofs.«419242_j18021682774195_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the first step of a shard: from the two input blocks at their contents and the three
    accumulators at anything, the body runs to its end with the inputs as they were and each
    accumulator holding the pieces `L2`, `L3`, `L4` its stores wrote (last first). -/
noncomputable def kernelRun0_A (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) :
    Σ' (L2 : List (View.Piece (Elt F) S1x1024x512 .f32)) (L3 : List (View.Piece (Elt F) S1x1024x512 .f32)), { L4 : List (View.Piece (Elt F) S1x1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.KernelIdeal.Fr

end
-- ==== Proof.KI.RunB.lean ====
/-
  The kernel body run once at a point where the inner grid coordinate is not 0: each accumulator
  holds what the step before left, is loaded, and is stored with that plus this step's
  contribution.  The run finds, for each accumulator, the pieces its stores leave.
-/
import proofs.«419242_j18021682774195_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a later step of a shard: from the two input blocks at their contents and the three
    accumulators at their running contents `xo2`, `xo3`, `xo4`, the body runs to its end with the
    inputs as they were and each accumulator holding the pieces its stores wrote (last first). -/
noncomputable def kernelRun0_B (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) :
    Σ' (L2 : List (View.Piece (Elt F) S1x1024x512 .f32)) (L3 : List (View.Piece (Elt F) S1x1024x512 .f32)), { L4 : List (View.Piece (Elt F) S1x1024x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.KernelIdeal.Fr

end
-- ==== Proof.KI.Data.lean ====
/-
  The proof data of the kernel's one region.  After the body at grid point t, the two input
  windows' staging buffers hold their blocks, and the three accumulators hold: at a multiple of 32
  (the first step of a shard) what the body's stores leave over anything, at every other point what
  they leave over the contents of the point before (the accumulators are written back only at
  the last step of a shard, so between steps their buffers are kept).  From these the body's
  obligation at every point.
-/
import proofs.«419242_j18021682774195_3_alg».proof.Proof.KI.RunA
import proofs.«419242_j18021682774195_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a shard's first step the stores into accumulator window 2 cover its block. -/
theorem cover0_A_2 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) (y : S1x1024x512.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x1024x512.size (by sl_kernel_rfl) y

/-- What a shard's first step leaves in accumulator window 2: its pieces read back. -/
def out0_A_2 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) : Vec F S1x1024x512 .f32 :=
  VO0_2.read (Elt F) (VO0_2.writes (Elt F) VO0_2.junk (kernelRun0_A c i arg2 harg2 arg3 harg3 arg4 harg4 arg5 harg5 arg6 harg6 hc0 x0 x1).1)

/-- At a later step the stores into accumulator window 2 cover its block. -/
theorem cover0_B_2 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) (y : S1x1024x512.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x1024x512.size (by sl_kernel_rfl) y

/-- What a later step leaves in accumulator window 2, over the running contents `xo·`. -/
def out0_B_2 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) : Vec F S1x1024x512 .f32 :=
  VO0_2.read (Elt F) (VO0_2.writes (Elt F) VO0_2.junk (kernelRun0_B c i arg2 harg2 arg3 harg3 arg4 harg4 arg5 harg5 arg6 harg6 hc0 x0 x1 xo2 xo3 xo4).1)

/-- At a shard's first step the stores into accumulator window 3 cover its block. -/
theorem cover0_A_3 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) (y : S1x1024x512.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x1024x512.size (by sl_kernel_rfl) y

/-- What a shard's first step leaves in accumulator window 3: its pieces read back. -/
def out0_A_3 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) : Vec F S1x1024x512 .f32 :=
  VO0_3.read (Elt F) (VO0_3.writes (Elt F) VO0_3.junk (kernelRun0_A c i arg2 harg2 arg3 harg3 arg4 harg4 arg5 harg5 arg6 harg6 hc0 x0 x1).2.1)

/-- At a later step the stores into accumulator window 3 cover its block. -/
theorem cover0_B_3 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) (y : S1x1024x512.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x1024x512.size (by sl_kernel_rfl) y

/-- What a later step leaves in accumulator window 3, over the running contents `xo·`. -/
def out0_B_3 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) : Vec F S1x1024x512 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- At a shard's first step the stores into accumulator window 4 cover its block. -/
theorem cover0_A_4 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) (y : S1x1024x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1024x1.size (by sl_kernel_rfl) y

/-- What a shard's first step leaves in accumulator window 4: its pieces read back. -/
def out0_A_4 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i)
    (x0 : Vec F S1x1024 .i32) (x1 : Vec F S1024x512 .f32) : Vec F S1x1024x1 .f32 :=
  VO0_4.read (Elt F) (VO0_4.writes (Elt F) VO0_4.junk (kernelRun0_A c i arg2 harg2 arg3 harg3 arg4 harg4 arg5 harg5 arg6 harg6 hc0 x0 x1).2.2.1)

/-- At a later step the stores into accumulator window 4 cover its block. -/
theorem cover0_B_4 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) (y : S1x1024x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x1024x1.size (by sl_kernel_rfl) y

/-- What a later step leaves in accumulator window 4, over the running contents `xo·`. -/
def out0_B_4 (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i)
    (x0 : Vec F S1x1024 .i32) (x1 : Vec F S1024x512 .f32) (xo2 : Vec F S1x1024x512 .f32) (xo3 : Vec F S1x1024x512 .f32) (xo4 : Vec F S1x1024x1 .f32) : Vec F S1x1024x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the accumulators hold after each point -/

/-- The three accumulators' staging buffers after the body at position `n`: at a multiple of 32 the
    first-step contents, otherwise the later-step contents over what position `n - 1` left. -/
def outsAt0 (c : Dev nD) : (n : ℕ) → n < cfg0.N → Vec F S1x1024x512 .f32 × Vec F S1x1024x512 .f32 × Vec F S1x1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at a shard's first step. -/
theorem outsAt0_A (c : Dev nD) (t : Fin cfg0.N) (h0 : t.val % 32 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at a later step: over what the point before left. -/
theorem outsAt0_B (c : Dev nD) (t : Fin cfg0.N) (h0 : ¬t.val % 32 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the
    body at point `t` each input's buffer at its block and the accumulators' at `outsAt0`; the
    class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later step accumulator window 2's staging buffer holds what the body left at the point before:
    the buffer is written back only at a shard's last step. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later step accumulator window 3's staging buffer holds what the body left at the point before:
    the buffer is written back only at a shard's last step. -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later step accumulator window 4's staging buffer holds what the body left at the point before:
    the buffer is written back only at a shard's last step. -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' memrefs hold their blocks; at a multiple of 32 the
    first-step run applies to accumulators at anything, elsewhere the later-step run applies to
    accumulators at what the point before left; each accumulator is handed back at its pieces read
    back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 32 = 0
  · rw [outsAt0_A m c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Main.lean ====
/-
  The host side of the kernel program's frame. `@main` is one host line (the labels recast to one row),
  the region, then seventy-one host lines in seven stretches. Five facts about those lines let the
  region's launch be continued through them: `@main` reduces to the region followed by the later
  lines; every later line touches only the pipeline's arrays and the buffers that bypass the region;
  none allocates; none writes an array of the pipeline; and the one line before the region writes no
  argument. From them, a run to the launch's post read after the later lines leaves the five
  arguments as they were: the feature array is a staged input, which the region only reads, and the
  other four are buffers that bypass the region and that no later line writes.
-/
import proofs.«419242_j18021682774195_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No line allocates -/

theorem hostOps0_fresh : (hostOps0 : List (HloOp τ sig (Elt F))).Forall fun op => op.fresh = ∅ := by
  simp only [List.Forall]; rfl
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## `@main` around the region -/

/-- `@main` is the one line before the region, the region, then the seven stretches: holding the
    launch contents it reduces to the region continued by the stretches, at the contents after the
    first line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; rfl) main_chain

/-! ## The lines after the region -/

/-- Every line after the region touches the pipeline's arrays and the bypassing buffers only: its
    buffers are unscoped TensorCore references, and with nothing prefetched every such reference is
    one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- None allocates. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-! ## What no later line writes

Each later line writes one buffer, its own result, and that is never one of the nine buffers the
frame speaks of: the pipeline's five arrays (the recast labels, the features, the three partial
results) and the other four arguments. -/

/-- The pipeline's arrays and the arguments that are no array. -/
abbrev kept : List (Ref sig .tc) :=
  [main_v0, main_arg0, main_v1_0, main_v1_1, main_v1_2, main_arg1, main_arg2, main_arg3, main_arg4]

/-- An operation whose one written buffer `y` is none of the nine writes none of them. -/
theorem not_writes_of {op : HloOp τ sig (Elt F)} {y : Ref sig .tc} (hw : op.writes = {Proc.devRef .tc y}) (h : y ∉ kept) :
    ∀ b ∈ kept, Proc.devRef (τ := τ) .tc b ∉ op.writes := fun b hb hm => by
  rw [hw, Finset.mem_singleton] at hm
  exact h (Proc.devRef_injective _ hm ▸ hb)

theorem hostOps1_keeps : ∀ op ∈ (hostOps1 : List (HloOp τ sig (Elt F))), ∀ b ∈ kept, Proc.devRef (τ := τ) .tc b ∉ op.writes := by
  intro op hop
  simp only [hostOps1, List.mem_cons, List.mem_nil_iff, or_false] at hop
  rcases hop with rfl | rfl | rfl | rfl | rfl | rfl | rfl | rfl | rfl | rfl | rfl | rfl | rfl | rfl
  all_goals exact not_writes_of rfl (by decide)

theorem hostOps1_1_keeps : ∀ op ∈ (hostOps1_1 : List (HloOp τ sig (Elt F))), ∀ b ∈ kept, Proc.devRef (τ := τ) .tc b ∉ op.writes := by
  intro op hop
  simp only [hostOps1_1, List.mem_cons, List.mem_nil_iff, or_false] at hop
  rcases hop with rfl | rfl | rfl
  all_goals exact not_writes_of rfl (by decide)

theorem hostOps1_2_keeps : ∀ op ∈ (hostOps1_2 : List (HloOp τ sig (Elt F))), ∀ b ∈ kept, Proc.devRef (τ := τ) .tc b ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl
  all_goals exact not_writes_of rfl (by decide)

theorem hostOps1_3_keeps : ∀ op ∈ (hostOps1_3 : List (HloOp τ sig (Elt F))), ∀ b ∈ kept, Proc.devRef (τ := τ) .tc b ∉ op.writes := by
  intro op hop
  simp only [hostOps1_3, List.mem_cons, List.mem_nil_iff, or_false] at hop
  rcases hop with rfl | rfl | rfl
  all_goals exact not_writes_of rfl (by decide)

theorem hostOps1_4_keeps : ∀ op ∈ (hostOps1_4 : List (HloOp τ sig (Elt F))), ∀ b ∈ kept, Proc.devRef (τ := τ) .tc b ∉ op.writes := by
  intro op hop
  simp only [hostOps1_4, List.mem_cons, List.mem_nil_iff, or_false] at hop
  rcases hop with rfl | rfl
  all_goals exact not_writes_of rfl (by decide)

theorem hostOps1_5_keeps : ∀ op ∈ (hostOps1_5 : List (HloOp τ sig (Elt F))), ∀ b ∈ kept, Proc.devRef (τ := τ) .tc b ∉ op.writes := by
  intro op hop
  simp only [hostOps1_5, List.mem_cons, List.mem_nil_iff, or_false] at hop
  rcases hop with rfl | rfl | rfl
  all_goals exact not_writes_of rfl (by decide)

theorem hostOps1_6_keeps : ∀ op ∈ (hostOps1_6 : List (HloOp τ sig (Elt F))), ∀ b ∈ kept, Proc.devRef (τ := τ) .tc b ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals exact not_writes_of rfl (by decide)

/-- No line after the region writes one of the nine. -/
theorem tail_keeps : ∀ ops ∈ (tailOps : List (List (HloOp τ sig (Elt F)))), ∀ op ∈ ops, ∀ b ∈ kept,
    Proc.devRef (τ := τ) .tc b ∉ op.writes := by
  intro ops hops
  simp only [List.mem_cons, List.mem_nil_iff, or_false] at hops
  rcases hops with rfl | rfl | rfl | rfl | rfl | rfl | rfl
  · exact hostOps1_keeps
  · exact hostOps1_1_keeps
  · exact hostOps1_2_keeps
  · exact hostOps1_3_keeps
  · exact hostOps1_4_keeps
  · exact hostOps1_5_keeps
  · exact hostOps1_6_keeps

/-- Each array of the pipeline is one of the nine. -/
theorem arrRef_mem_kept : ∀ w, Pipeline.arrRef spec0 w ∈ kept := by decide

/-- No line after the region writes an array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arrRef_mem_kept w)

/-! ## The arguments when the region is entered

The one line before the region writes the recast labels, which is no argument. -/

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The frame claim's post from the frame run's -/

/-- One of the nine that is no array of the pipeline holds, after the later lines, what it held when
    the region was entered: no later line writes it, and the region's exit contents differ from the
    entry contents at the arrays only. -/
theorem afterTail_kept (dats : (p : Fin 1) → (c : Dev nD) → Dat τ (Elt F) Unit ℕ (UR sig nD τ) ℕ (cfgs p) c) (c : Dev nD)
    (b : Ref sig .tc) (hb : b ∈ kept) (hn : ∀ w, Pipeline.arrRef spec0 w ≠ b) :
    Pipeline.afterTail₀ cfgs dats 0 (V0 m) tailOps c b = V m c b := by
  unfold Pipeline.afterTail₀
  rw [StableHlo.after_of_forall_not_mem _ _ (fun op hop => ?_), Pipeline.withArrays_of_ne _ c _ _ b hn]
  obtain ⟨ops, hops, hop'⟩ := List.mem_flatten.mp hop
  exact tail_keeps ops hops op hop' b hb

/-- THE FRAME from a frame run: for any proof data whose arrays are the region-entry contents, a run
    to the launch's post read after the later lines leaves the five arguments as launched. The
    features are window 1's array, a staged input, which ends at its entry contents; each other
    argument bypasses the region and no later line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 1).trans (((dats 0 c).arrAt_in 1 rfl _).trans ((hA c 1).trans (V_main_arg0 m c))),
     ((h c).2 main_arg1 (Pipeline.mem_restRefs_of main_arg1 rfl (by decide))).trans
        ((afterTail_kept m dats c main_arg1 (by decide) (by decide)).trans (V_main_arg1 m c)),
     ((h c).2 main_arg2 (Pipeline.mem_restRefs_of main_arg2 rfl (by decide))).trans
        ((afterTail_kept m dats c main_arg2 (by decide) (by decide)).trans (V_main_arg2 m c)),
     ((h c).2 main_arg3 (Pipeline.mem_restRefs_of main_arg3 rfl (by decide))).trans
        ((afterTail_kept m dats c main_arg3 (by decide) (by decide)).trans (V_main_arg3 m c)),
     ((h c).2 main_arg4 (Pipeline.mem_restRefs_of main_arg4 rfl (by decide))).trans
        ((afterTail_kept m dats c main_arg4 (by decide) (by decide)).trans (V_main_arg4 m c))⟩) h

end Cert.KernelIdeal.Fr

end
-- ==== Proof.KI.Frame.lean ====
/-
  The frame of the kernel's program: @main is one host line, the region, and 71 host lines; the
  library's launch theorem for that shape, given the body's obligation at every grid point, yields
  a run that terminates without fault with every array of the pipeline at what the proof data
  computes and every other buffer as the later lines leave it; the five arguments are among the
  buffers no line writes.
-/
import proofs.«419242_j18021682774195_3_alg».proof.Proof.KI.Data
import proofs.«419242_j18021682774195_3_alg».proof.Proof.KI.Main

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every final state has each array of the
    pipeline at the proof data's final contents and every other unscoped buffer as the lines after
    the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any float instance: the run ends with the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.Stats.lean ====
/-
  The statistics both programs compute, as functions on the extended reals, and the scalar
  formulas of the running-moments update.  A class c owns the rows whose label word is c; its
  count, feature sum and sum of squares are sums over all 65536 rows of an indicator times the
  row's entry.  From these: the divisor amt (the count, or 1 for an empty class), the class mean
  ave = sum / amt, the class variance, the blend weight w = n / (n + count) (0 when n + count = 0),
  and the three updated moments.
-/
import Idealize.ShloMosaic.PureOps.Ideal
import Idealize.ShloMosaic.Lib.ValueIdx

noncomputable section

open scoped BigOperators

namespace Cert.Stats

open Idealize.ShloMosaic Idealize.ShloMosaic.ValueIdx

/-- The three float literals of the two programs, as the extended reals they denote. -/
abbrev zero : EReal := Ideal.ofBits .f32 0x00000000#32
abbrev one : EReal := Ideal.ofBits .f32 0x3F800000#32
abbrev half : EReal := Ideal.ofBits .f32 0x3F000000#32

/-- The indicator of "label word `l` names class `c`": 1 or 0. -/
def hit (l : BitVec 32) (c : ℕ) : EReal := if l = BitVec.ofNat 32 c then 1 else 0

/-- The features and the labels as the programs hold them. -/
abbrev Feat := (⟨2, ![65536, 512]⟩ : Shape).Idx → EReal
abbrev Lab := (⟨1, ![65536]⟩ : Shape).Idx → BitVec 32

/-- How many rows class `c` owns. -/
def cnt (L : Lab) (c : ℕ) : EReal := ∑ r : Fin 65536, hit (L (ix1 r)) c
/-- The sum of column `a` over the rows of class `c`. -/
def sm (X : Feat) (L : Lab) (c : ℕ) (a : Fin 512) : EReal := ∑ r : Fin 65536, hit (L (ix1 r)) c * X (ix2 r a)
/-- The sum of squares of column `a` over the rows of class `c`. -/
def sq (X : Feat) (L : Lab) (c : ℕ) (a : Fin 512) : EReal :=
  ∑ r : Fin 65536, hit (L (ix1 r)) c * (X (ix2 r a) * X (ix2 r a))
/-- The sum of squared deviations from a value `μ` of column `a` over the rows of class `c`. -/
def dev (X : Feat) (L : Lab) (c : ℕ) (a : Fin 512) (μ : EReal) : EReal :=
  ∑ r : Fin 65536, hit (L (ix1 r)) c * ((X (ix2 r a) - μ) * (X (ix2 r a) - μ))

/-- The divisor as the kernel's program writes it: 1 where the count is below one half. -/
def amtK (n : EReal) : EReal := Scalar.select (FloatOps.cmpf (F := Ideal) (φ := .f32) .olt n half) one n
/-- The divisor as the reference writes it: 1 where the count is zero. -/
def amtR (n : EReal) : EReal := Scalar.select (FloatOps.cmpf (F := Ideal) (φ := .f32) .oeq n zero) one n

/-- The class variance as the kernel's program computes it: mean square minus squared mean, clamped at zero. -/
def varK (s q n : EReal) : EReal :=
  max (Ideal.div q (amtK n) - Ideal.div s (amtK n) * Ideal.div s (amtK n)) zero

/-- The blend weight: `n / (n + count)`, and 0 where `n + count = 0`. -/
def weight (n k : EReal) : EReal :=
  Scalar.select (FloatOps.cmpf (F := Ideal) (φ := .f32) .oeq (n + k) zero) zero
    (Ideal.div n (Scalar.select (FloatOps.cmpf (F := Ideal) (φ := .f32) .oeq (n + k) zero) one (n + k)))

/-- The updated second moment. -/
def covNew (cov var w mean ave : EReal) : EReal :=
  (cov * (one - w) + var * w) + (w * (one - w)) * ((mean - ave) * (mean - ave))
/-- The updated mean. -/
def meanNew (mean w ave : EReal) : EReal := mean * (one - w) + ave * w

end Cert.Stats

end
-- ==== Proof.StatsConsts.lean ====
/-
  The three float literals of the two programs as extended reals: 0, 1 and one half.
-/
import proofs.«419242_j18021682774195_3_alg».proof.Proof.Stats

noncomputable section

namespace Cert.Stats

open Idealize.ShloMosaic

theorem zero_eq : zero = 0 := by
  simp [zero, Ideal.ofBits, Ideal.ieee]

theorem one_eq : one = 1 := by
  simp [one, Ideal.ofBits, Ideal.ieee, -EReal.coe_mul]; norm_num

theorem half_eq : half = ((1 / 2 : ℝ) : EReal) := by
  simp [half, Ideal.ofBits, Ideal.ieee, -EReal.coe_mul]; norm_num

end Cert.Stats

end
-- ==== Proof.KI.Tail.lean ====
/-
  What the host operations after the kernel's region compute, read at an index, at the extended reals.
  From any buffer contents the tail starts from: the two shards of the accumulated feature sums, sums of
  squares and counts are added, the first 1000 classes are kept, and from the class count n, the class
  sum s and the sum of squares q come the divisor (1 where n is below one half), the class mean s / amt,
  the class variance max (q / amt - mean², 0), the blend weight n / (n + count) (0 where n + count = 0),
  and the three updated moments.  The proof goes stretch by stretch: each stretch of operations is read at
  an index from arbitrary contents, and the seven stretches are then chained.
-/
import proofs.«419242_j18021682774195_3_alg».proof.Proof.KI.Base
import proofs.«419242_j18021682774195_3_alg».proof.Proof.StatsConsts
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.TailValue

open Cert.KernelIdeal Cert.KernelIdeal.Gen Cert.KernelIdeal.Fr Cert.Stats
open Idealize.ShloMosaic Idealize.ShloMosaic.ValueIdx

/-! ## Layout operations of this program read at coordinates -/

section Layout
variable {α : Type}

/-- A broadcast scalar reads the scalar's one element everywhere. -/
theorem bc_scalar {t : Shape} (h : S_.BroadcastsInDim t (![] : Fin 0 → Fin t.rank)) (X : S_.Idx → α) (j : t.Idx) :
    broadcastInDim t ![] h X j = X ix0 :=
  broadcastInDim_apply _ h X j ix0 (fun a => a.elim0)

/-- A vector of 1000 made a column reads, at row `c`, its element `c`. -/
theorem bc_col (X : S1000.Idx → α) (c : Fin 1000) (u : Fin 1) :
    broadcastInDim S1000x1 ![0] bcast_S1000_S1000x1_0 X (ix2 c u) = X (ix1 c) :=
  broadcastInDim_apply _ _ X _ _ (fun a => by
    match a with
    | ⟨0, _⟩ => rfl)

/-- A column broadcast along 512 columns reads, at `(c, a)`, the column's row `c`. -/
theorem bc_row (X : S1000x1.Idx → α) (c : Fin 1000) (a : Fin 512) :
    broadcastInDim S1000x512 ![0, 1] bcast_S1000x1_S1000x512_0_1 X (ix2 c a) = X (ix2 c (0 : Fin 1)) :=
  broadcastInDim_apply _ _ X _ _ (fun b => by
    match b with
    | ⟨0, _⟩ => rfl
    | ⟨1, _⟩ => rfl)

/-- The first 1000 rows of a 1024-row matrix. -/
theorem sl_512 (X : S1024x512.Idx → α) (c : Fin 1000) (a : Fin 512) :
    extractStridedSlice S1000x512 ![0, 0] X slices_S1024x512_S1000x512_0_0 (ix2 c a)
      = X (ix2 (⟨c.val, by omega⟩ : Fin 1024) a) :=
  slice2_axis0_apply 0 X _ c a _ (Nat.zero_add _).symm

/-- The first 1000 rows of a 1024-row column. -/
theorem sl_1 (X : S1024x1.Idx → α) (c : Fin 1000) (u : Fin 1) :
    extractStridedSlice S1000x1 ![0, 0] X slices_S1024x1_S1000x1_0_0 (ix2 c u)
      = X (ix2 (⟨c.val, by omega⟩ : Fin 1024) u) :=
  slice2_axis0_apply 0 X _ c u _ (Nat.zero_add _).symm

/-- A column of 1000 read as a vector. -/
theorem rs_col (X : S1000x1.Idx → α) (c : Fin 1000) :
    shapeCast S1000 X shapeCasts_S1000x1_S1000 (ix1 c) = X (ix2 c (0 : Fin 1)) :=
  shapeCast_apply X _ _ _ (by
    rw [Shape.rowMajor_val_two, Shape.rowMajor_val_one]
    show c.val * 1 + 0 = c.val
    omega)

end Layout

/-- The host's sum over the two shards of a `[2, 1024, 512]` array: the initial value plus the two entries. -/
theorem red_512 (X : S2x1024x512.Idx → EReal) (init : S_.Idx → EReal) (c' : Fin 1024) (a : Fin 512) :
    (Host.reduceAdd (F := Ideal) (φ := .f32) X init reducesTo_S2x1024x512_S1024x512_d0 h_S_ : S1024x512.Idx → EReal) (ix2 c' a)
      = init ix0 + ∑ h : Fin 2, X (ix3 h c' a) := by
  have hR : S2x1024x512.Reduces [0] S1024x512 := by decide
  show Ideal.hostReduceAdd reducesTo_S2x1024x512_S1024x512_d0 X (init (Shape.Idx.first h_S_)) (ix2 c' a) = _
  rw [Ideal.hostReduceAdd_single _ hR, eq_ix0 (Shape.Idx.first h_S_)]
  refine congrArg (init ix0 + ·) (Finset.sum_congr rfl (fun h _ => congrArg X ?_))
  funext d
  match d with
  | ⟨0, _⟩ => rfl
  | ⟨1, _⟩ => rfl
  | ⟨2, _⟩ => rfl

/-- The same for a `[2, 1024, 1]` array. -/
theorem red_1 (X : S2x1024x1.Idx → EReal) (init : S_.Idx → EReal) (c' : Fin 1024) (u : Fin 1) :
    (Host.reduceAdd (F := Ideal) (φ := .f32) X init reducesTo_S2x1024x1_S1024x1_d0 h_S_ : S1024x1.Idx → EReal) (ix2 c' u)
      = init ix0 + ∑ h : Fin 2, X (ix3 h c' u) := by
  have hR : S2x1024x1.Reduces [0] S1024x1 := by decide
  show Ideal.hostReduceAdd reducesTo_S2x1024x1_S1024x1_d0 X (init (Shape.Idx.first h_S_)) (ix2 c' u) = _
  rw [Ideal.hostReduceAdd_single _ hR, eq_ix0 (Shape.Idx.first h_S_)]
  refine congrArg (init ix0 + ·) (Finset.sum_congr rfl (fun h _ => congrArg X ?_))
  funext d
  match d with
  | ⟨0, _⟩ => rfl
  | ⟨1, _⟩ => rfl
  | ⟨2, _⟩ => rfl

/-- The host's quotient at an index, at the extended reals. -/
theorem hdivf_apply {s : Shape} {φ : FTy} (x y : FVec Ideal s φ) (i : s.Idx) : Host.divf x y i = Ideal.div (x i) (y i) := rfl

variable (V : Valuation τ sig (Elt Ideal))

local notation "v1[" V "," r "]" => (V (Proc.devRef Proc.tc r) : FVec Ideal S1000 FTy.f32)
local notation "v2[" V "," r "]" => (V (Proc.devRef Proc.tc r) : FVec Ideal S1000x512 FTy.f32)
local notation "b1[" V "," r "]" => (V (Proc.devRef Proc.tc r) : IVec S1000 1)
local infixl:65 " +ₑ " => @HAdd.hAdd EReal EReal EReal instHAdd

/-- The sum over the two shards of a `[2, 1024, 512]` array at one entry, from the initial zero. -/
def sum2 (X : FVec Ideal S2x1024x512 .f32) (c' : Fin 1024) (a : Fin 512) : EReal := zero + ∑ h : Fin 2, X (ix3 h c' a)
/-- The same for a `[2, 1024, 1]` array. -/
def sum1 (X : FVec Ideal S2x1024x1 .f32) (c' : Fin 1024) : EReal := zero + ∑ h : Fin 2, X (ix3 h c' (0 : Fin 1))
/-- Row `c` of the first 1000 as a row of the 1024. -/
abbrev up (c : Fin 1000) : Fin 1024 := ⟨c.val, by omega⟩

/-- The class variance from the two sums and the divisor. -/
def varOf (s q d : EReal) : EReal := max (Ideal.div q d - Ideal.div s d * Ideal.div s d) zero

/-! ## The first stretch: the two shards summed, cut to 1000 classes; the count compared with one half -/

set_option maxHeartbeats 1000000 in
theorem s0_v5 (c : Fin 1000) (a : Fin 512) :
    v2[StableHlo.after (hostOps1 (F := Ideal)) V, main_v5] (ix2 c a) = sum2 (V (Proc.devRef .tc main_v1_0)) (up c) a := by
  delta hostOps1
  after_results_simp
  rw [sl_512, red_512]
  rfl

set_option maxHeartbeats 1000000 in
theorem s0_v6 (c : Fin 1000) (a : Fin 512) :
    v2[StableHlo.after (hostOps1 (F := Ideal)) V, main_v6] (ix2 c a) = sum2 (V (Proc.devRef .tc main_v1_1)) (up c) a := by
  delta hostOps1
  after_results_simp
  rw [sl_512, red_512]
  rfl

set_option maxHeartbeats 1000000 in
theorem s0_v8 (c : Fin 1000) :
    v1[StableHlo.after (hostOps1 (F := Ideal)) V, main_v8] (ix1 c) = sum1 (V (Proc.devRef .tc main_v1_2)) (up c) := by
  delta hostOps1
  after_results_simp
  show shapeCast S1000 _ shapeCasts_S1000x1_S1000 (ix1 c) = _
  rw [rs_col, sl_1, red_1]
  rfl

set_option maxHeartbeats 1000000 in
theorem s0_v10 (c : Fin 1000) :
    b1[StableHlo.after (hostOps1 (F := Ideal)) V, main_v10] (ix1 c)
      = FloatOps.cmpf (F := Ideal) (φ := .f32) .olt (sum1 (V (Proc.devRef .tc main_v1_2)) (up c)) half := by
  delta hostOps1
  after_results_simp
  show FloatOps.cmpf (F := Ideal) (φ := .f32) .olt (shapeCast S1000 _ shapeCasts_S1000x1_S1000 (ix1 c)) _ = _
  rw [rs_col, sl_1, red_1]
  rfl

set_option maxHeartbeats 1000000 in
theorem s0_cst3 :
    (StableHlo.after (hostOps1 (F := Ideal)) V (Proc.devRef .tc main_cst_3) : FVec Ideal S_ .f32) ix0 = one := by
  delta hostOps1
  after_results_simp
  rfl

set_option maxHeartbeats 1000000 in
theorem k0 {r : Ref sig .tc}
    (hr : r ∉ [main_cst, main_v2, main_cst_0, main_v3, main_cst_1, main_v4, main_v5, main_v6, main_v7, main_v8, main_cst_2, main_v9, main_v10, main_cst_3]) :
    StableHlo.after (hostOps1 (F := Ideal)) V (Proc.devRef .tc r) = V (Proc.devRef .tc r) :=
  StableHlo.after_of_writes_sub _ V
    (W := [main_cst, main_v2, main_cst_0, main_v3, main_cst_1, main_v4, main_v5, main_v6, main_v7, main_v8, main_cst_2, main_v9, main_v10, main_cst_3])
    (by delta hostOps1; simp [List.Forall]) hr

/-! ## The second stretch: the divisor -/

theorem s1_v11 (c : Fin 1000) :
    v1[StableHlo.after (hostOps1_1 (F := Ideal)) V, main_v11] (ix1 c)
      = Scalar.select (b1[V, main_v10] (ix1 c)) ((V (Proc.devRef .tc main_cst_3) : FVec Ideal S_ .f32) ix0) (v1[V, main_v8] (ix1 c)) := by
  delta hostOps1_1
  after_results_simp
  simp only [StableHlo.TRef.ofBuf, StableHlo.TRef.toBuf, cast_eq]
  rw [select_apply, bc_scalar]
  rfl

theorem k1 {r : Ref sig .tc} (hr : r ∉ [main_call0_v0, main_call0_v1, main_v11]) :
    StableHlo.after (hostOps1_1 (F := Ideal)) V (Proc.devRef .tc r) = V (Proc.devRef .tc r) :=
  StableHlo.after_of_writes_sub _ V (W := [main_call0_v0, main_call0_v1, main_v11]) (by delta hostOps1_1; simp [List.Forall]) hr

/-! ## The third stretch: the class mean, the class variance, the new count and its test against zero -/

set_option maxHeartbeats 1000000 in
theorem s2_v14 (c : Fin 1000) (a : Fin 512) :
    v2[StableHlo.after (hostOps1_2 (F := Ideal)) V, main_v14] (ix2 c a)
      = Ideal.div (v2[V, main_v5] (ix2 c a)) (v1[V, main_v11] (ix1 c)) := by
  delta hostOps1_2
  after_results_simp
  rw [hdivf_apply, bc_row, bc_col]

set_option maxHeartbeats 1000000 in
theorem s2_v21 (c : Fin 1000) (a : Fin 512) :
    v2[StableHlo.after (hostOps1_2 (F := Ideal)) V, main_v21] (ix2 c a)
      = varOf (v2[V, main_v5] (ix2 c a)) (v2[V, main_v6] (ix2 c a)) (v1[V, main_v11] (ix1 c)) := by
  delta hostOps1_2
  after_results_simp
  simp only [maximumf_apply, subf_apply, mulf_apply, hdivf_apply]
  rw [bc_row, bc_col]
  rfl

set_option maxHeartbeats 1000000 in
theorem s2_v22 (c : Fin 1000) :
    v1[StableHlo.after (hostOps1_2 (F := Ideal)) V, main_v22] (ix1 c) = v1[V, main_v8] (ix1 c) +ₑ v1[V, main_arg2] (ix1 c) := by
  delta hostOps1_2
  after_results_simp
  rfl

set_option maxHeartbeats 1000000 in
theorem s2_v24 (c : Fin 1000) :
    b1[StableHlo.after (hostOps1_2 (F := Ideal)) V, main_v24] (ix1 c)
      = FloatOps.cmpf (F := Ideal) (φ := .f32) .oeq (v1[V, main_v8] (ix1 c) +ₑ v1[V, main_arg2] (ix1 c)) zero := by
  delta hostOps1_2
  after_results_simp
  rfl

set_option maxHeartbeats 1000000 in
theorem s2_v26 (c : Fin 1000) :
    b1[StableHlo.after (hostOps1_2 (F := Ideal)) V, main_v26] (ix1 c)
      = FloatOps.cmpf (F := Ideal) (φ := .f32) .oeq (v1[V, main_v8] (ix1 c) +ₑ v1[V, main_arg2] (ix1 c)) zero := by
  delta hostOps1_2
  after_results_simp
  rfl

set_option maxHeartbeats 1000000 in
theorem s2_cst7 :
    (StableHlo.after (hostOps1_2 (F := Ideal)) V (Proc.devRef .tc main_cst_7) : FVec Ideal S_ .f32) ix0 = one := by
  delta hostOps1_2
  after_results_simp
  rfl

set_option maxHeartbeats 1000000 in
theorem k2 {r : Ref sig .tc}
    (hr : r ∉ [main_v12, main_v13, main_v14, main_v15, main_v16, main_v17, main_v18, main_v19, main_cst_4, main_v20, main_v21, main_v22, main_cst_5, main_v23, main_v24, main_cst_6, main_v25, main_v26, main_cst_7]) :
    StableHlo.after (hostOps1_2 (F := Ideal)) V (Proc.devRef .tc r) = V (Proc.devRef .tc r) :=
  StableHlo.after_of_writes_sub _ V
    (W := [main_v12, main_v13, main_v14, main_v15, main_v16, main_v17, main_v18, main_v19, main_cst_4, main_v20, main_v21, main_v22, main_cst_5, main_v23, main_v24, main_cst_6, main_v25, main_v26, main_cst_7])
    (by delta hostOps1_2; simp [List.Forall]) hr

/-! ## The fourth to sixth stretches: the blend weight -/

theorem s3_v27 (c : Fin 1000) :
    v1[StableHlo.after (hostOps1_3 (F := Ideal)) V, main_v27] (ix1 c)
      = Scalar.select (b1[V, main_v26] (ix1 c)) ((V (Proc.devRef .tc main_cst_7) : FVec Ideal S_ .f32) ix0) (v1[V, main_v22] (ix1 c)) := by
  delta hostOps1_3
  after_results_simp
  simp only [StableHlo.TRef.ofBuf, StableHlo.TRef.toBuf, cast_eq]
  rw [select_apply, bc_scalar]
  rfl

theorem k3 {r : Ref sig .tc} (hr : r ∉ [main_call1_v0, main_call1_v1, main_v27]) :
    StableHlo.after (hostOps1_3 (F := Ideal)) V (Proc.devRef .tc r) = V (Proc.devRef .tc r) :=
  StableHlo.after_of_writes_sub _ V (W := [main_call1_v0, main_call1_v1, main_v27]) (by delta hostOps1_3; simp [List.Forall]) hr

theorem s4_v28 (c : Fin 1000) :
    v1[StableHlo.after (hostOps1_4 (F := Ideal)) V, main_v28] (ix1 c)
      = Ideal.div (v1[V, main_v8] (ix1 c)) (v1[V, main_v27] (ix1 c)) := by
  delta hostOps1_4
  after_results_simp
  rfl

theorem s4_cst8 :
    (StableHlo.after (hostOps1_4 (F := Ideal)) V (Proc.devRef .tc main_cst_8) : FVec Ideal S_ .f32) ix0 = zero := by
  delta hostOps1_4
  after_results_simp
  rfl

theorem k4 {r : Ref sig .tc} (hr : r ∉ [main_v28, main_cst_8]) :
    StableHlo.after (hostOps1_4 (F := Ideal)) V (Proc.devRef .tc r) = V (Proc.devRef .tc r) :=
  StableHlo.after_of_writes_sub _ V (W := [main_v28, main_cst_8]) (by delta hostOps1_4; simp [List.Forall]) hr

theorem s5_v29 (c : Fin 1000) :
    v1[StableHlo.after (hostOps1_5 (F := Ideal)) V, main_v29] (ix1 c)
      = Scalar.select (b1[V, main_v24] (ix1 c)) ((V (Proc.devRef .tc main_cst_8) : FVec Ideal S_ .f32) ix0) (v1[V, main_v28] (ix1 c)) := by
  delta hostOps1_5
  after_results_simp
  simp only [StableHlo.TRef.ofBuf, StableHlo.TRef.toBuf, cast_eq]
  rw [select_apply, bc_scalar]
  rfl

theorem k5 {r : Ref sig .tc} (hr : r ∉ [main_call2_v0, main_call2_v1, main_v29]) :
    StableHlo.after (hostOps1_5 (F := Ideal)) V (Proc.devRef .tc r) = V (Proc.devRef .tc r) :=
  StableHlo.after_of_writes_sub _ V (W := [main_call2_v0, main_call2_v1, main_v29]) (by delta hostOps1_5; simp [List.Forall]) hr

/-! ## The last stretch: the three results from the class mean, the class variance and the blend weight -/

set_option maxHeartbeats 1000000 in
theorem s6_v45 (c : Fin 1000) (a : Fin 512) :
    v2[StableHlo.after (hostOps1_6 (F := Ideal)) V, main_v45] (ix2 c a)
      = covNew (v2[V, main_arg4] (ix2 c a)) (v2[V, main_v21] (ix2 c a)) (v1[V, main_v29] (ix1 c))
          (v2[V, main_arg3] (ix2 c a)) (v2[V, main_v14] (ix2 c a)) := by
  delta hostOps1_6
  after_results_simp
  simp only [addf_apply, mulf_apply, subf_apply]
  rw [bc_row, bc_row, bc_row]
  simp only [mulf_apply, subf_apply]
  rw [bc_col]
  rfl

set_option maxHeartbeats 1000000 in
theorem s6_v52 (c : Fin 1000) (a : Fin 512) :
    v2[StableHlo.after (hostOps1_6 (F := Ideal)) V, main_v52] (ix2 c a)
      = meanNew (v2[V, main_arg3] (ix2 c a)) (v1[V, main_v29] (ix1 c)) (v2[V, main_v14] (ix2 c a)) := by
  delta hostOps1_6
  after_results_simp
  simp only [addf_apply, mulf_apply, subf_apply]
  rw [bc_row, bc_row]
  simp only [subf_apply]
  rw [bc_col]
  rfl

set_option maxHeartbeats 1000000 in
theorem s6_v53 (c : Fin 1000) :
    v1[StableHlo.after (hostOps1_6 (F := Ideal)) V, main_v53] (ix1 c) = v1[V, main_arg2] (ix1 c) +ₑ v1[V, main_v8] (ix1 c) := by
  delta hostOps1_6
  after_results_simp
  rfl

set_option maxHeartbeats 1000000 in
theorem k6 {r : Ref sig .tc}
    (hr : r ∉ [main_v30, main_cst_9, main_v31, main_v32, main_v33, main_v34, main_v35, main_v36, main_v37, main_cst_10, main_v38, main_v39, main_v40, main_v41, main_v42, main_v43, main_v44, main_v45, main_cst_11, main_v46, main_v47, main_v48, main_v49, main_v50, main_v51, main_v52, main_v53]) :
    StableHlo.after (hostOps1_6 (F := Ideal)) V (Proc.devRef .tc r) = V (Proc.devRef .tc r) :=
  StableHlo.after_of_writes_sub _ V
    (W := [main_v30, main_cst_9, main_v31, main_v32, main_v33, main_v34, main_v35, main_v36, main_v37, main_cst_10, main_v38, main_v39, main_v40, main_v41, main_v42, main_v43, main_v44, main_v45, main_cst_11, main_v46, main_v47, main_v48, main_v49, main_v50, main_v51, main_v52, main_v53])
    (by delta hostOps1_6; simp [List.Forall]) hr

/-! ## The whole tail -/

variable (W : Valuation τ sig (Elt Ideal))

/-- The buffers the tail starts from, at their literal vector types: the three accumulated arrays of the region and
    the three running moments. -/
abbrev A2 : FVec Ideal S2x1024x512 .f32 := W (Proc.devRef .tc main_v1_0)
abbrev A3 : FVec Ideal S2x1024x512 .f32 := W (Proc.devRef .tc main_v1_1)
abbrev A4 : FVec Ideal S2x1024x1 .f32 := W (Proc.devRef .tc main_v1_2)
abbrev Kc : FVec Ideal S1000 .f32 := W (Proc.devRef .tc main_arg2)
abbrev Mn : FVec Ideal S1000x512 .f32 := W (Proc.devRef .tc main_arg3)
abbrev Cv : FVec Ideal S1000x512 .f32 := W (Proc.devRef .tc main_arg4)

/-- Class `c`'s feature sum, sum of squares and count as the tail reads them: the two shards' entries added to zero. -/
abbrev sT (c : Fin 1000) (a : Fin 512) : EReal := zero + ∑ h : Fin 2, A2 W (ix3 h (up c) a)
abbrev qT (c : Fin 1000) (a : Fin 512) : EReal := zero + ∑ h : Fin 2, A3 W (ix3 h (up c) a)
abbrev nT (c : Fin 1000) : EReal := zero + ∑ h : Fin 2, A4 W (ix3 h (up c) (0 : Fin 1))

/-- The seven stretches one after the other. -/
theorem tail_flat :
    StableHlo.after (tailOps (F := Ideal)).flatten W
      = StableHlo.after hostOps1_6 (StableHlo.after hostOps1_5 (StableHlo.after hostOps1_4 (StableHlo.after hostOps1_3
          (StableHlo.after hostOps1_2 (StableHlo.after hostOps1_1 (StableHlo.after hostOps1 W)))))) := by
  simp only [tailOps, List.flatten_cons, List.flatten_nil, List.append_nil, StableHlo.after_append]

theorem tail_v53 (c : Fin 1000) :
    (StableHlo.after (tailOps (F := Ideal)).flatten W (Proc.devRef .tc main_v53) : FVec Ideal S1000 .f32) (ix1 c)
      = Kc W (ix1 c) + nT W c := by
  rw [tail_flat, s6_v53]
  rw [k5 _ (r := main_arg2) (by decide), k5 _ (r := main_v8) (by decide)]
  rw [k4 _ (r := main_arg2) (by decide), k4 _ (r := main_v8) (by decide)]
  rw [k3 _ (r := main_arg2) (by decide), k3 _ (r := main_v8) (by decide)]
  rw [k2 _ (r := main_arg2) (by decide), k2 _ (r := main_v8) (by decide)]
  rw [k1 _ (r := main_arg2) (by decide), k1 _ (r := main_v8) (by decide)]
  rw [k0 _ (r := main_arg2) (by decide), s0_v8]
  rfl

theorem tail_v52 (c : Fin 1000) (a : Fin 512) :
    (StableHlo.after (tailOps (F := Ideal)).flatten W (Proc.devRef .tc main_v52) : FVec Ideal S1000x512 .f32) (ix2 c a)
      = meanNew (Mn W (ix2 c a)) (weight (nT W c) (Kc W (ix1 c))) (Ideal.div (sT W c a) (amtK (nT W c))) := by
  rw [tail_flat, s6_v52]
  rw [k5 _ (r := main_arg3) (by decide), k5 _ (r := main_v14) (by decide), s5_v29]
  rw [k4 _ (r := main_arg3) (by decide), k4 _ (r := main_v14) (by decide), k4 _ (r := main_v24) (by decide), s4_cst8, s4_v28]
  rw [k3 _ (r := main_arg3) (by decide), k3 _ (r := main_v14) (by decide), k3 _ (r := main_v24) (by decide),
    k3 _ (r := main_v8) (by decide), s3_v27]
  rw [k2 _ (r := main_arg3) (by decide), k2 _ (r := main_v8) (by decide), s2_v14, s2_v24, s2_v26, s2_cst7, s2_v22]
  rw [k1 _ (r := main_arg3) (by decide), k1 _ (r := main_v8) (by decide), k1 _ (r := main_v5) (by decide),
    k1 _ (r := main_arg2) (by decide), s1_v11]
  rw [k0 _ (r := main_arg3) (by decide), k0 _ (r := main_arg2) (by decide), s0_v8, s0_v5, s0_v10, s0_cst3]
  rfl

theorem tail_v45 (c : Fin 1000) (a : Fin 512) :
    (StableHlo.after (tailOps (F := Ideal)).flatten W (Proc.devRef .tc main_v45) : FVec Ideal S1000x512 .f32) (ix2 c a)
      = covNew (Cv W (ix2 c a)) (varK (sT W c a) (qT W c a) (nT W c)) (weight (nT W c) (Kc W (ix1 c))) (Mn W (ix2 c a))
          (Ideal.div (sT W c a) (amtK (nT W c))) := by
  rw [tail_flat, s6_v45]
  rw [k5 _ (r := main_arg4) (by decide), k5 _ (r := main_v21) (by decide), k5 _ (r := main_arg3) (by decide),
    k5 _ (r := main_v14) (by decide), s5_v29]
  rw [k4 _ (r := main_arg4) (by decide), k4 _ (r := main_v21) (by decide), k4 _ (r := main_arg3) (by decide),
    k4 _ (r := main_v14) (by decide), k4 _ (r := main_v24) (by decide), s4_cst8, s4_v28]
  rw [k3 _ (r := main_arg4) (by decide), k3 _ (r := main_v21) (by decide), k3 _ (r := main_arg3) (by decide),
    k3 _ (r := main_v14) (by decide), k3 _ (r := main_v24) (by decide), k3 _ (r := main_v8) (by decide), s3_v27]
  rw [k2 _ (r := main_arg4) (by decide), k2 _ (r := main_arg3) (by decide), k2 _ (r := main_v8) (by decide),
    s2_v21, s2_v14, s2_v24, s2_v26, s2_cst7, s2_v22]
  rw [k1 _ (r := main_arg4) (by decide), k1 _ (r := main_arg3) (by decide), k1 _ (r := main_v8) (by decide),
    k1 _ (r := main_v5) (by decide), k1 _ (r := main_v6) (by decide), k1 _ (r := main_arg2) (by decide), s1_v11]
  rw [k0 _ (r := main_arg4) (by decide), k0 _ (r := main_arg3) (by decide), k0 _ (r := main_arg2) (by decide),
    s0_v8, s0_v5, s0_v6, s0_v10, s0_cst3]
  rfl

/-- No operation of the tail writes an argument. -/
theorem tail_keep {r : Ref sig .tc}
    (h0 : r ∉ [main_cst, main_v2, main_cst_0, main_v3, main_cst_1, main_v4, main_v5, main_v6, main_v7, main_v8, main_cst_2, main_v9, main_v10, main_cst_3])
    (h1 : r ∉ [main_call0_v0, main_call0_v1, main_v11])
    (h2 : r ∉ [main_v12, main_v13, main_v14, main_v15, main_v16, main_v17, main_v18, main_v19, main_cst_4, main_v20, main_v21, main_v22, main_cst_5, main_v23, main_v24, main_cst_6, main_v25, main_v26, main_cst_7])
    (h3 : r ∉ [main_call1_v0, main_call1_v1, main_v27])
    (h4 : r ∉ [main_v28, main_cst_8])
    (h5 : r ∉ [main_call2_v0, main_call2_v1, main_v29])
    (h6 : r ∉ [main_v30, main_cst_9, main_v31, main_v32, main_v33, main_v34, main_v35, main_v36, main_v37, main_cst_10, main_v38, main_v39, main_v40, main_v41, main_v42, main_v43, main_v44, main_v45, main_cst_11, main_v46, main_v47, main_v48, main_v49, main_v50, main_v51, main_v52, main_v53]) :
    StableHlo.after (tailOps (F := Ideal)).flatten W (Proc.devRef .tc r) = W (Proc.devRef .tc r) := by
  rw [tail_flat, k6 _ h6, k5 _ h5, k4 _ h4, k3 _ h3, k2 _ h2, k1 _ h1, k0 _ h0]

theorem tail_arg0 : StableHlo.after (tailOps (F := Ideal)).flatten W (Proc.devRef .tc main_arg0) = W (Proc.devRef .tc main_arg0) :=
  tail_keep W (by decide) (by decide) (by decide) (by decide) (by decide) (by decide) (by decide)
theorem tail_arg1 : StableHlo.after (tailOps (F := Ideal)).flatten W (Proc.devRef .tc main_arg1) = W (Proc.devRef .tc main_arg1) :=
  tail_keep W (by decide) (by decide) (by decide) (by decide) (by decide) (by decide) (by decide)
theorem tail_arg2 : StableHlo.after (tailOps (F := Ideal)).flatten W (Proc.devRef .tc main_arg2) = W (Proc.devRef .tc main_arg2) :=
  tail_keep W (by decide) (by decide) (by decide) (by decide) (by decide) (by decide) (by decide)
theorem tail_arg3 : StableHlo.after (tailOps (F := Ideal)).flatten W (Proc.devRef .tc main_arg3) = W (Proc.devRef .tc main_arg3) :=
  tail_keep W (by decide) (by decide) (by decide) (by decide) (by decide) (by decide) (by decide)
theorem tail_arg4 : StableHlo.after (tailOps (F := Ideal)).flatten W (Proc.devRef .tc main_arg4) = W (Proc.devRef .tc main_arg4) :=
  tail_keep W (by decide) (by decide) (by decide) (by decide) (by decide) (by decide) (by decide)

end Cert.KernelIdeal.TailValue

end
-- ==== Proof.KI.Arrays.lean ====
/-
  What the kernel's three output arrays hold after the region.  Each accumulator window has one
  block per shard, at block index (s, 0, 0), and is written back only at a shard's last step, the
  point 32·s + 31; the two written-back blocks tile the array.  So row block s of each array is
  what the accumulator's staging buffer held after the body at point 32·s + 31.
-/
import proofs.«419242_j18021682774195_3_alg».proof.Proof.KI.Data
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- The grid has 64 points. -/
theorem N64 : cfg0.N = 64 := N_0

/-- The accumulators' contents depend on the position only through its value. -/
theorem outsAt0_congr (c : Dev nD) {n n' : ℕ} (h : n = n') (hn : n < cfg0.N) (hn' : n' < cfg0.N) :
    outsAt0 m c n hn = outsAt0 m c n' hn' := by
  subst h; rfl

/-! ## The index maps of the three accumulator windows, decided over the grid -/

/-- Window 2's block index at position t is (t / 32, 0, 0). -/
theorem idx2 : ∀ t : Fin cfg0.N, win0_2.index t (0 : Fin 3) = t.val / 32
    ∧ win0_2.index t (1 : Fin 3) = 0 ∧ win0_2.index t (2 : Fin 3) = 0 :=
  (by decide +kernel : ∀ t : Fin grid0.N, win0_2.index t (0 : Fin 3) = t.val / 32
    ∧ win0_2.index t (1 : Fin 3) = 0 ∧ win0_2.index t (2 : Fin 3) = 0)

/-- Window 3's block index at position t is (t / 32, 0, 0). -/
theorem idx3 : ∀ t : Fin cfg0.N, win0_3.index t (0 : Fin 3) = t.val / 32
    ∧ win0_3.index t (1 : Fin 3) = 0 ∧ win0_3.index t (2 : Fin 3) = 0 :=
  (by decide +kernel : ∀ t : Fin grid0.N, win0_3.index t (0 : Fin 3) = t.val / 32
    ∧ win0_3.index t (1 : Fin 3) = 0 ∧ win0_3.index t (2 : Fin 3) = 0)

/-- Window 4's block index at position t is (t / 32, 0, 0). -/
theorem idx4 : ∀ t : Fin cfg0.N, win0_4.index t (0 : Fin 3) = t.val / 32
    ∧ win0_4.index t (1 : Fin 3) = 0 ∧ win0_4.index t (2 : Fin 3) = 0 :=
  (by decide +kernel : ∀ t : Fin grid0.N, win0_4.index t (0 : Fin 3) = t.val / 32
    ∧ win0_4.index t (1 : Fin 3) = 0 ∧ win0_4.index t (2 : Fin 3) = 0)

/-- The last position of shard s. -/
def lastPt (s : ℕ) (hs : s < 2) : Fin cfg0.N := ⟨32 * s + 31, by rw [N64]; omega⟩

/-! ## Window 2: the per-class feature sums -/

/-- Row block s of the array is the accumulator after the last step of shard s. -/
def G2 (c : Dev nD) : S2x1024x512.Idx → Elt F .f32 := fun j =>
  (outsAt0 m c (32 * (j 0).val + 31) (by have h : (j 0).val < 2 := (j 0).isLt; rw [N64]; omega)).1
    (ix3 (0 : Fin 1) (j 1) (j 2))

/-- The whole-array function at an element of the block of a shard's last position. -/
theorem G2_emb (c : Dev nD) (t : Fin cfg0.N) (ht : t.val % 32 = 31) (j : S1x1024x512.Idx) :
    G2 m c (((cfg0.win 2).blk t).view.emb j) = (outsAt0 m c t.val t.isLt).1 j := by
  obtain ⟨i0, i1, i2⟩ := idx2 t
  have hj0 : (j 0).val < 1 := (j 0).isLt
  have e0 : ((((cfg0.win 2).blk t).view.emb j) 0).val = win0_2.index t (0 : Fin 3) * 1 + 1 * (j 0).val := rfl
  have e1 : ((((cfg0.win 2).blk t).view.emb j) 1).val = win0_2.index t (1 : Fin 3) * 1024 + 1 * (j 1).val := rfl
  have e2 : ((((cfg0.win 2).blk t).view.emb j) 2).val = win0_2.index t (2 : Fin 3) * 512 + 1 * (j 2).val := rfl
  unfold G2
  rw [outsAt0_congr m c (show 32 * ((((cfg0.win 2).blk t).view.emb j) 0).val + 31 = t.val by omega) _ t.isLt]
  refine congrArg (outsAt0 m c t.val t.isLt).1 ?_
  funext a
  apply Fin.ext
  match a with
  | ⟨0, _⟩ => show 0 = (j 0).val; omega
  | ⟨1, _⟩ => show ((((cfg0.win 2).blk t).view.emb j) 1).val = (j 1).val; omega
  | ⟨2, _⟩ => show ((((cfg0.win 2).blk t).view.emb j) 2).val = (j 2).val; omega

/-- What a shard's last position writes back is its block of the whole-array function. -/
theorem flushed2_eq (c : Dev nD) (t : Fin cfg0.N) (hf : (cfg0.win 2).flush t = true) :
    (dats m 0 c).flushed 2 t = ((cfg0.win 2).blk t).view.read (Elt F) (G2 m c) := by
  have ht : t.val % 32 = 31 := (flush0_2 t).mp hf
  show (cfg0.win 2).cut (grid0.coords t) ((dats m 0 c).after 2 t) = _
  rw [after0_2]
  funext j
  exact (G2_emb m c t ht j).symm

/-- An index of the array is in position t's block iff each coordinate is in the block's range. -/
theorem mem_blk2 (t : Fin cfg0.N) (i : S2x1024x512.Idx) :
    i ∈ ((cfg0.win 2).blk t).view.set ↔ ∀ a : Fin 3, win0_2.index t a * S1x1024x512.size a ≤ (i a).val ∧ (i a).val < win0_2.index t a * S1x1024x512.size a + S1x1024x512.size a := by
  show i ∈ ((View.whole main_v1_0).slice (win0_2.rect t)).set ↔ _
  rw [View.set_slice_whole, Rect.mem_set_unit]
  exact Iff.rfl

/-- Every index of the array is in the block written back at its shard's last position. -/
theorem cover2 (i : S2x1024x512.Idx) :
    ∃ t : Fin cfg0.N, (cfg0.win 2).flush t = true ∧ i ∈ ((cfg0.win 2).blk t).view.set := by
  have h0 : (i 0).val < 2 := (i 0).isLt
  have h1 : (i 1).val < 1024 := (i 1).isLt
  have h2 : (i 2).val < 512 := (i 2).isLt
  have hv : (lastPt (i 0).val h0).val = 32 * (i 0).val + 31 := rfl
  obtain ⟨i0, i1, i2⟩ := idx2 (lastPt (i 0).val h0)
  refine ⟨lastPt (i 0).val h0, (flush0_2 _).mpr (by rw [hv]; omega), ?_⟩
  rw [mem_blk2]
  intro a
  match a with
  | ⟨0, _⟩ => show win0_2.index (lastPt (i 0).val h0) (0 : Fin 3) * 1 ≤ (i 0).val ∧ (i 0).val < win0_2.index (lastPt (i 0).val h0) (0 : Fin 3) * 1 + 1; omega
  | ⟨1, _⟩ => show win0_2.index (lastPt (i 0).val h0) (1 : Fin 3) * 1024 ≤ (i 1).val ∧ (i 1).val < win0_2.index (lastPt (i 0).val h0) (1 : Fin 3) * 1024 + 1024; omega
  | ⟨2, _⟩ => show win0_2.index (lastPt (i 0).val h0) (2 : Fin 3) * 512 ≤ (i 2).val ∧ (i 2).val < win0_2.index (lastPt (i 0).val h0) (2 : Fin 3) * 512 + 512; omega

/-- The array ends holding the whole-array function. -/
theorem arr2 (c : Dev nD) : (dats m 0 c).arrAt 2 cfg0.N = G2 m c :=
  (dats m 0 c).arrAt_eq_of_cover 2 (G2 m c) (fun t hf => flushed2_eq m c t hf) cover2

/-- Row block s of the feature-sum array is accumulator 2 after position 32·s + 31. -/
theorem arr2_apply (c : Dev nD) (s : Fin 2) (cc : Fin 1024) (a : Fin 512) (hn : 32 * s.val + 31 < cfg0.N) :
    ((dats m 0 c).arrAt 2 cfg0.N : Vec F S2x1024x512 .f32) (ix3 s cc a)
      = (outsAt0 m c (32 * s.val + 31) hn).1 (ix3 0 cc a) := by
  rw [arr2]
  rfl

/-! ## Window 3: the per-class sums of squares -/

/-- Row block s of the array is the accumulator after the last step of shard s. -/
def G3 (c : Dev nD) : S2x1024x512.Idx → Elt F .f32 := fun j =>
  (outsAt0 m c (32 * (j 0).val + 31) (by have h : (j 0).val < 2 := (j 0).isLt; rw [N64]; omega)).2.1
    (ix3 (0 : Fin 1) (j 1) (j 2))

/-- The whole-array function at an element of the block of a shard's last position. -/
theorem G3_emb (c : Dev nD) (t : Fin cfg0.N) (ht : t.val % 32 = 31) (j : S1x1024x512.Idx) :
    G3 m c (((cfg0.win 3).blk t).view.emb j) = (outsAt0 m c t.val t.isLt).2.1 j := by
  obtain ⟨i0, i1, i2⟩ := idx3 t
  have hj0 : (j 0).val < 1 := (j 0).isLt
  have e0 : ((((cfg0.win 3).blk t).view.emb j) 0).val = win0_3.index t (0 : Fin 3) * 1 + 1 * (j 0).val := rfl
  have e1 : ((((cfg0.win 3).blk t).view.emb j) 1).val = win0_3.index t (1 : Fin 3) * 1024 + 1 * (j 1).val := rfl
  have e2 : ((((cfg0.win 3).blk t).view.emb j) 2).val = win0_3.index t (2 : Fin 3) * 512 + 1 * (j 2).val := rfl
  unfold G3
  rw [outsAt0_congr m c (show 32 * ((((cfg0.win 3).blk t).view.emb j) 0).val + 31 = t.val by omega) _ t.isLt]
  refine congrArg (outsAt0 m c t.val t.isLt).2.1 ?_
  funext a
  apply Fin.ext
  match a with
  | ⟨0, _⟩ => show 0 = (j 0).val; omega
  | ⟨1, _⟩ => show ((((cfg0.win 3).blk t).view.emb j) 1).val = (j 1).val; omega
  | ⟨2, _⟩ => show ((((cfg0.win 3).blk t).view.emb j) 2).val = (j 2).val; omega

/-- What a shard's last position writes back is its block of the whole-array function. -/
theorem flushed3_eq (c : Dev nD) (t : Fin cfg0.N) (hf : (cfg0.win 3).flush t = true) :
    (dats m 0 c).flushed 3 t = ((cfg0.win 3).blk t).view.read (Elt F) (G3 m c) := by
  have ht : t.val % 32 = 31 := (flush0_3 t).mp hf
  show (cfg0.win 3).cut (grid0.coords t) ((dats m 0 c).after 3 t) = _
  rw [after0_3]
  funext j
  exact (G3_emb m c t ht j).symm

/-- An index of the array is in position t's block iff each coordinate is in the block's range. -/
theorem mem_blk3 (t : Fin cfg0.N) (i : S2x1024x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v1_1).slice (win0_3.rect t)).set ↔ _
  rw [View.set_slice_whole, Rect.mem_set_unit]
  exact Iff.rfl

/-- Every index of the array is in the block written back at its shard's last position. -/
theorem cover3 (i : S2x1024x512.Idx) :
    ∃ t : Fin cfg0.N, (cfg0.win 3).flush t = true ∧ i ∈ ((cfg0.win 3).blk t).view.set := by
  have h0 : (i 0).val < 2 := (i 0).isLt
  have h1 : (i 1).val < 1024 := (i 1).isLt
  have h2 : (i 2).val < 512 := (i 2).isLt
  have hv : (lastPt (i 0).val h0).val = 32 * (i 0).val + 31 := rfl
  obtain ⟨i0, i1, i2⟩ := idx3 (lastPt (i 0).val h0)
  refine ⟨lastPt (i 0).val h0, (flush0_3 _).mpr (by rw [hv]; omega), ?_⟩
  rw [mem_blk3]
  intro a
  match a with
  | ⟨0, _⟩ => show win0_3.index (lastPt (i 0).val h0) (0 : Fin 3) * 1 ≤ (i 0).val ∧ (i 0).val < win0_3.index (lastPt (i 0).val h0) (0 : Fin 3) * 1 + 1; omega
  | ⟨1, _⟩ => show win0_3.index (lastPt (i 0).val h0) (1 : Fin 3) * 1024 ≤ (i 1).val ∧ (i 1).val < win0_3.index (lastPt (i 0).val h0) (1 : Fin 3) * 1024 + 1024; omega
  | ⟨2, _⟩ => show win0_3.index (lastPt (i 0).val h0) (2 : Fin 3) * 512 ≤ (i 2).val ∧ (i 2).val < win0_3.index (lastPt (i 0).val h0) (2 : Fin 3) * 512 + 512; omega

/-- The array ends holding the whole-array function. -/
theorem arr3 (c : Dev nD) : (dats m 0 c).arrAt 3 cfg0.N = G3 m c :=
  (dats m 0 c).arrAt_eq_of_cover 3 (G3 m c) (fun t hf => flushed3_eq m c t hf) cover3

/-- Row block s of the sum-of-squares array is accumulator 3 after position 32·s + 31. -/
theorem arr3_apply (c : Dev nD) (s : Fin 2) (cc : Fin 1024) (a : Fin 512) (hn : 32 * s.val + 31 < cfg0.N) :
    ((dats m 0 c).arrAt 3 cfg0.N : Vec F S2x1024x512 .f32) (ix3 s cc a)
      = (outsAt0 m c (32 * s.val + 31) hn).2.1 (ix3 0 cc a) := by
  rw [arr3]
  rfl

/-! ## Window 4: the per-class counts (one column) -/

/-- Row block s of the array is the accumulator after the last step of shard s. -/
def G4 (c : Dev nD) : S2x1024x1.Idx → Elt F .f32 := fun j =>
  (outsAt0 m c (32 * (j 0).val + 31) (by have h : (j 0).val < 2 := (j 0).isLt; rw [N64]; omega)).2.2
    (ix3 (0 : Fin 1) (j 1) (j 2))

/-- The whole-array function at an element of the block of a shard's last position. -/
theorem G4_emb (c : Dev nD) (t : Fin cfg0.N) (ht : t.val % 32 = 31) (j : S1x1024x1.Idx) :
    G4 m c (((cfg0.win 4).blk t).view.emb j) = (outsAt0 m c t.val t.isLt).2.2 j := by
  obtain ⟨i0, i1, i2⟩ := idx4 t
  have hj0 : (j 0).val < 1 := (j 0).isLt
  have e0 : ((((cfg0.win 4).blk t).view.emb j) 0).val = win0_4.index t (0 : Fin 3) * 1 + 1 * (j 0).val := rfl
  have e1 : ((((cfg0.win 4).blk t).view.emb j) 1).val = win0_4.index t (1 : Fin 3) * 1024 + 1 * (j 1).val := rfl
  have e2 : ((((cfg0.win 4).blk t).view.emb j) 2).val = win0_4.index t (2 : Fin 3) * 1 + 1 * (j 2).val := rfl
  unfold G4
  rw [outsAt0_congr m c (show 32 * ((((cfg0.win 4).blk t).view.emb j) 0).val + 31 = t.val by omega) _ t.isLt]
  refine congrArg (outsAt0 m c t.val t.isLt).2.2 ?_
  funext a
  apply Fin.ext
  match a with
  | ⟨0, _⟩ => show 0 = (j 0).val; omega
  | ⟨1, _⟩ => show ((((cfg0.win 4).blk t).view.emb j) 1).val = (j 1).val; omega
  | ⟨2, _⟩ => show ((((cfg0.win 4).blk t).view.emb j) 2).val = (j 2).val; omega

/-- What a shard's last position writes back is its block of the whole-array function. -/
theorem flushed4_eq (c : Dev nD) (t : Fin cfg0.N) (hf : (cfg0.win 4).flush t = true) :
    (dats m 0 c).flushed 4 t = ((cfg0.win 4).blk t).view.read (Elt F) (G4 m c) := by
  have ht : t.val % 32 = 31 := (flush0_4 t).mp hf
  show (cfg0.win 4).cut (grid0.coords t) ((dats m 0 c).after 4 t) = _
  rw [after0_4]
  funext j
  exact (G4_emb m c t ht j).symm

/-- An index of the array is in position t's block iff each coordinate is in the block's range. -/
theorem mem_blk4 (t : Fin cfg0.N) (i : S2x1024x1.Idx) :
    i ∈ ((cfg0.win 4).blk t).view.set ↔ ∀ a : Fin 3, win0_4.index t a * S1x1024x1.size a ≤ (i a).val ∧ (i a).val < win0_4.index t a * S1x1024x1.size a + S1x1024x1.size a := by
  show i ∈ ((View.whole main_v1_2).slice (win0_4.rect t)).set ↔ _
  rw [View.set_slice_whole, Rect.mem_set_unit]
  exact Iff.rfl

/-- Every index of the array is in the block written back at its shard's last position. -/
theorem cover4 (i : S2x1024x1.Idx) :
    ∃ t : Fin cfg0.N, (cfg0.win 4).flush t = true ∧ i ∈ ((cfg0.win 4).blk t).view.set := by
  have h0 : (i 0).val < 2 := (i 0).isLt
  have h1 : (i 1).val < 1024 := (i 1).isLt
  have h2 : (i 2).val < 1 := (i 2).isLt
  have hv : (lastPt (i 0).val h0).val = 32 * (i 0).val + 31 := rfl
  obtain ⟨i0, i1, i2⟩ := idx4 (lastPt (i 0).val h0)
  refine ⟨lastPt (i 0).val h0, (flush0_4 _).mpr (by rw [hv]; omega), ?_⟩
  rw [mem_blk4]
  intro a
  match a with
  | ⟨0, _⟩ => show win0_4.index (lastPt (i 0).val h0) (0 : Fin 3) * 1 ≤ (i 0).val ∧ (i 0).val < win0_4.index (lastPt (i 0).val h0) (0 : Fin 3) * 1 + 1; omega
  | ⟨1, _⟩ => show win0_4.index (lastPt (i 0).val h0) (1 : Fin 3) * 1024 ≤ (i 1).val ∧ (i 1).val < win0_4.index (lastPt (i 0).val h0) (1 : Fin 3) * 1024 + 1024; omega
  | ⟨2, _⟩ => show win0_4.index (lastPt (i 0).val h0) (2 : Fin 3) * 1 ≤ (i 2).val ∧ (i 2).val < win0_4.index (lastPt (i 0).val h0) (2 : Fin 3) * 1 + 1; omega

/-- The array ends holding the whole-array function. -/
theorem arr4 (c : Dev nD) : (dats m 0 c).arrAt 4 cfg0.N = G4 m c :=
  (dats m 0 c).arrAt_eq_of_cover 4 (G4 m c) (fun t hf => flushed4_eq m c t hf) cover4

/-- Row block s of the count array is accumulator 4 after position 32·s + 31. -/
theorem arr4_apply (c : Dev nD) (s : Fin 2) (cc : Fin 1024) (hn : 32 * s.val + 31 < cfg0.N) :
    ((dats m 0 c).arrAt 4 cfg0.N : Vec F S2x1024x1 .f32) (ix3 s cc 0)
      = (outsAt0 m c (32 * s.val + 31) hn).2.2 (ix3 0 cc 0) := by
  rw [arr4]
  rfl

end Cert.KernelIdeal.Arr

end
-- ==== Proof.KI.Found.lean ====
/-
  What each case of the body leaves in the three accumulators, as the body's own arithmetic:
  at a shard's first step the accumulators are zeroed and then updated from the zero block; at a
  later step they are updated from their running contents.
-/
import proofs.«419242_j18021682774195_3_alg».proof.Proof.KI.Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The all-zero offsets of a rank-3 block, as the constant function. -/
private theorem hz3 : (![0, 0, 0] : Fin 3 → Nat) = fun _ => 0 := funext fun a => by fin_cases a <;> rfl
/-- The all-zero offsets of a rank-2 block, as the constant function. -/
private theorem hz2 : (![0, 0] : Fin 2 → Nat) = fun _ => 0 := funext fun a => by fin_cases a <;> rfl

/-- First step, the sum accumulator: the update of the zero block. -/
theorem out0_A_2_eq (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i) (x0 : Vec F S1x1024 .i32) (x1 : Vec F S1024x512 .f32) :
    out0_A_2 c i arg2 harg2 arg3 harg3 arg4 harg4 arg5 harg5 arg6 harg6 hc0 x0 x1 = k0_pay7 x0 x1 (k0_pay2 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x1024x512) hz3, View.readCov_unit_zero (S := S1x1024x512) _ hz3]
  simp only [View.readAt_eq_ld, harg2.read_unread, harg3.read_unread, harg4.read_unread, harg5.read_unread, harg6.read_unread,
    View.ld_unit_zero (S := S1x1024) hz2, View.ld_unit_zero (S := S1024x512) hz2, View.ld_unit_zero (S := S1x1024x512) hz3,
    View.readCov_unit_zero (S := S1x1024x512) _ hz3]

/-- First step, the sum-of-squares accumulator. -/
theorem out0_A_3_eq (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i) (x0 : Vec F S1x1024 .i32) (x1 : Vec F S1024x512 .f32) :
    out0_A_3 c i arg2 harg2 arg3 harg3 arg4 harg4 arg5 harg5 arg6 harg6 hc0 x0 x1 = k0_pay8 x0 x1 (k0_pay3 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x1024x512) hz3, View.readCov_unit_zero (S := S1x1024x512) _ hz3]
  simp only [View.readAt_eq_ld, harg2.read_unread, harg3.read_unread, harg4.read_unread, harg5.read_unread, harg6.read_unread,
    View.ld_unit_zero (S := S1x1024) hz2, View.ld_unit_zero (S := S1024x512) hz2, View.ld_unit_zero (S := S1x1024x512) hz3,
    View.readCov_unit_zero (S := S1x1024x512) _ hz3]

/-- First step, the count accumulator. -/
theorem out0_A_4_eq (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : cond0_0 i) (x0 : Vec F S1x1024 .i32) (x1 : Vec F S1024x512 .f32) :
    out0_A_4 c i arg2 harg2 arg3 harg3 arg4 harg4 arg5 harg5 arg6 harg6 hc0 x0 x1 = k0_pay1 (k0_pay9 (k0_pay4 (F := F))) (k0_pay10 x0) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x1024x1) hz3, View.readCov_unit_zero (S := S1x1024x1) _ hz3]
  simp only [View.readAt_eq_ld, harg2.read_unread, harg3.read_unread, harg4.read_unread, harg5.read_unread, harg6.read_unread,
    View.ld_unit_zero (S := S1x1024) hz2, View.ld_unit_zero (S := S1024x512) hz2, View.ld_unit_zero (S := S1x1024x1) hz3,
    View.readCov_unit_zero (S := S1x1024x1) _ hz3]

/-- Later step, the sum accumulator: the update of its running contents. -/
theorem out0_B_2_eq (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i) (x0 : Vec F S1x1024 .i32) (x1 : Vec F S1024x512 .f32)
    (xo2 : Vec F S1x1024x512 .f32) (xo3 : Vec F S1x1024x512 .f32) (xo4 : Vec F S1x1024x1 .f32) :
    out0_B_2 c i arg2 harg2 arg3 harg3 arg4 harg4 arg5 harg5 arg6 harg6 hc0 x0 x1 xo2 xo3 xo4 = k0_pay7 x0 x1 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero (S := S1x1024x512) hz3]
  simp only [View.readAt_eq_ld, harg2.read_unread, harg3.read_unread, harg4.read_unread, harg5.read_unread, harg6.read_unread,
    View.ld_unit_zero (S := S1x1024) hz2, View.ld_unit_zero (S := S1024x512) hz2, View.ld_unit_zero (S := S1x1024x512) hz3,
    View.readCov_unit_zero (S := S1x1024x512) _ hz3]

/-- Later step, the sum-of-squares accumulator. -/
theorem out0_B_3_eq (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i) (x0 : Vec F S1x1024 .i32) (x1 : Vec F S1024x512 .f32)
    (xo2 : Vec F S1x1024x512 .f32) (xo3 : Vec F S1x1024x512 .f32) (xo4 : Vec F S1x1024x1 .f32) :
    out0_B_3 c i arg2 harg2 arg3 harg3 arg4 harg4 arg5 harg5 arg6 harg6 hc0 x0 x1 xo2 xo3 xo4 = k0_pay8 x0 x1 xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero (S := S1x1024x512) hz3]
  simp only [View.readAt_eq_ld, harg2.read_unread, harg3.read_unread, harg4.read_unread, harg5.read_unread, harg6.read_unread,
    View.ld_unit_zero (S := S1x1024) hz2, View.ld_unit_zero (S := S1024x512) hz2, View.ld_unit_zero (S := S1x1024x512) hz3,
    View.readCov_unit_zero (S := S1x1024x512) _ hz3]

/-- Later step, the count accumulator. -/
theorem out0_B_4_eq (c : Dev nD) (i : grid0.Coords) (arg2 : Memref sig .tc .vmem S1x1024 .i32) (harg2 : arg2.IsWhole) (arg3 : Memref sig .tc .vmem S1024x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x1 .f32) (harg6 : arg6.IsWhole) (hc0 : ¬cond0_0 i) (x0 : Vec F S1x1024 .i32) (x1 : Vec F S1024x512 .f32)
    (xo2 : Vec F S1x1024x512 .f32) (xo3 : Vec F S1x1024x512 .f32) (xo4 : Vec F S1x1024x1 .f32) :
    out0_B_4 c i arg2 harg2 arg3 harg3 arg4 harg4 arg5 harg5 arg6 harg6 hc0 x0 x1 xo2 xo3 xo4 = k0_pay1 (k0_pay9 xo4) (k0_pay10 x0) := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero (S := S1x1024x1) hz3]
  simp only [View.readAt_eq_ld, harg2.read_unread, harg3.read_unread, harg4.read_unread, harg5.read_unread, harg6.read_unread,
    View.ld_unit_zero (S := S1x1024) hz2, View.ld_unit_zero (S := S1024x512) hz2, View.ld_unit_zero (S := S1x1024x1) hz3,
    View.readCov_unit_zero (S := S1x1024x1) _ hz3]

end Cert.KernelIdeal.Fr

end
-- ==== Proof.KI.Pieces.lean ====
/-
  The kernel body's arithmetic read at an index, at the ideal float values.

  One grid step holds a row of 1024 label words and a 1024 × 512 block of features. It forms the
  one-hot matrix oh[c, k] = 1 if label k names class c, else 0, for c below 1024, multiplies it
  with the block [x | x²] (the features beside their squares, 1024 columns), and adds the left half
  of the product to the running feature sums, the right half to the running sums of squares, and
  the row sums of the one-hot matrix to the running counts. Read at class c and column a these are
    previous + ∑ k, hit (label k) c * x[k, a],
    previous + ∑ k, hit (label k) c * (x[k, a] * x[k, a]),
    previous + ∑ k, hit (label k) c.
  The first step of a sweep stores zero blocks.
-/
import proofs.«419242_j18021682774195_3_alg».proof.Proof.Gen.KernelIdeal.Skeleton
import proofs.«419242_j18021682774195_3_alg».proof.Proof.StatsConsts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pieces

open Cert.KernelIdeal Cert.KernelIdeal.Gen Cert.Stats Idealize.ShloMosaic Idealize.ShloMosaic.ValueIdx

/-! ## The indicator -/

/-- The one-hot entry: the comparison bit of "class number = label word", widened to a word and
    converted to a float, is the indicator. -/
theorem oh_eq (l : BitVec 32) (cc : Fin 1024) :
    FloatOps.sitofp (F := Ideal) .f32 ((IntOp.cmpi .eq (BitVec.ofNat 32 cc.val) l).setWidth 32) = hit l cc.val := by
  show (((((IntOp.cmpi .eq (BitVec.ofNat 32 cc.val) l).setWidth 32).toInt : ℤ) : ℝ) : EReal) = hit l cc.val
  unfold hit IntOp.cmpi
  by_cases h : l = BitVec.ofNat 32 cc.val
  · subst h
    simp
  · have h' : (BitVec.ofNat 32 cc.val == l) = false := by
      simpa [beq_eq_false_iff_ne] using (fun e => h e.symm)
    simp [h', h]

/-- The one-hot matrix at (class c, row k) is the indicator of "label k names class c". -/
theorem pay5_apply (lbl : Vec Ideal S1x1024 .i32) (cc k : Fin 1024) :
    k0_pay5 (F := Ideal) lbl (ix2 cc k) = hit (lbl (ix2 (0 : Fin 1) k)) cc.val := by
  unfold k0_pay5
  show FloatOps.sitofp (F := Ideal) .f32
      ((IntOp.cmpi .eq (iota .tc S1024x1024 32 [0] iota_S1024x1024_d0_w32 (ix2 cc k))
        (broadcastTo S1024x1024 (shapeCast S1x1024 lbl shapeCasts_S1x1024_S1x1024) broadcasts_S1x1024_S1024x1024 (ix2 cc k))).setWidth 32) = _
  rw [iota_single_apply, broadcastTo_1b_ab_apply, shapeCast_self]
  exact oh_eq _ cc

/-! ## The right operand: the features beside their squares -/

/-- The block [x | x²] the matrix unit multiplies the one-hot matrix with. -/
def bothCols (ft : Vec Ideal S1024x512 .f32) : FVec Ideal S1024x1024 .bf16 :=
  concatenate S1024x1024 1
    [⟨S1024x512, truncf .bf16 ft bitsLt_bf16_f32⟩,
     ⟨S1024x512, mulf (truncf .bf16 ft bitsLt_bf16_f32) (truncf .bf16 ft bitsLt_bf16_f32)⟩]
    concatenates_S1024x512_S1024x512_S1024x1024_d1

/-- A column below 512 of [x | x²] is a column of x. -/
theorem bothCols_left (ft : Vec Ideal S1024x512 .f32) (k : Fin 1024) (a : Fin 512) (c : Fin 1024) (hc : c.val = a.val) :
    bothCols ft (ix2 k c) = ft (ix2 k a) := by
  unfold bothCols
  refine (concatenate_pair_apply_left (1 : Fin S1024x1024.rank) _ _ concatenates_S1024x512_S1024x512_S1024x1024_d1
    (ix2 k c) rfl (ix2 k a) (fun b => ?_)).trans rfl
  match b with
  | ⟨0, _⟩ => rfl
  | ⟨1, _⟩ => exact hc.symm

/-- A column from 512 on of [x | x²] is a column of x². -/
theorem bothCols_right (ft : Vec Ideal S1024x512 .f32) (k : Fin 1024) (a : Fin 512) (c : Fin 1024) (hc : c.val = 512 + a.val) :
    bothCols ft (ix2 k c) = ft (ix2 k a) * ft (ix2 k a) := by
  unfold bothCols
  refine (concatenate_pair_apply_right (1 : Fin S1024x1024.rank) _ _ concatenates_S1024x512_S1024x512_S1024x1024_d1
    (ix2 k c) rfl rfl (ix2 k a) (fun b hb => ?_) ?_).trans rfl
  · match b with
    | ⟨0, _⟩ => rfl
    | ⟨1, _⟩ => exact absurd rfl hb
  · show a.val + 512 = c.val
    omega

/-! ## The product on the matrix unit -/

/-- Left operand, axis 0 (free): the output's row. -/
theorem lhs_oh_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- Left operand, axis 1 (contracted): the contraction position. -/
theorem lhs_oh_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- Right operand, axis 0 (contracted): the contraction position. -/
theorem rhs_oh_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- Right operand, axis 1 (free): the output's column. -/
theorem rhs_oh_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The dimension numbers of the one product: rows of the one-hot matrix against rows of [x | x²]. -/
abbrev ohDot := dot_S1024x1024_S1024x1024_S1024x1024_1_0_0_1_n_n

/-- The product at (class c, column j): the sum over the 1024 rows of indicator times [x | x²]. -/
theorem pay6_apply (lbl : Vec Ideal S1x1024 .i32) (ft : Vec Ideal S1024x512 .f32) (cc c : Fin 1024) :
    k0_pay6 (F := Ideal) lbl ft (ix2 cc c)
      = ∑ k : Fin 1024, hit (lbl (ix2 (0 : Fin 1) k)) cc.val * bothCols ft (ix2 k c) := by
  unfold k0_pay6
  show matmul ohDot none (truncf .bf16 (k0_pay5 lbl) bitsLt_bf16_f32) (bothCols ft)
      (constant (F := Ideal) S1024x1024 .f32 0x00000000#32) (ix2 cc c) = _
  refine (Ideal.matmul_constant_zero_apply ohDot none _ _ _).trans ?_
  refine (Equiv.sum_comp (contrEquiv1 ohDot 1024 rfl rfl).symm _).symm.trans ?_
  refine Finset.sum_congr rfl fun k _ => ?_
  have hk := contrEquiv1_symm_val ohDot 1024 rfl rfl k
  have el : ohDot.lhsIdx (ix2 cc c) ((contrEquiv1 ohDot 1024 rfl rfl).symm k) = ix2 cc k := funext fun a => Fin.ext (by
    match a with
    | ⟨0, _⟩ => exact lhs_oh_0 _ _
    | ⟨1, _⟩ => exact (lhs_oh_1 _ _).trans hk)
  have er : ohDot.rhsIdx (ix2 cc c) ((contrEquiv1 ohDot 1024 rfl rfl).symm k) = ix2 k c := funext fun a => Fin.ext (by
    match a with
    | ⟨0, _⟩ => exact (rhs_oh_0 _ _).trans hk
    | ⟨1, _⟩ => exact rhs_oh_1 _ _)
  rw [el, er]
  show k0_pay5 lbl (ix2 cc k) * bothCols ft (ix2 k c) = _
  rw [pay5_apply]

/-! ## The three accumulator updates -/

/-- The running feature sums after the step, without the matrix unit's zero accumulator. -/
theorem pay7_apply' (lbl : Vec Ideal S1x1024 .i32) (ft : Vec Ideal S1024x512 .f32) (prev : Vec Ideal S1x1024x512 .f32)
    (cc : Fin 1024) (a : Fin 512) :
    k0_pay7 (F := Ideal) lbl ft prev (ix3 (0 : Fin 1) cc a)
      = prev (ix3 (0 : Fin 1) cc a) + ∑ k : Fin 1024, hit (lbl (ix2 (0 : Fin 1) k)) cc.val * ft (ix2 k a) := by
  unfold k0_pay7
  refine (shapeCast_ab_1ab_apply _ shapeCasts_S1024x512_S1x1024x512 (0 : Fin 1) cc a).trans ?_
  show shapeCast S1024x512 prev shapeCasts_S1x1024x512_S1024x512 (ix2 cc a)
      + extractStridedSlice S1024x512 ![0, 0] (k0_pay6 lbl ft) slices_S1024x1024_o0_0_S1024x512 (ix2 cc a) = _
  refine congrArg₂ (· + ·) (shapeCast_1ab_ab_apply prev _ cc a) ?_
  refine (slice2_axis1_apply 0 (k0_pay6 lbl ft) slices_S1024x1024_o0_0_S1024x512 cc a ⟨a.val, by omega⟩ (by simp)).trans ?_
  refine (pay6_apply lbl ft cc _).trans ?_
  exact Finset.sum_congr rfl fun k _ => congrArg (_ * ·) (bothCols_left ft k a _ rfl)

/-- The running sums of squares after the step, without the matrix unit's zero accumulator. -/
theorem pay8_apply' (lbl : Vec Ideal S1x1024 .i32) (ft : Vec Ideal S1024x512 .f32) (prev : Vec Ideal S1x1024x512 .f32)
    (cc : Fin 1024) (a : Fin 512) :
    k0_pay8 (F := Ideal) lbl ft prev (ix3 (0 : Fin 1) cc a)
      = prev (ix3 (0 : Fin 1) cc a)
        + ∑ k : Fin 1024, hit (lbl (ix2 (0 : Fin 1) k)) cc.val * (ft (ix2 k a) * ft (ix2 k a)) := by
  unfold k0_pay8
  refine (shapeCast_ab_1ab_apply _ shapeCasts_S1024x512_S1x1024x512 (0 : Fin 1) cc a).trans ?_
  show shapeCast S1024x512 prev shapeCasts_S1x1024x512_S1024x512 (ix2 cc a)
      + extractStridedSlice S1024x512 ![0, 512] (k0_pay6 lbl ft) slices_S1024x1024_o0_512_S1024x512 (ix2 cc a) = _
  refine congrArg₂ (· + ·) (shapeCast_1ab_ab_apply prev _ cc a) ?_
  refine (slice2_axis1_apply 512 (k0_pay6 lbl ft) slices_S1024x1024_o0_512_S1024x512 cc a ⟨512 + a.val, by omega⟩ rfl).trans ?_
  refine (pay6_apply lbl ft cc _).trans ?_
  exact Finset.sum_congr rfl fun k _ => congrArg (_ * ·) (bothCols_right ft k a _ rfl)

/-- The running feature sums after the step: previous + (0 + Σ indicator · x). -/
theorem pay7_apply (lbl : Vec Ideal S1x1024 .i32) (ft : Vec Ideal S1024x512 .f32) (prev : Vec Ideal S1x1024x512 .f32)
    (cc : Fin 1024) (a : Fin 512) :
    k0_pay7 (F := Ideal) lbl ft prev (ix3 (0 : Fin 1) cc a)
      = prev (ix3 (0 : Fin 1) cc a) + (zero + ∑ k : Fin 1024, hit (lbl (ix2 (0 : Fin 1) k)) cc.val * ft (ix2 k a)) := by
  rw [zero_eq, zero_add]; exact pay7_apply' lbl ft prev cc a

/-- The running sums of squares after the step: previous + (0 + Σ indicator · x²). -/
theorem pay8_apply (lbl : Vec Ideal S1x1024 .i32) (ft : Vec Ideal S1024x512 .f32) (prev : Vec Ideal S1x1024x512 .f32)
    (cc : Fin 1024) (a : Fin 512) :
    k0_pay8 (F := Ideal) lbl ft prev (ix3 (0 : Fin 1) cc a)
      = prev (ix3 (0 : Fin 1) cc a)
        + (zero + ∑ k : Fin 1024, hit (lbl (ix2 (0 : Fin 1) k)) cc.val * (ft (ix2 k a) * ft (ix2 k a))) := by
  rw [zero_eq, zero_add]; exact pay8_apply' lbl ft prev cc a

/-- A vector given a trailing unit axis reads, at (i, u), the vector at i. -/
theorem column_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The row sum of the one-hot matrix at class c: how many of the 1024 labels name c. -/
theorem rowsum_apply (lbl : Vec Ideal S1x1024 .i32) (cc : Fin 1024) :
    multiReduction (F := Ideal) .add [1] S1024 (k0_pay10 lbl) 0x00000000#32 reduces_S1024x1024_S1024 (.inl rfl) rfl (ix1 cc)
      = ∑ k : Fin 1024, hit (lbl (ix2 (0 : Fin 1) k)) cc.val := by
  refine (Ideal.multiReduction_add_single (a := (1 : Fin S1024x1024.rank)) (k0_pay10 lbl) 0x00000000#32
    reduces_S1024x1024_S1024 (.inl rfl) rfl (ix1 cc)).trans ?_
  show ∑ k : Fin 1024, k0_pay10 lbl (reduces_S1024x1024_S1024.lift (ix1 cc) k) = _
  refine Finset.sum_congr rfl fun k _ => ?_
  have e : reduces_S1024x1024_S1024.lift (a := (1 : Fin S1024x1024.rank)) (ix1 cc) k = ix2 cc k := funext fun b => Fin.ext (by
    match b with
    | ⟨0, _⟩ => rfl
    | ⟨1, _⟩ => rfl)
  rw [e]
  unfold k0_pay10
  exact pay5_apply lbl cc k

/-- The running counts after the step: previous + Σ indicator. -/
theorem pay1_apply (lbl : Vec Ideal S1x1024 .i32) (prevc : Vec Ideal S1x1024x1 .f32) (cc : Fin 1024) :
    k0_pay1 (F := Ideal) (k0_pay9 prevc) (k0_pay10 lbl) (ix3 (0 : Fin 1) cc (0 : Fin 1))
      = prevc (ix3 (0 : Fin 1) cc (0 : Fin 1)) + ∑ k : Fin 1024, hit (lbl (ix2 (0 : Fin 1) k)) cc.val := by
  unfold k0_pay1
  refine (shapeCast_ab_1ab_apply _ shapeCasts_S1024x1_S1x1024x1 (0 : Fin 1) cc (0 : Fin 1)).trans ?_
  show k0_pay9 prevc (ix2 cc (0 : Fin 1))
      + shapeCast S1024x1 (multiReduction (F := Ideal) .add [1] S1024 (k0_pay10 lbl) 0x00000000#32 reduces_S1024x1024_S1024 (.inl rfl) rfl)
          shapeCasts_S1024_S1024x1 (ix2 cc (0 : Fin 1)) = _
  refine congrArg₂ (· + ·) ?_ ((column_apply _ shapeCasts_S1024_S1024x1 cc (0 : Fin 1)).trans (rowsum_apply lbl cc))
  unfold k0_pay9
  exact shapeCast_1ab_ab_apply prevc _ cc (0 : Fin 1)

/-! ## The zero blocks of a sweep's first step -/

theorem pay2_apply (cc : Fin 1024) (a : Fin 512) : k0_pay2 (F := Ideal) (ix3 (0 : Fin 1) cc a) = zero := by
  unfold k0_pay2
  exact (shapeCast_ab_1ab_apply _ shapeCasts_S1024x512_S1x1024x512 (0 : Fin 1) cc a).trans rfl

theorem pay3_apply (cc : Fin 1024) (a : Fin 512) : k0_pay3 (F := Ideal) (ix3 (0 : Fin 1) cc a) = zero := by
  unfold k0_pay3
  exact (shapeCast_ab_1ab_apply _ shapeCasts_S1024x512_S1x1024x512 (0 : Fin 1) cc a).trans rfl

theorem pay4_apply (cc : Fin 1024) : k0_pay4 (F := Ideal) (ix3 (0 : Fin 1) cc (0 : Fin 1)) = zero := by
  unfold k0_pay4
  exact (shapeCast_ab_1ab_apply _ shapeCasts_S1024x1_S1x1024x1 (0 : Fin 1) cc (0 : Fin 1)).trans rfl

end Cert.KernelIdeal.Pieces

end
-- ==== Proof.RowSum.lean ====
/-
  The 65536 rows are visited as 2 shards × 32 steps × 1024 rows: row number (s·32 + i)·1024 + k.
  Every row is visited exactly once, so a sum over all rows is the triple sum over shard, step and
  row within the step; in particular the per-class count, feature sum and sum of squares are such
  triple sums.  A running accumulator that adds one term per step holds the partial sum.
-/
import proofs.«419242_j18021682774195_3_alg».proof.Proof.StatsConsts
import Mathlib.Algebra.BigOperators.Fin
import Mathlib.Logic.Equiv.Fin.Basic

noncomputable section

open scoped BigOperators

namespace Cert.Stats

open Idealize.ShloMosaic Idealize.ShloMosaic.ValueIdx

/-- The row visited by shard `s` at step `i` in position `k`. -/
def row (s : Fin 2) (i : Fin 32) (k : Fin 1024) : Fin 65536 :=
  ⟨(s.val * 32 + i.val) * 1024 + k.val, by
    have := s.isLt; have := i.isLt; have := k.isLt; omega⟩

theorem row_val (s : Fin 2) (i : Fin 32) (k : Fin 1024) :
    (row s i k).val = (s.val * 32 + i.val) * 1024 + k.val := rfl

/-- Shard, step and position determine the row and are determined by it:
    r ↦ (r / 32768, (r / 1024) % 32, r % 1024) is the inverse. -/
def rowEquiv : Fin 2 × Fin 32 × Fin 1024 ≃ Fin 65536 where
  toFun p := row p.1 p.2.1 p.2.2
  invFun r :=
    (⟨r.val / 32768, by have := r.isLt; omega⟩,
     ⟨(r.val / 1024) % 32, by omega⟩,
     ⟨r.val % 1024, by omega⟩)
  left_inv p := by
    obtain ⟨s, i, k⟩ := p
    have hs := s.isLt; have hi := i.isLt; have hk := k.isLt
    refine Prod.ext (Fin.ext ?_) (Prod.ext (Fin.ext ?_) (Fin.ext ?_))
    · show ((s.val * 32 + i.val) * 1024 + k.val) / 32768 = s.val
      omega
    · show (((s.val * 32 + i.val) * 1024 + k.val) / 1024) % 32 = i.val
      omega
    · show ((s.val * 32 + i.val) * 1024 + k.val) % 1024 = k.val
      omega
  right_inv r := by
    refine Fin.ext ?_
    show (r.val / 32768 * 32 + (r.val / 1024) % 32) * 1024 + r.val % 1024 = r.val
    have := r.isLt
    omega

theorem rowEquiv_apply (s : Fin 2) (i : Fin 32) (k : Fin 1024) : rowEquiv (s, i, k) = row s i k := rfl

/-- A sum over all rows, taken shard by shard, step by step. -/
theorem sum_rows_monoid {M : Type*} [AddCommMonoid M] (f : Fin 65536 → M) :
    ∑ r : Fin 65536, f r = ∑ s : Fin 2, ∑ i : Fin 32, ∑ k : Fin 1024, f (row s i k) := by
  rw [← Equiv.sum_comp rowEquiv f, Fintype.sum_prod_type]
  refine Finset.sum_congr rfl fun s _ => ?_
  rw [Fintype.sum_prod_type]
  refine Finset.sum_congr rfl fun i _ => ?_
  refine Finset.sum_congr rfl fun k _ => ?_
  rw [rowEquiv_apply]

theorem sum_rows (f : Fin 65536 → EReal) :
    ∑ r : Fin 65536, f r = ∑ s : Fin 2, ∑ i : Fin 32, ∑ k : Fin 1024, f (row s i k) :=
  sum_rows_monoid f

/-- The count of class `c`, shard by shard and step by step. -/
theorem cnt_rows (L : Lab) (c : ℕ) :
    cnt L c = ∑ s : Fin 2, ∑ i : Fin 32, ∑ k : Fin 1024, hit (L (ix1 (row s i k))) c := by
  unfold cnt
  exact sum_rows (fun r => hit (L (ix1 r)) c)

/-- The feature sum of class `c`, shard by shard and step by step. -/
theorem sm_rows (X : Feat) (L : Lab) (c : ℕ) (a : Fin 512) :
    sm X L c a
      = ∑ s : Fin 2, ∑ i : Fin 32, ∑ k : Fin 1024,
          hit (L (ix1 (row s i k))) c * X (ix2 (row s i k) a) := by
  unfold sm
  exact sum_rows (fun r => hit (L (ix1 r)) c * X (ix2 r a))

/-- The sum of squares of class `c`, shard by shard and step by step. -/
theorem sq_rows (X : Feat) (L : Lab) (c : ℕ) (a : Fin 512) :
    sq X L c a
      = ∑ s : Fin 2, ∑ i : Fin 32, ∑ k : Fin 1024,
          hit (L (ix1 (row s i k))) c * (X (ix2 (row s i k) a) * X (ix2 (row s i k) a)) := by
  unfold sq
  exact sum_rows (fun r => hit (L (ix1 r)) c * (X (ix2 r a) * X (ix2 r a)))

/-- A running accumulator: it starts with the first term and adds one term per step. -/
def accum (g : ℕ → EReal) : ℕ → EReal
  | 0 => g 0
  | j + 1 => accum g j + g (j + 1)

theorem accum_zero (g : ℕ → EReal) : accum g 0 = g 0 := rfl
theorem accum_succ (g : ℕ → EReal) (j : ℕ) : accum g (j + 1) = accum g j + g (j + 1) := rfl

/-- After step `n` the accumulator holds the sum of the terms 0, …, n. -/
theorem fold_sum (g : ℕ → EReal) (n : ℕ) : accum g n = ∑ j ∈ Finset.range (n + 1), g j := by
  induction n with
  | zero => rw [accum_zero, Finset.sum_range_one]
  | succ n ih => rw [accum_succ, ih, Finset.sum_range_succ g (n + 1)]

/-- The same accumulator started from a value `a`: `a + g 0`, then one more term per step. -/
def accumFrom (a : EReal) (g : ℕ → EReal) : ℕ → EReal
  | 0 => a + g 0
  | j + 1 => accumFrom a g j + g (j + 1)

theorem accumFrom_zero (a : EReal) (g : ℕ → EReal) : accumFrom a g 0 = a + g 0 := rfl
theorem accumFrom_succ (a : EReal) (g : ℕ → EReal) (j : ℕ) :
    accumFrom a g (j + 1) = accumFrom a g j + g (j + 1) := rfl

theorem fold_sum_from (a : EReal) (g : ℕ → EReal) (n : ℕ) :
    accumFrom a g n = a + ∑ j ∈ Finset.range (n + 1), g j := by
  induction n with
  | zero => rw [accumFrom_zero, Finset.sum_range_one]
  | succ n ih => rw [accumFrom_succ, ih, Finset.sum_range_succ g (n + 1), add_assoc]

/-- Started from zero it is the plain accumulator. -/
theorem fold_sum_from_zero (g : ℕ → EReal) (n : ℕ) :
    accumFrom 0 g n = ∑ j ∈ Finset.range (n + 1), g j := by
  rw [fold_sum_from, zero_add]

/-- The sum of the 32 steps' terms, indexed by step number or by `Fin 32`. -/
theorem sum_range_32 (g : ℕ → EReal) : ∑ j ∈ Finset.range 32, g j = ∑ i : Fin 32, g i.val :=
  Finset.sum_range g

/-- After the last of the 32 steps the accumulator holds the sum over all steps. -/
theorem accum_31 (g : ℕ → EReal) : accum g 31 = ∑ i : Fin 32, g i.val := by
  rw [fold_sum, sum_range_32]

theorem accumFrom_31 (a : EReal) (g : ℕ → EReal) : accumFrom a g 31 = a + ∑ i : Fin 32, g i.val := by
  rw [fold_sum_from, sum_range_32]

end Cert.Stats

end
-- ==== Proof.KI.Accum.lean ====
/-
  What the kernel's three accumulators hold after each grid point, as sums.

  The grid has 2 shards of 32 steps; position n = 32·s + i reads the 1024 label words in columns
  n·1024 … of the label row and the 1024 feature rows n·1024 … of the feature array.  At a shard's
  first step the accumulators are zeroed and receive that step's term; at every later step they
  receive one more term.  So after position n the sum accumulator holds, at class c and column a,
  the sum over the steps n - n % 32, …, n of  Σ_k [label of row k of the step = c] · x[row, a],
  and likewise the accumulator of squares and the counts.  After a shard's last step these are the
  sums over all 32 · 1024 rows of the shard.
-/
import proofs.«419242_j18021682774195_3_alg».proof.Proof.KI.Found
import proofs.«419242_j18021682774195_3_alg».proof.Proof.KI.Pieces
import proofs.«419242_j18021682774195_3_alg».proof.Proof.RowSum

set_option maxRecDepth 16384

noncomputable section

open scoped BigOperators

namespace Cert.KernelIdeal.Acc

open Cert.KernelIdeal Cert.KernelIdeal.Gen Cert.KernelIdeal.Fr Cert.KernelIdeal.Pieces Cert.Stats
open Idealize.ShloMosaic Idealize.ShloMosaic.ValueIdx

variable (m : (ℓ : Loc nD τ sig) → Buf (Elt Ideal) ℓ)

/-- The label row and the feature array as the region finds them. -/
abbrev labs (c : Dev nD) : Vec Ideal S1x65536 .i32 := V m c main_v0
abbrev feats (c : Dev nD) : Vec Ideal S65536x512 .f32 := V m c main_arg0

/-- The label block and the feature block of a grid position. -/
abbrev lblk (c : Dev nD) (t : Fin cfg0.N) : Vec Ideal S1x1024 .i32 := iblk m c 0 t
abbrev fblk (c : Dev nD) (t : Fin cfg0.N) : Vec Ideal S1024x512 .f32 := iblk m c 1 t

/-! ## The two block reads -/

/-- The label window's block index at position t is (0, t). -/
theorem lab_index : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The feature window's block index at position t is (t, 0). -/
theorem feat_index : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Label k of position t's block is the label of row t·1024 + k. -/
theorem lblk_apply (c : Dev nD) (t : Fin cfg0.N) (k : Fin 1024) (r : Fin 65536) (hr : r.val = t.val * 1024 + k.val) :
    lblk m c t (ix2 (0 : Fin 1) k) = labs m c (ix2 (0 : Fin 1) r) := by
  unfold lblk iblk
  rw [View.read_apply]
  show V m c main_v0 _ = V m c main_v0 _
  congr 1
  funext a
  apply Fin.ext
  match a with
  | ⟨0, _⟩ =>
    show win0_0.index t 0 * 1 + 1 * 0 = 0
    rw [(lab_index t).1]
  | ⟨1, _⟩ =>
    show win0_0.index t 1 * 1024 + 1 * k.val = r.val
    rw [(lab_index t).2, hr]; omega

/-- Row k of position t's feature block is row t·1024 + k of the features. -/
theorem fblk_apply (c : Dev nD) (t : Fin cfg0.N) (k : Fin 1024) (a : Fin 512) (r : Fin 65536) (hr : r.val = t.val * 1024 + k.val) :
    fblk m c t (ix2 k a) = feats m c (ix2 r a) := by
  unfold fblk iblk
  rw [View.read_apply]
  show V m c main_arg0 _ = V m c main_arg0 _
  congr 1
  funext b
  apply Fin.ext
  match b with
  | ⟨0, _⟩ =>
    show win0_1.index t 0 * 1024 + 1 * k.val = r.val
    rw [(feat_index t).1, hr]; omega
  | ⟨1, _⟩ =>
    show win0_1.index t 1 * 512 + 1 * a.val = a.val
    rw [(feat_index t).2]; omega

/-- The same two reads with the row written out. -/
theorem lblk_read (c : Dev nD) (t : Fin cfg0.N) (k : Fin 1024) (h : t.val * 1024 + k.val < 65536) :
    lblk m c t (ix2 (0 : Fin 1) k) = labs m c (ix2 (0 : Fin 1) (⟨t.val * 1024 + k.val, h⟩ : Fin 65536)) :=
  lblk_apply m c t k ⟨t.val * 1024 + k.val, h⟩ rfl

theorem fblk_read (c : Dev nD) (t : Fin cfg0.N) (k : Fin 1024) (a : Fin 512) (h : t.val * 1024 + k.val < 65536) :
    fblk m c t (ix2 k a) = feats m c (ix2 (⟨t.val * 1024 + k.val, h⟩ : Fin 65536) a) :=
  fblk_apply m c t k a ⟨t.val * 1024 + k.val, h⟩ rfl

/-! ## One step's term -/

/-- Row k of position n, as a row of the whole array (reduced below 65536, so that it is a row for every n;
    for n < 64 it is n·1024 + k). -/
def rowAt (n : ℕ) (k : Fin 1024) : Fin 65536 := ⟨(n * 1024 + k.val) % 65536, Nat.mod_lt _ (by norm_num)⟩

theorem rowAt_val (n : ℕ) (hn : n < 64) (k : Fin 1024) : (rowAt n k).val = n * 1024 + k.val := by
  show (n * 1024 + k.val) % 65536 = n * 1024 + k.val
  have := k.isLt
  omega

/-- Position n's term of the feature sum of class cc, column a. -/
def g2 (c : Dev nD) (n : ℕ) (cc : Fin 1024) (a : Fin 512) : EReal :=
  ∑ k : Fin 1024, hit (labs m c (ix2 (0 : Fin 1) (rowAt n k))) cc.val * feats m c (ix2 (rowAt n k) a)
/-- Position n's term of the sum of squares. -/
def g3 (c : Dev nD) (n : ℕ) (cc : Fin 1024) (a : Fin 512) : EReal :=
  ∑ k : Fin 1024, hit (labs m c (ix2 (0 : Fin 1) (rowAt n k))) cc.val * (feats m c (ix2 (rowAt n k) a) * feats m c (ix2 (rowAt n k) a))
/-- Position n's term of the count. -/
def g4 (c : Dev nD) (n : ℕ) (cc : Fin 1024) : EReal :=
  ∑ k : Fin 1024, hit (labs m c (ix2 (0 : Fin 1) (rowAt n k))) cc.val

/-- The sum over a position's block, read off the arrays. -/
theorem term2 (c : Dev nD) (t : Fin cfg0.N) (cc : Fin 1024) (a : Fin 512) :
    ∑ k : Fin 1024, hit (lblk m c t (ix2 (0 : Fin 1) k)) cc.val * fblk m c t (ix2 k a) = g2 m c t.val cc a := by
  unfold g2
  have hN : t.val < 64 := lt_of_lt_of_eq t.isLt N_0
  refine Finset.sum_congr rfl fun k _ => ?_
  rw [lblk_apply m c t k (rowAt t.val k) (rowAt_val _ hN k), fblk_apply m c t k a (rowAt t.val k) (rowAt_val _ hN k)]

theorem term3 (c : Dev nD) (t : Fin cfg0.N) (cc : Fin 1024) (a : Fin 512) :
    ∑ k : Fin 1024, hit (lblk m c t (ix2 (0 : Fin 1) k)) cc.val * (fblk m c t (ix2 k a) * fblk m c t (ix2 k a)) = g3 m c t.val cc a := by
  unfold g3
  have hN : t.val < 64 := lt_of_lt_of_eq t.isLt N_0
  refine Finset.sum_congr rfl fun k _ => ?_
  rw [lblk_apply m c t k (rowAt t.val k) (rowAt_val _ hN k), fblk_apply m c t k a (rowAt t.val k) (rowAt_val _ hN k)]

theorem term4 (c : Dev nD) (t : Fin cfg0.N) (cc : Fin 1024) :
    ∑ k : Fin 1024, hit (lblk m c t (ix2 (0 : Fin 1) k)) cc.val = g4 m c t.val cc := by
  unfold g4
  have hN : t.val < 64 := lt_of_lt_of_eq t.isLt N_0
  refine Finset.sum_congr rfl fun k _ => ?_
  rw [lblk_apply m c t k (rowAt t.val k) (rowAt_val _ hN k)]

/-! ## The invariant: after position n an accumulator holds the terms of its shard's steps so far -/

/-- Adding position n's term to the terms of the steps before it, within a shard. -/
theorem sum_step (g : ℕ → EReal) (n : ℕ) (h0 : ¬n % 32 = 0) :
    ∑ j ∈ Finset.range ((n - 1) % 32 + 1), g (n - 1 - (n - 1) % 32 + j) + g n
      = ∑ j ∈ Finset.range (n % 32 + 1), g (n - n % 32 + j) := by
  have e1 : (n - 1) % 32 + 1 = n % 32 := by omega
  have e2 : n - 1 - (n - 1) % 32 = n - n % 32 := by omega
  have e3 : n - n % 32 + n % 32 = n := by omega
  rw [e1, e2, Finset.sum_range_succ (fun j => g (n - n % 32 + j)) (n % 32), e3]

/-- At a shard's first step the sum is the one term. -/
theorem sum_first (g : ℕ → EReal) (n : ℕ) (h0 : n % 32 = 0) :
    g n = ∑ j ∈ Finset.range (n % 32 + 1), g (n - n % 32 + j) := by
  rw [h0, Nat.zero_add, Finset.sum_range_one, Nat.sub_zero, Nat.add_zero]

theorem acc2_inv (c : Dev nD) (n : ℕ) : ∀ (hn : n < cfg0.N) (cc : Fin 1024) (a : Fin 512),
    (outsAt0 (F := Ideal) m c n hn).1 (ix3 (0 : Fin 1) cc a)
      = ∑ j ∈ Finset.range (n % 32 + 1), g2 m c (n - n % 32 + j) cc a := by
  induction n using Nat.strong_induction_on with
  | _ n ih =>
    intro hn cc a
    by_cases h0 : n % 32 = 0
    · rw [outsAt0_A m c ⟨n, hn⟩ h0]
      dsimp only
      refine (congrFun (out0_A_2_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (lblk m c ⟨n, hn⟩) (fblk m c ⟨n, hn⟩)) (ix3 (0 : Fin 1) cc a)).trans ?_
      refine (pay7_apply' (lblk m c ⟨n, hn⟩) (fblk m c ⟨n, hn⟩) (k0_pay2 (F := Ideal)) cc a).trans ?_
      rw [pay2_apply cc a, zero_eq, zero_add, term2 m c ⟨n, hn⟩ cc a]
      exact sum_first (fun j => g2 m c j cc a) n h0
    · rw [outsAt0_B m c ⟨n, hn⟩ h0]
      dsimp only
      refine (congrFun (out0_B_2_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (fun h => h0 ((hcond0_0 ⟨n, hn⟩).mp h)) (lblk m c ⟨n, hn⟩) (fblk m c ⟨n, hn⟩) (outsAt0 (F := Ideal) m c (n - 1) (Nat.lt_of_le_of_lt (Nat.sub_le _ _) hn)).1 (outsAt0 (F := Ideal) m c (n - 1) (Nat.lt_of_le_of_lt (Nat.sub_le _ _) hn)).2.1 (outsAt0 (F := Ideal) m c (n - 1) (Nat.lt_of_le_of_lt (Nat.sub_le _ _) hn)).2.2) (ix3 (0 : Fin 1) cc a)).trans ?_
      refine (pay7_apply' (lblk m c ⟨n, hn⟩) (fblk m c ⟨n, hn⟩) (outsAt0 (F := Ideal) m c (n - 1) (Nat.lt_of_le_of_lt (Nat.sub_le _ _) hn)).1 cc a).trans ?_
      rw [ih (n - 1) (by omega) (Nat.lt_of_le_of_lt (Nat.sub_le _ _) hn) cc a, term2 m c ⟨n, hn⟩ cc a]
      exact sum_step (fun j => g2 m c j cc a) n h0

theorem acc3_inv (c : Dev nD) (n : ℕ) : ∀ (hn : n < cfg0.N) (cc : Fin 1024) (a : Fin 512),
    (outsAt0 (F := Ideal) m c n hn).2.1 (ix3 (0 : Fin 1) cc a)
      = ∑ j ∈ Finset.range (n % 32 + 1), g3 m c (n - n % 32 + j) cc a := by
  induction n using Nat.strong_induction_on with
  | _ n ih =>
    intro hn cc a
    by_cases h0 : n % 32 = 0
    · rw [outsAt0_A m c ⟨n, hn⟩ h0]
      dsimp only
      refine (congrFun (out0_A_3_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (lblk m c ⟨n, hn⟩) (fblk m c ⟨n, hn⟩)) (ix3 (0 : Fin 1) cc a)).trans ?_
      refine (pay8_apply' (lblk m c ⟨n, hn⟩) (fblk m c ⟨n, hn⟩) (k0_pay3 (F := Ideal)) cc a).trans ?_
      rw [pay3_apply cc a, zero_eq, zero_add, term3 m c ⟨n, hn⟩ cc a]
      exact sum_first (fun j => g3 m c j cc a) n h0
    · rw [outsAt0_B m c ⟨n, hn⟩ h0]
      dsimp only
      refine (congrFun (out0_B_3_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (fun h => h0 ((hcond0_0 ⟨n, hn⟩).mp h)) (lblk m c ⟨n, hn⟩) (fblk m c ⟨n, hn⟩) (outsAt0 (F := Ideal) m c (n - 1) (Nat.lt_of_le_of_lt (Nat.sub_le _ _) hn)).1 (outsAt0 (F := Ideal) m c (n - 1) (Nat.lt_of_le_of_lt (Nat.sub_le _ _) hn)).2.1 (outsAt0 (F := Ideal) m c (n - 1) (Nat.lt_of_le_of_lt (Nat.sub_le _ _) hn)).2.2) (ix3 (0 : Fin 1) cc a)).trans ?_
      refine (pay8_apply' (lblk m c ⟨n, hn⟩) (fblk m c ⟨n, hn⟩) (outsAt0 (F := Ideal) m c (n - 1) (Nat.lt_of_le_of_lt (Nat.sub_le _ _) hn)).2.1 cc a).trans ?_
      rw [ih (n - 1) (by omega) (Nat.lt_of_le_of_lt (Nat.sub_le _ _) hn) cc a, term3 m c ⟨n, hn⟩ cc a]
      exact sum_step (fun j => g3 m c j cc a) n h0

theorem acc4_inv (c : Dev nD) (n : ℕ) : ∀ (hn : n < cfg0.N) (cc : Fin 1024),
    (outsAt0 (F := Ideal) m c n hn).2.2 (ix3 (0 : Fin 1) cc (0 : Fin 1))
      = ∑ j ∈ Finset.range (n % 32 + 1), g4 m c (n - n % 32 + j) cc := by
  induction n using Nat.strong_induction_on with
  | _ n ih =>
    intro hn cc
    by_cases h0 : n % 32 = 0
    · rw [outsAt0_A m c ⟨n, hn⟩ h0]
      dsimp only
      refine (congrFun (out0_A_4_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (lblk m c ⟨n, hn⟩) (fblk m c ⟨n, hn⟩)) (ix3 (0 : Fin 1) cc (0 : Fin 1))).trans ?_
      refine (pay1_apply (lblk m c ⟨n, hn⟩) (k0_pay4 (F := Ideal)) cc).trans ?_
      rw [pay4_apply cc, zero_eq, zero_add, term4 m c ⟨n, hn⟩ cc]
      exact sum_first (fun j => g4 m c j cc) n h0
    · rw [outsAt0_B m c ⟨n, hn⟩ h0]
      dsimp only
      refine (congrFun (out0_B_4_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (fun h => h0 ((hcond0_0 ⟨n, hn⟩).mp h)) (lblk m c ⟨n, hn⟩) (fblk m c ⟨n, hn⟩) (outsAt0 (F := Ideal) m c (n - 1) (Nat.lt_of_le_of_lt (Nat.sub_le _ _) hn)).1 (outsAt0 (F := Ideal) m c (n - 1) (Nat.lt_of_le_of_lt (Nat.sub_le _ _) hn)).2.1 (outsAt0 (F := Ideal) m c (n - 1) (Nat.lt_of_le_of_lt (Nat.sub_le _ _) hn)).2.2) (ix3 (0 : Fin 1) cc (0 : Fin 1))).trans ?_
      refine (pay1_apply (lblk m c ⟨n, hn⟩) (outsAt0 (F := Ideal) m c (n - 1) (Nat.lt_of_le_of_lt (Nat.sub_le _ _) hn)).2.2 cc).trans ?_
      rw [ih (n - 1) (by omega) (Nat.lt_of_le_of_lt (Nat.sub_le _ _) hn) cc, term4 m c ⟨n, hn⟩ cc]
      exact sum_step (fun j => g4 m c j cc) n h0

/-! ## After a shard's last step: the sums over the shard's 32 · 1024 rows -/

/-- Row k of position 32·s + i is the row the shard s visits at step i in place k. -/
theorem rowAt_row (s : Fin 2) (i : Fin 32) (k : Fin 1024) : rowAt (32 * s.val + i.val) k = row s i k :=
  Fin.ext (by
    show ((32 * s.val + i.val) * 1024 + k.val) % 65536 = (s.val * 32 + i.val) * 1024 + k.val
    have := s.isLt; have := i.isLt; have := k.isLt
    omega)

/-- The terms of a shard's 32 steps, indexed by the step. -/
theorem sum_last (g : ℕ → EReal) (s : Fin 2) :
    ∑ j ∈ Finset.range ((32 * s.val + 31) % 32 + 1), g (32 * s.val + 31 - (32 * s.val + 31) % 32 + j)
      = ∑ i : Fin 32, g (32 * s.val + i.val) := by
  have e1 : (32 * s.val + 31) % 32 + 1 = 32 := by omega
  have e2 : 32 * s.val + 31 - (32 * s.val + 31) % 32 = 32 * s.val := by omega
  rw [e1, e2, Finset.sum_range (fun j => g (32 * s.val + j))]

theorem acc2_last (c : Dev nD) (s : Fin 2) (cc : Fin 1024) (a : Fin 512) (hn : 32 * s.val + 31 < cfg0.N) :
    (outsAt0 (F := Ideal) m c (32 * s.val + 31) hn).1 (ix3 (0 : Fin 1) cc a)
      = ∑ i : Fin 32, ∑ k : Fin 1024,
          hit (labs m c (ix2 (0 : Fin 1) (row s i k))) cc.val * feats m c (ix2 (row s i k) a) := by
  rw [acc2_inv m c (32 * s.val + 31) hn cc a]
  refine (sum_last (fun j => g2 m c j cc a) s).trans ?_
  refine Finset.sum_congr rfl fun i _ => ?_
  show g2 m c (32 * s.val + i.val) cc a = _
  unfold g2
  refine Finset.sum_congr rfl fun k _ => ?_
  rw [rowAt_row s i k]

theorem acc3_last (c : Dev nD) (s : Fin 2) (cc : Fin 1024) (a : Fin 512) (hn : 32 * s.val + 31 < cfg0.N) :
    (outsAt0 (F := Ideal) m c (32 * s.val + 31) hn).2.1 (ix3 (0 : Fin 1) cc a)
      = ∑ i : Fin 32, ∑ k : Fin 1024,
          hit (labs m c (ix2 (0 : Fin 1) (row s i k))) cc.val
            * (feats m c (ix2 (row s i k) a) * feats m c (ix2 (row s i k) a)) := by
  rw [acc3_inv m c (32 * s.val + 31) hn cc a]
  refine (sum_last (fun j => g3 m c j cc a) s).trans ?_
  refine Finset.sum_congr rfl fun i _ => ?_
  show g3 m c (32 * s.val + i.val) cc a = _
  unfold g3
  refine Finset.sum_congr rfl fun k _ => ?_
  rw [rowAt_row s i k]

theorem acc4_last (c : Dev nD) (s : Fin 2) (cc : Fin 1024) (hn : 32 * s.val + 31 < cfg0.N) :
    (outsAt0 (F := Ideal) m c (32 * s.val + 31) hn).2.2 (ix3 (0 : Fin 1) cc (0 : Fin 1))
      = ∑ i : Fin 32, ∑ k : Fin 1024, hit (labs m c (ix2 (0 : Fin 1) (row s i k))) cc.val := by
  rw [acc4_inv m c (32 * s.val + 31) hn cc]
  refine (sum_last (fun j => g4 m c j cc) s).trans ?_
  refine Finset.sum_congr rfl fun i _ => ?_
  show g4 m c (32 * s.val + i.val) cc = _
  unfold g4
  refine Finset.sum_congr rfl fun k _ => ?_
  rw [rowAt_row s i k]

end Cert.KernelIdeal.Acc

end
-- ==== Proof.Results.lean ====
/-
  The three results both programs compute, as whole-array functions of the five arguments:
  the updated second moment, the updated mean and the updated count, class by class and
  column by column, in the kernel program's spelling (divisor amtK, variance as mean square
  minus squared mean clamped at zero).
-/
import proofs.«419242_j18021682774195_3_alg».proof.Proof.Stats

noncomputable section

namespace Cert.Stats

open Idealize.ShloMosaic Idealize.ShloMosaic.ValueIdx

/-- Per-class vectors and per-class, per-column matrices. -/
abbrev ClassVec := (⟨1, ![1000]⟩ : Shape).Idx → EReal
abbrev ClassMat := (⟨2, ![1000, 512]⟩ : Shape).Idx → EReal

/-- The updated second moment. -/
def covOut (X : Feat) (L : Lab) (K : ClassVec) (M C : ClassMat) : ClassMat := fun j =>
  covNew (C (ix2 (j 0) (j 1)))
    (varK (sm X L (j 0).val (j 1)) (sq X L (j 0).val (j 1)) (cnt L (j 0).val))
    (weight (cnt L (j 0).val) (K (ix1 (j 0)))) (M (ix2 (j 0) (j 1)))
    (Ideal.div (sm X L (j 0).val (j 1)) (amtK (cnt L (j 0).val)))

/-- The updated mean. -/
def meanOut (X : Feat) (L : Lab) (K : ClassVec) (M : ClassMat) : ClassMat := fun j =>
  meanNew (M (ix2 (j 0) (j 1))) (weight (cnt L (j 0).val) (K (ix1 (j 0))))
    (Ideal.div (sm X L (j 0).val (j 1)) (amtK (cnt L (j 0).val)))

/-- The updated count. -/
def countOut (L : Lab) (K : ClassVec) : ClassVec := fun j => K (ix1 (j 0)) + cnt L (j 0).val

end Cert.Stats

end
-- ==== Proof.KI.Value.lean ====
/-
  The kernel program's three results as functions of its five arguments, at the extended reals.
  When the region is left, each of the three accumulated arrays holds, for shard s, class row cc
  and column a, the sum over the shard's 32 steps and the step's 1024 rows of the indicator
  "the row's label is cc" times the row's entry (its square; one).  The host lines after the
  region add the two shards, keep the first 1000 classes and apply the running-moments update.
  Since every row is visited exactly once, the two shards' sums add up to the per-class feature
  sum, sum of squares and count over all 65536 rows, and the three results are the whole-array
  functions covOut, meanOut and countOut of the arguments.
-/
import proofs.«419242_j18021682774195_3_alg».proof.Proof.KI.Frame
import proofs.«419242_j18021682774195_3_alg».proof.Proof.KI.Tail
import proofs.«419242_j18021682774195_3_alg».proof.Proof.KI.Arrays
import proofs.«419242_j18021682774195_3_alg».proof.Proof.KI.Accum
import proofs.«419242_j18021682774195_3_alg».proof.Proof.RowSum
import proofs.«419242_j18021682774195_3_alg».proof.Proof.Results
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val

open Cert.KernelIdeal Cert.KernelIdeal.Gen Cert.KernelIdeal.Fr Cert.Stats
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The buffer contents the lines after the region start from -/

/-- Core `c`'s buffer contents when the region is left: the pipeline's five arrays at what the
    proof data computes, every other buffer as the region found it. -/
abbrev W (c : Dev nD) : Valuation τ sig (Elt Ideal) :=
  Pipeline.withArrays spec0 c (V0 m c) fun w => (dats m 0 c).arrAt w cfg0.N

/-- The three accumulated arrays are the proof data's final contents. -/
theorem W_arr2 (c : Dev nD) : TailValue.A2 (W m c) = (dats m 0 c).arrAt 2 cfg0.N :=
  Pipeline.withArrays_arr spec0 launch0.win.arr_inj c _ _ 2
theorem W_arr3 (c : Dev nD) : TailValue.A3 (W m c) = (dats m 0 c).arrAt 3 cfg0.N :=
  Pipeline.withArrays_arr spec0 launch0.win.arr_inj c _ _ 3
theorem W_arr4 (c : Dev nD) : TailValue.A4 (W m c) = (dats m 0 c).arrAt 4 cfg0.N :=
  Pipeline.withArrays_arr spec0 launch0.win.arr_inj c _ _ 4

/-- The three running moments are the launch contents: they bypass the region. -/
theorem W_arg2 (c : Dev nD) : TailValue.Kc (W m c) = m ((c.tc : Thread nD τ).loc main_arg2) :=
  (Pipeline.withArrays_of_ne spec0 c _ _ main_arg2 (by decide)).trans (V_main_arg2 m c)
theorem W_arg3 (c : Dev nD) : TailValue.Mn (W m c) = m ((c.tc : Thread nD τ).loc main_arg3) :=
  (Pipeline.withArrays_of_ne spec0 c _ _ main_arg3 (by decide)).trans (V_main_arg3 m c)
theorem W_arg4 (c : Dev nD) : TailValue.Cv (W m c) = m ((c.tc : Thread nD τ).loc main_arg4) :=
  (Pipeline.withArrays_of_ne spec0 c _ _ main_arg4 (by decide)).trans (V_main_arg4 m c)

/-! ## The two input arrays as the region finds them -/

/-- The label row the region reads is the label vector: the one line before the region recasts
    `[65536]` to `[1, 65536]`. -/
theorem lab_row (c : Dev nD) (r : Fin 65536) :
    (V m c main_v0 : Vec Ideal S1x65536 .i32) (ix2 (0 : Fin 1) r)
      = (m ((c.tc : Thread nD τ).loc main_arg1) : Vec Ideal S65536 .i32) (ix1 r) := by
  have e : (V m c main_v0 : Vec Ideal S1x65536 .i32)
      = shapeCast S1x65536 (m ((c.tc : Thread nD τ).loc main_arg1) : Vec Ideal S65536 .i32) shapeCasts_S65536_S1x65536 := by
    dsimp only [V, V0, hostOps0]
    simp only [List.flatten_cons, List.flatten_nil, List.append_nil]
    after_results
    rfl
  rw [e]
  exact shapeCast_a_1a_apply _ _ 0 r

/-- The feature array the region reads is the launch's. -/
theorem feat_arr (c : Dev nD) : V m c main_arg0 = m ((c.tc : Thread nD τ).loc main_arg0) := V_main_arg0 m c

/-! ## The two shards' sums are the sums over all rows -/

theorem shards_sm (X : Feat) (L : Lab) (c : ℕ) (a : Fin 512) :
    zero + ∑ h : Fin 2, (∑ i : Fin 32, ∑ k : Fin 1024, hit (L (ix1 (row h i k))) c * X (ix2 (row h i k) a))
      = sm X L c a := by
  rw [zero_eq, zero_add, sm_rows]

theorem shards_sq (X : Feat) (L : Lab) (c : ℕ) (a : Fin 512) :
    zero + ∑ h : Fin 2, (∑ i : Fin 32, ∑ k : Fin 1024,
        hit (L (ix1 (row h i k))) c * (X (ix2 (row h i k) a) * X (ix2 (row h i k) a)))
      = sq X L c a := by
  rw [zero_eq, zero_add, sq_rows]

theorem shards_cnt (L : Lab) (c : ℕ) :
    zero + ∑ h : Fin 2, (∑ i : Fin 32, ∑ k : Fin 1024, hit (L (ix1 (row h i k))) c) = cnt L c := by
  rw [zero_eq, zero_add, cnt_rows]

/-! ## The three accumulated arrays at an index -/

/-- The last step of shard `s` is one of the 64 grid points. -/
theorem last_lt (s : Fin 2) : 32 * s.val + 31 < cfg0.N := by
  have := s.isLt
  rw [Arr.N64]
  omega

/-- The five launch arguments on core `c`, at their literal array types. -/
abbrev aX (c : Dev nD) : Feat := m ((c.tc : Thread nD τ).loc main_arg0)
abbrev aL (c : Dev nD) : Lab := m ((c.tc : Thread nD τ).loc main_arg1)
abbrev aK (c : Dev nD) : ClassVec := m ((c.tc : Thread nD τ).loc main_arg2)
abbrev aM (c : Dev nD) : ClassMat := m ((c.tc : Thread nD τ).loc main_arg3)
abbrev aC (c : Dev nD) : ClassMat := m ((c.tc : Thread nD τ).loc main_arg4)

/-- Shard `s`'s block of the feature-sum array: the sum over the shard's rows of the indicator times the entry. -/
theorem arr2_sum (c : Dev nD) (s : Fin 2) (cc : Fin 1024) (a : Fin 512) :
    ((dats m 0 c).arrAt 2 cfg0.N : Vec Ideal S2x1024x512 .f32) (ix3 s cc a)
      = ∑ i : Fin 32, ∑ k : Fin 1024, hit (aL m c (ix1 (row s i k))) cc.val * aX m c (ix2 (row s i k) a) := by
  rw [Arr.arr2_apply m c s cc a (last_lt s), Acc.acc2_last m c s cc a (last_lt s)]
  show (_ : EReal) = _
  refine Finset.sum_congr rfl fun i _ => Finset.sum_congr rfl fun k _ => ?_
  have hl : Acc.labs m c (ix2 (0 : Fin 1) (row s i k)) = aL m c (ix1 (row s i k)) := lab_row m c (row s i k)
  rw [hl]
  rfl

/-- Shard `s`'s block of the sum-of-squares array. -/
theorem arr3_sum (c : Dev nD) (s : Fin 2) (cc : Fin 1024) (a : Fin 512) :
    ((dats m 0 c).arrAt 3 cfg0.N : Vec Ideal S2x1024x512 .f32) (ix3 s cc a)
      = ∑ i : Fin 32, ∑ k : Fin 1024,
          hit (aL m c (ix1 (row s i k))) cc.val * (aX m c (ix2 (row s i k) a) * aX m c (ix2 (row s i k) a)) := by
  rw [Arr.arr3_apply m c s cc a (last_lt s), Acc.acc3_last m c s cc a (last_lt s)]
  show (_ : EReal) = _
  refine Finset.sum_congr rfl fun i _ => Finset.sum_congr rfl fun k _ => ?_
  have hl : Acc.labs m c (ix2 (0 : Fin 1) (row s i k)) = aL m c (ix1 (row s i k)) := lab_row m c (row s i k)
  rw [hl]
  rfl

/-- Shard `s`'s block of the count array. -/
theorem arr4_sum (c : Dev nD) (s : Fin 2) (cc : Fin 1024) :
    ((dats m 0 c).arrAt 4 cfg0.N : Vec Ideal S2x1024x1 .f32) (ix3 s cc (0 : Fin 1))
      = ∑ i : Fin 32, ∑ k : Fin 1024, hit (aL m c (ix1 (row s i k))) cc.val := by
  rw [Arr.arr4_apply m c s cc (last_lt s), Acc.acc4_last m c s cc (last_lt s)]
  show (_ : EReal) = _
  refine Finset.sum_congr rfl fun i _ => Finset.sum_congr rfl fun k _ => ?_
  have hl : Acc.labs m c (ix2 (0 : Fin 1) (row s i k)) = aL m c (ix1 (row s i k)) := lab_row m c (row s i k)
  rw [hl]

/-! ## What the lines after the region read: the per-class sums over all rows -/

theorem sT_eq (c : Dev nD) (c' : Fin 1000) (a : Fin 512) :
    TailValue.sT (W m c) c' a = sm (aX m c) (aL m c) c'.val a := by
  show zero + ∑ h : Fin 2, TailValue.A2 (W m c) (ix3 h (TailValue.up c') a) = _
  rw [W_arr2]
  refine Eq.trans ?_ (shards_sm (aX m c) (aL m c) c'.val a)
  exact congrArg (zero + ·) (Finset.sum_congr rfl fun h _ => arr2_sum m c h (TailValue.up c') a)

theorem qT_eq (c : Dev nD) (c' : Fin 1000) (a : Fin 512) :
    TailValue.qT (W m c) c' a = sq (aX m c) (aL m c) c'.val a := by
  show zero + ∑ h : Fin 2, TailValue.A3 (W m c) (ix3 h (TailValue.up c') a) = _
  rw [W_arr3]
  refine Eq.trans ?_ (shards_sq (aX m c) (aL m c) c'.val a)
  exact congrArg (zero + ·) (Finset.sum_congr rfl fun h _ => arr3_sum m c h (TailValue.up c') a)

theorem nT_eq (c : Dev nD) (c' : Fin 1000) :
    TailValue.nT (W m c) c' = cnt (aL m c) c'.val := by
  show zero + ∑ h : Fin 2, TailValue.A4 (W m c) (ix3 h (TailValue.up c') (0 : Fin 1)) = _
  rw [W_arr4]
  refine Eq.trans ?_ (shards_cnt (aL m c) c'.val)
  exact congrArg (zero + ·) (Finset.sum_congr rfl fun h _ => arr4_sum m c h (TailValue.up c'))

/-! ## The three results -/

theorem covOut_apply (X : Feat) (L : Lab) (K : ClassVec) (M C : ClassMat) (c' : Fin 1000) (a : Fin 512) :
    covOut X L K M C (ix2 c' a)
      = covNew (C (ix2 c' a)) (varK (sm X L c'.val a) (sq X L c'.val a) (cnt L c'.val))
          (weight (cnt L c'.val) (K (ix1 c'))) (M (ix2 c' a)) (Ideal.div (sm X L c'.val a) (amtK (cnt L c'.val))) := rfl

theorem meanOut_apply (X : Feat) (L : Lab) (K : ClassVec) (M : ClassMat) (c' : Fin 1000) (a : Fin 512) :
    meanOut X L K M (ix2 c' a)
      = meanNew (M (ix2 c' a)) (weight (cnt L c'.val) (K (ix1 c'))) (Ideal.div (sm X L c'.val a) (amtK (cnt L c'.val))) := rfl

theorem countOut_apply (L : Lab) (K : ClassVec) (c' : Fin 1000) :
    countOut L K (ix1 c') = K (ix1 c') + cnt L c'.val := rfl

/-- The updated second moment after the lines that follow the region. -/
theorem v45_eq (c : Dev nD) :
    (StableHlo.after (tailOps (F := Ideal)).flatten (W m c) (Proc.devRef .tc main_v45) : FVec Ideal S1000x512 .f32)
      = covOut (aX m c) (aL m c) (aK m c) (aM m c) (aC m c) := by
  funext j
  obtain ⟨c', a, rfl⟩ : ∃ (c' : Fin 1000) (a : Fin 512), j = ix2 c' a := ⟨j 0, j 1, eq_ix2 j⟩
  rw [TailValue.tail_v45 (W m c) c' a, sT_eq, qT_eq, nT_eq, W_arg2, W_arg3, W_arg4, covOut_apply]

/-- The updated mean. -/
theorem v52_eq (c : Dev nD) :
    (StableHlo.after (tailOps (F := Ideal)).flatten (W m c) (Proc.devRef .tc main_v52) : FVec Ideal S1000x512 .f32)
      = meanOut (aX m c) (aL m c) (aK m c) (aM m c) := by
  funext j
  obtain ⟨c', a, rfl⟩ : ∃ (c' : Fin 1000) (a : Fin 512), j = ix2 c' a := ⟨j 0, j 1, eq_ix2 j⟩
  rw [TailValue.tail_v52 (W m c) c' a, sT_eq, nT_eq, W_arg2, W_arg3, meanOut_apply]

/-- The updated count. -/
theorem v53_eq (c : Dev nD) :
    (StableHlo.after (tailOps (F := Ideal)).flatten (W m c) (Proc.devRef .tc main_v53) : FVec Ideal S1000 .f32)
      = countOut (aL m c) (aK m c) := by
  funext j
  obtain ⟨c', rfl⟩ : ∃ (c' : Fin 1000), j = ix1 c' := ⟨j 0, eq_ix1 j⟩
  rw [TailValue.tail_v53 (W m c) c', nT_eq, W_arg2, countOut_apply]

/-- A buffer that bypasses the region holds, at the end, what the lines after the region leave from `W`. -/
theorem afterTail_eq (c : Dev nD) (b : Ref sig .tc) :
    Pipeline.afterTail₀ cfgs (dats m) 0 (V0 m) tailOps c b
      = StableHlo.after (tailOps (F := Ideal)).flatten (W m c) (Proc.devRef .tc b) := rfl

/-! ## The run -/

set_option backward.isDefEq.respectTransparency.types false in
/-- Every weakly fair execution of the kernel's program terminates with the three results at the
    whole-array functions of the five arguments, and the arguments as launched. -/
theorem run_value : θ_run defs (onTc (τ := τ) (main (F := Ideal))) ⟨m, fun _ => 0, ρ⟩ (fun r => ∀ c : Dev nD,
      r.2.mem ((c.tc : Thread nD τ).loc main_v45)
          = covOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v52)
          = meanOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v53)
          = countOut (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v45 (Pipeline.mem_restRefs_of main_v45 rfl (by decide))).trans ((afterTail_eq m c main_v45).trans (v45_eq m c)),
     ((h c).2 main_v52 (Pipeline.mem_restRefs_of main_v52 rfl (by decide))).trans ((afterTail_eq m c main_v52).trans (v52_eq m c)),
     ((h c).2 main_v53 (Pipeline.mem_restRefs_of main_v53 rfl (by decide))).trans ((afterTail_eq m c main_v53).trans (v53_eq m c)),
     ((h c).1 1).trans (((dats m 0 c).arrAt_in 1 rfl _).trans ((A_eq m c 1).trans (V_main_arg0 m c))),
     ((h c).2 main_arg1 (Pipeline.mem_restRefs_of main_arg1 rfl (by decide))).trans
        ((afterTail_kept m (dats m) c main_arg1 (by decide) (by decide)).trans (V_main_arg1 m c)),
     ((h c).2 main_arg2 (Pipeline.mem_restRefs_of main_arg2 rfl (by decide))).trans
        ((afterTail_kept m (dats m) c main_arg2 (by decide) (by decide)).trans (V_main_arg2 m c)),
     ((h c).2 main_arg3 (Pipeline.mem_restRefs_of main_arg3 rfl (by decide))).trans
        ((afterTail_kept m (dats m) c main_arg3 (by decide) (by decide)).trans (V_main_arg3 m c)),
     ((h c).2 main_arg4 (Pipeline.mem_restRefs_of main_arg4 rfl (by decide))).trans
        ((afterTail_kept m (dats m) c main_arg4 (by decide) (by decide)).trans (V_main_arg4 m c))⟩) (run_main m ρ)

end Cert.KernelIdeal.Val

end
-- ==== Proof.StatsLaws.lean ====
/-
  Laws of the class statistics on the extended reals.  With real entries, the count, the sum, the
  sum of squares and the sum of squared deviations of a class are coercions of real sums; the two
  spellings of the divisor agree on a count (a natural number is below one half exactly when it is
  zero); and the clamped "mean square minus squared mean" equals the mean squared deviation, by
  the identity  Σ (x − μ)² = Q − 2 μ S + μ² n  at  μ = S / n.
-/
import proofs.«419242_j18021682774195_3_alg».proof.Proof.StatsConsts

noncomputable section

open scoped BigOperators

namespace Cert.Stats

open Idealize.ShloMosaic Idealize.ShloMosaic.ValueIdx

/-! ### Real sums and their coercions -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The indicator as a real number. -/
def hitR (l : BitVec 32) (c : ℕ) : ℝ := if l = BitVec.ofNat 32 c then 1 else 0

theorem hit_coe (l : BitVec 32) (c : ℕ) : hit l c = ((hitR l c : ℝ) : EReal) := by
  unfold hit hitR
  by_cases h : l = BitVec.ofNat 32 c
  · rw [if_pos h, if_pos h, EReal.coe_one]
  · rw [if_neg h, if_neg h, EReal.coe_zero]

theorem hitR_nonneg (l : BitVec 32) (c : ℕ) : 0 ≤ hitR l c := by
  unfold hitR; split_ifs <;> norm_num

/-- The real mirrors of the four sums. -/
def cntR (L : Lab) (c : ℕ) : ℝ := ∑ r : Fin 65536, hitR (L (ix1 r)) c
def smR (x : Fin 65536 → ℝ) (L : Lab) (c : ℕ) : ℝ := ∑ r : Fin 65536, hitR (L (ix1 r)) c * x r
def sqR (x : Fin 65536 → ℝ) (L : Lab) (c : ℕ) : ℝ := ∑ r : Fin 65536, hitR (L (ix1 r)) c * (x r * x r)
def devR (x : Fin 65536 → ℝ) (L : Lab) (c : ℕ) (μ : ℝ) : ℝ :=
  ∑ r : Fin 65536, hitR (L (ix1 r)) c * ((x r - μ) * (x r - μ))

theorem cnt_coe (L : Lab) (c : ℕ) : cnt L c = ((cntR L c : ℝ) : EReal) := by
  unfold cnt cntR
  rw [coe_sum]
  exact Finset.sum_congr rfl (fun r _ => hit_coe _ _)

theorem sm_coe (X : Feat) (L : Lab) (c : ℕ) (a : Fin 512) (x : Fin 65536 → ℝ)
    (hx : ∀ r : Fin 65536, X (ix2 r a) = (x r : EReal)) : sm X L c a = ((smR x L c : ℝ) : EReal) := by
  unfold sm smR
  rw [coe_sum]
  refine Finset.sum_congr rfl (fun r _ => ?_)
  rw [hit_coe, hx r, EReal.coe_mul]

theorem sq_coe (X : Feat) (L : Lab) (c : ℕ) (a : Fin 512) (x : Fin 65536 → ℝ)
    (hx : ∀ r : Fin 65536, X (ix2 r a) = (x r : EReal)) : sq X L c a = ((sqR x L c : ℝ) : EReal) := by
  unfold sq sqR
  rw [coe_sum]
  refine Finset.sum_congr rfl (fun r _ => ?_)
  rw [hit_coe, hx r, EReal.coe_mul, EReal.coe_mul]

theorem dev_coe (X : Feat) (L : Lab) (c : ℕ) (a : Fin 512) (x : Fin 65536 → ℝ)
    (hx : ∀ r : Fin 65536, X (ix2 r a) = (x r : EReal)) (μ : ℝ) :
    dev X L c a (μ : EReal) = ((devR x L c μ : ℝ) : EReal) := by
  unfold dev devR
  rw [coe_sum]
  refine Finset.sum_congr rfl (fun r _ => ?_)
  rw [hit_coe, hx r, EReal.coe_mul, EReal.coe_mul, EReal.coe_sub]

/-! ### The count is a natural number -/

theorem cntR_nat (L : Lab) (c : ℕ) : ∃ k : ℕ, cntR L c = (k : ℝ) := by
  classical
  refine ⟨(Finset.univ.filter (fun r : Fin 65536 => L (ix1 r) = BitVec.ofNat 32 c)).card, ?_⟩
  unfold cntR hitR
  exact Finset.sum_boole _ _

theorem cnt_nat (L : Lab) (c : ℕ) : ∃ k : ℕ, cnt L c = ((k : ℝ) : EReal) := by
  obtain ⟨k, hk⟩ := cntR_nat L c
  exact ⟨k, by rw [cnt_coe, hk]⟩

/-! ### The divisor -/

theorem amtK_def (n : EReal) : amtK n = if n < half then one else n := by
  unfold amtK Scalar.select
  show (if BitVec.ofBool (decide (n < half)) = 1 then one else n) = _
  by_cases h : n < half <;> simp [h]

theorem amtR_def (n : EReal) : amtR n = if n = zero then one else n := by
  unfold amtR Scalar.select
  show (if BitVec.ofBool (decide (n = zero)) = 1 then one else n) = _
  by_cases h : n = zero <;> simp [h]

/-- The divisor of a count k, as a real: 1 for k = 0, else k. -/
def amtN (k : ℕ) : ℝ := if k = 0 then 1 else (k : ℝ)

theorem amtN_pos (k : ℕ) : 0 < amtN k := by
  unfold amtN
  split_ifs with h
  · norm_num
  · exact Nat.cast_pos.mpr (Nat.pos_of_ne_zero h)

theorem amtR_nat (k : ℕ) : amtR ((k : ℝ) : EReal) = ((amtN k : ℝ) : EReal) := by
  rw [amtR_def, zero_eq, one_eq]
  unfold amtN
  by_cases h : k = 0
  · subst h
    rw [if_pos (by simp), if_pos rfl, EReal.coe_one]
  · have hne : ¬ (((k : ℝ) : EReal) = 0) := by
      rw [EReal.coe_eq_zero, Nat.cast_eq_zero]; exact h
    rw [if_neg hne, if_neg h]

theorem amtK_nat (k : ℕ) : amtK ((k : ℝ) : EReal) = ((amtN k : ℝ) : EReal) := by
  rw [amtK_def, half_eq, one_eq]
  unfold amtN
  by_cases h : k = 0
  · subst h
    have hlt : (((0 : ℕ) : ℝ) : EReal) < ((1 / 2 : ℝ) : EReal) := by
      rw [EReal.coe_lt_coe_iff]; norm_num
    rw [if_pos hlt, if_pos rfl, EReal.coe_one]
  · have h1 : (1 : ℝ) ≤ (k : ℝ) := by exact_mod_cast Nat.one_le_iff_ne_zero.mpr h
    have hnl : ¬ (((k : ℝ) : EReal) < ((1 / 2 : ℝ) : EReal)) := by
      rw [EReal.coe_lt_coe_iff]; exact not_lt.mpr (by linarith)
    rw [if_neg hnl, if_neg h]

theorem amtK_eq_amtR (L : Lab) (c : ℕ) : amtK (cnt L c) = amtR (cnt L c) := by
  obtain ⟨k, hk⟩ := cnt_nat L c
  rw [hk, amtK_nat, amtR_nat]

/-! ### The variance identity over the reals -/

/-- Σ h (x − μ)² = Σ h x² − 2 μ Σ h x + μ² Σ h. -/
theorem dev_expand {ι : Type} (s : Finset ι) (h x : ι → ℝ) (μ : ℝ) :
    ∑ i ∈ s, h i * ((x i - μ) * (x i - μ))
      = ∑ i ∈ s, h i * (x i * x i) - 2 * μ * ∑ i ∈ s, h i * x i + μ * μ * ∑ i ∈ s, h i := by
  rw [Finset.mul_sum, Finset.mul_sum, ← Finset.sum_sub_distrib, ← Finset.sum_add_distrib]
  refine Finset.sum_congr rfl (fun i _ => ?_)
  ring

/-- An empty class has sum zero: every indicator vanishes. -/
theorem smR_of_cntR_zero (x : Fin 65536 → ℝ) (L : Lab) (c : ℕ) (h0 : cntR L c = 0) : smR x L c = 0 := by
  unfold cntR at h0
  have hz := (Finset.sum_eq_zero_iff_of_nonneg (fun r _ => hitR_nonneg (L (ix1 r)) c)).mp h0
  unfold smR
  refine Finset.sum_eq_zero (fun r hr => ?_)
  rw [hz r hr, zero_mul]

theorem devR_nonneg (x : Fin 65536 → ℝ) (L : Lab) (c : ℕ) (μ : ℝ) : 0 ≤ devR x L c μ := by
  unfold devR
  exact Finset.sum_nonneg (fun r _ => mul_nonneg (hitR_nonneg _ _) (mul_self_nonneg _))

/-- Mean squared deviation from the mean = mean square − squared mean, with divisor amtN k. -/
theorem var_real (x : Fin 65536 → ℝ) (L : Lab) (c : ℕ) (k : ℕ) (hk : cntR L c = (k : ℝ)) :
    devR x L c (smR x L c * (1 / amtN k)) * (1 / amtN k)
      = sqR x L c * (1 / amtN k) - smR x L c * (1 / amtN k) * (smR x L c * (1 / amtN k)) := by
  have hexp : ∀ μ : ℝ, devR x L c μ = sqR x L c - 2 * μ * smR x L c + μ * μ * cntR L c := by
    intro μ
    unfold devR sqR smR cntR
    exact dev_expand _ _ _ _
  rw [hexp, hk]
  by_cases h : k = 0
  · subst h
    have hS : smR x L c = 0 := smR_of_cntR_zero x L c (by rw [hk]; norm_num)
    rw [hS]
    simp
  · have hne : (k : ℝ) ≠ 0 := Nat.cast_ne_zero.mpr h
    unfold amtN
    rw [if_neg h]
    field_simp
    ring

/-! ### The variance identity on the extended reals -/

theorem var_eq (X : Feat) (L : Lab) (c : ℕ) (a : Fin 512)
    (hX : ∀ r : Fin 65536, ∃ x : ℝ, X (ix2 r a) = (x : EReal)) :
    varK (sm X L c a) (sq X L c a) (cnt L c)
      = Ideal.div (dev X L c a (Ideal.div (sm X L c a) (amtR (cnt L c)))) (amtR (cnt L c)) := by
  choose x hx using hX
  obtain ⟨k, hk⟩ := cntR_nat L c
  have hd : amtN k ≠ 0 := (amtN_pos k).ne'
  rw [varK, cnt_coe, hk, amtK_nat, amtR_nat, sm_coe X L c a x hx, sq_coe X L c a x hx,
    Ideal.div_coe hd, Ideal.div_coe hd, ← EReal.coe_mul, ← EReal.coe_mul,
    dev_coe X L c a x hx, Ideal.div_coe hd, ← EReal.coe_mul, ← EReal.coe_mul, ← EReal.coe_sub,
    zero_eq, var_real x L c k hk]
  refine max_eq_left ?_
  rw [← var_real x L c k hk, ← EReal.coe_zero, EReal.coe_le_coe_iff]
  exact mul_nonneg (devR_nonneg x L c _) (one_div_pos.mpr (amtN_pos k)).le

end Cert.Stats

end
-- ==== Proof.RefScatter.lean ====
/-
  The reference's three segment sums and its gather, read at an index: a segment sum adds, to the
  operand's entry of class c, the update rows whose label word names c; the gather of a row whose
  label word names class c reads the operand's row c.
-/
import proofs.«419242_j18021682774195_3_alg».proof.Proof.Stats
import proofs.«419242_j18021682774195_3_alg».proof.Proof.Gen.ReferenceIdeal

noncomputable section

open scoped BigOperators

namespace Cert.RefScatter

open Cert.ReferenceIdeal Cert.Stats Idealize.ShloMosaic Idealize.ShloMosaic.ValueIdx

/-- An update index lands on operand index `i` exactly when, on every axis, the start plus the window
    coordinate is `i`'s coordinate. -/
theorem lands_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro e a
      have e1 := congrArg Fin.val (congrFun (Option.some.inj e) a)
      simp only at e1
      have := (h a).1
      omega
    · intro e
      refine congrArg some (funext fun a => Fin.ext ?_)
      have := e a
      show (d.start j idx a + (d.window j a : Int)).toNat = (i a).val
      omega
  · rw [dif_neg h]
    constructor
    · intro e; cases e
    · intro e
      exfalso; apply h; intro a
      have := e a
      have := (i a).isLt
      omega

/-- A 32-bit word read as a signed integer is the class number `c < 1000` exactly when it is the word of `c`. -/
theorem toInt_eq_iff (l : BitVec 32) (c : Nat) (hc : c < 1000) : l.toInt = (c : Int) ↔ l = BitVec.ofNat 32 c := by
  constructor
  · intro h
    apply BitVec.eq_of_toNat_eq
    rw [BitVec.toNat_ofNat]
    have := l.isLt
    rw [BitVec.toInt_eq_toNat_cond] at h
    split at h <;> omega
  · intro h
    subst h
    rw [BitVec.toInt_eq_toNat_cond, BitVec.toNat_ofNat]
    have : c % 2 ^ 32 = c := Nat.mod_eq_of_lt (by omega)
    rw [this]; split <;> omega

/-- The indicator times a value is the value where the label names the class and zero elsewhere. -/
theorem hit_mul (l : BitVec 32) (c : ℕ) (v : EReal) : hit l c * v = if l = BitVec.ofNat 32 c then v else 0 := by
  unfold hit
  split_ifs
  · exact one_mul v
  · exact zero_mul v

/-- The rank-1 index set of the rows is the range of rows. -/
def rowEquiv : S65536.Idx ≃ Fin 65536 where
  toFun j := j 0
  invFun r := ix1 r
  left_inv j := (eq_ix1 j).symm
  right_inv _ := rfl

/-- A sum over the rank-1 row indices is the sum over the rows. -/
theorem sum_rows (f : S65536.Idx → EReal) : ∑ j, f j = ∑ r : Fin 65536, f (ix1 r) := by
  rw [← Equiv.sum_comp rowEquiv.symm f]
  rfl

/-- The start of the rank-1 scatter's window: the label word of the update's row, read signed. -/
theorem start1 (j : S65536.Idx) (idx : IVec S65536x1 32) (a : Fin S1000.rank) :
    scatter_S1000_S65536x1_S65536_n_0_0_1.start j idx a = (idx (ix2 (j 0) 0)).toInt := by
  obtain rfl : a = 0 := Subsingleton.elim _ _
  unfold ScatterDims.start
  rw [dif_pos (show (0 : Fin 1) ∈ scatter_S1000_S65536x1_S65536_n_0_0_1.scatterDimsToOperandDims from List.mem_singleton.mpr rfl)]
  congr 2
  funext b; refine Fin.ext ?_
  match b with
  | ⟨0, _⟩ => rfl
  | ⟨1, _⟩ => rfl

/-- The rank-1 scatter has no window axis. -/
theorem window1 (j : S65536.Idx) (a : Fin S1000.rank) :
    scatter_S1000_S65536x1_S65536_n_0_0_1.window j a = 0 := by
  obtain rfl : a = 0 := Subsingleton.elim _ _
  unfold ScatterDims.window
  rw [dif_neg (by decide)]

/-- Where an update row lands in the rank-1 scatter. -/
theorem lands1 (j : S65536.Idx) (idx : IVec S65536x1 32) (c : Fin 1000) :
    scatter_S1000_S65536x1_S65536_n_0_0_1.resultIdx? j idx = some (ix1 c) ↔ idx (ix2 (j 0) 0) = BitVec.ofNat 32 c := by
  rw [lands_iff, ← toInt_eq_iff _ c c.isLt]
  constructor
  · intro h
    have := h 0
    rw [start1, window1] at this
    simpa using this
  · intro h a
    obtain rfl : a = 0 := Subsingleton.elim _ _
    rw [start1, window1, h]
    simp

/-- The scatter-add of a vector of per-row values into 1000 classes. -/
theorem scat1_apply (x : FVec Ideal S1000 .f32) (idx : IVec S65536x1 32) (u : FVec Ideal S65536 .f32) (c : Fin 1000) :
    Host.scatterAdd (F := Ideal) scatter_S1000_S65536x1_S65536_n_0_0_1 x idx u (ix1 c)
      = x (ix1 c) + ∑ r : Fin 65536, hit (idx (ix2 r 0)) c * u (ix1 r) := by
  show Ideal.hostScatterAdd scatter_S1000_S65536x1_S65536_n_0_0_1 x idx u (ix1 c) = _
  unfold Ideal.hostScatterAdd
  refine congrArg (fun z => x (ix1 c) + z) ?_
  rw [Finset.sum_filter, sum_rows]
  refine Finset.sum_congr rfl fun r _ => ?_
  rw [hit_mul]
  exact if_congr (lands1 (ix1 r) idx c) rfl rfl

/-- The start of the rank-2 scatter's window on the class axis: the label word of the update's row, read signed. -/
theorem start2_0 (j : S65536x512.Idx) (idx : IVec S65536x1 32) :
    scatter_S1000x512_S65536x1_S65536x512_1_0_0_1.start j idx 0 = (idx (ix2 (j 0) 0)).toInt := by
  unfold ScatterDims.start
  rw [dif_pos (show (0 : Fin 2) ∈ scatter_S1000x512_S65536x1_S65536x512_1_0_0_1.scatterDimsToOperandDims from List.mem_singleton.mpr rfl)]
  congr 2
  funext b; refine Fin.ext ?_
  match b with
  | ⟨0, _⟩ => rfl
  | ⟨1, _⟩ => rfl

/-- On the feature axis the window starts at zero. -/
theorem start2_1 (j : S65536x512.Idx) (idx : IVec S65536x1 32) :
    scatter_S1000x512_S65536x1_S65536x512_1_0_0_1.start j idx 1 = 0 := by
  unfold ScatterDims.start
  rw [dif_neg (by decide)]

/-- The class axis is inserted: no window coordinate. -/
theorem window2_0 (j : S65536x512.Idx) :
    scatter_S1000x512_S65536x1_S65536x512_1_0_0_1.window j 0 = 0 := by
  unfold ScatterDims.window
  rw [dif_neg (by decide)]

/-- On the feature axis the window coordinate is the update's column. -/
theorem window2_1 (j : S65536x512.Idx) :
    scatter_S1000x512_S65536x1_S65536x512_1_0_0_1.window j 1 = (j 1).val := by
  unfold ScatterDims.window
  rw [dif_pos (by decide)]
  rfl

/-- Where an update element lands in the rank-2 scatter. -/
theorem lands2 (j : S65536x512.Idx) (idx : IVec S65536x1 32) (c : Fin 1000) (a : Fin 512) :
    scatter_S1000x512_S65536x1_S65536x512_1_0_0_1.resultIdx? j idx = some (ix2 c a)
      ↔ idx (ix2 (j 0) 0) = BitVec.ofNat 32 c ∧ j 1 = a := by
  rw [lands_iff, ← toInt_eq_iff _ c c.isLt]
  constructor
  · intro h
    have h0 := h 0
    have h1 := h 1
    rw [start2_0, window2_0] at h0
    rw [start2_1, window2_1] at h1
    refine ⟨by simpa using h0, Fin.ext ?_⟩
    have : ((j 1).val : Int) = (a.val : Int) := by simpa using h1
    exact_mod_cast this
  · rintro ⟨h0, h1⟩ b
    match b with
    | ⟨0, _⟩ =>
      show scatter_S1000x512_S65536x1_S65536x512_1_0_0_1.start j idx 0 + (scatter_S1000x512_S65536x1_S65536x512_1_0_0_1.window j 0 : Int) = _
      rw [start2_0, window2_0, h0]; simp
    | ⟨1, _⟩ =>
      show scatter_S1000x512_S65536x1_S65536x512_1_0_0_1.start j idx 1 + (scatter_S1000x512_S65536x1_S65536x512_1_0_0_1.window j 1 : Int) = _
      rw [start2_1, window2_1, h1]; simp

/-- The scatter-add of the rows of a [65536, 512] array into 1000 classes. -/
theorem scat2_apply (x : FVec Ideal S1000x512 .f32) (idx : IVec S65536x1 32) (u : FVec Ideal S65536x512 .f32) (c : Fin 1000) (a : Fin 512) :
    Host.scatterAdd (F := Ideal) scatter_S1000x512_S65536x1_S65536x512_1_0_0_1 x idx u (ix2 c a)
      = x (ix2 c a) + ∑ r : Fin 65536, hit (idx (ix2 r 0)) c * u (ix2 r a) := by
  show Ideal.hostScatterAdd scatter_S1000x512_S65536x1_S65536x512_1_0_0_1 x idx u (ix2 c a) = _
  unfold Ideal.hostScatterAdd
  refine congrArg (fun z => x (ix2 c a) + z) ?_
  rw [Finset.sum_filter, sum_idx2]
  refine Finset.sum_congr rfl fun r _ => ?_
  rw [hit_mul]
  have hterm : ∀ b : Fin 512,
      (if scatter_S1000x512_S65536x1_S65536x512_1_0_0_1.resultIdx? (ix2 r b) idx = some (ix2 c a) then u (ix2 r b) else 0)
        = if b = a then (if idx (ix2 r 0) = BitVec.ofNat 32 c then u (ix2 r b) else 0) else 0 := by
    intro b
    have hl2 := lands2 (ix2 r b) idx c a
    by_cases hb : b = a
    · by_cases hl : idx (ix2 r 0) = BitVec.ofNat 32 c
      · rw [if_pos (hl2.2 ⟨hl, hb⟩), if_pos hb, if_pos hl]
      · rw [if_neg (fun h => hl (hl2.1 h).1), if_pos hb, if_neg hl]
    · rw [if_neg (fun h => hb (hl2.1 h).2), if_neg hb]
  rw [Finset.sum_congr rfl fun b _ => hterm b, Finset.sum_ite_eq' Finset.univ a, if_pos (Finset.mem_univ a)]

/-- The gather of row `r`, whose start index names class `c`, reads the operand's row `c`. -/
theorem gather_apply (x : FVec Ideal S1000x512 .f32) (idx : IVec S65536x1 32) (r : Fin 65536) (a : Fin 512) (c : Fin 1000)
    (h : idx (ix2 r 0) = BitVec.ofNat 32 c) :
    Host.gather gather_S1000x512_S65536x1_S65536x512_1_0_n_n_0_1_1512 x idx (ix2 r a) = x (ix2 c a) := by
  unfold Host.gather
  refine congrArg x (funext fun b => Fin.ext ?_)
  match b with
  | ⟨0, _⟩ =>
    show gather_S1000x512_S65536x1_S65536x512_1_0_n_n_0_1_1512.start (ix2 r a) idx 0
        + gather_S1000x512_S65536x1_S65536x512_1_0_n_n_0_1_1512.batchCoord (ix2 r a) 0
        + gather_S1000x512_S65536x1_S65536x512_1_0_n_n_0_1_1512.offCoord (ix2 r a) 0 = c.val
    rw [GatherDims.batchCoord_eq_zero _ _ _ List.not_mem_nil, GatherDims.offCoord_eq_zero _ _ _ (by decide)]
    unfold GatherDims.start
    rw [dif_pos (show (0 : Fin 2) ∈ gather_S1000x512_S65536x1_S65536x512_1_0_n_n_0_1_1512.startIndexMap from List.mem_singleton.mpr rfl)]
    have hsi : gather_S1000x512_S65536x1_S65536x512_1_0_n_n_0_1_1512.siIdx (ix2 r a)
        ⟨List.idxOf (0 : Fin 2) gather_S1000x512_S65536x1_S65536x512_1_0_n_n_0_1_1512.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi, h, (toInt_eq_iff _ c c.isLt).2 rfl]
    show min ((c.val : Int)).toNat (1000 - 1) + 0 + 0 = c.val
    rw [Int.toNat_natCast]
    have := c.isLt
    omega
  | ⟨1, _⟩ =>
    show gather_S1000x512_S65536x1_S65536x512_1_0_n_n_0_1_1512.start (ix2 r a) idx 1
        + gather_S1000x512_S65536x1_S65536x512_1_0_n_n_0_1_1512.batchCoord (ix2 r a) 1
        + gather_S1000x512_S65536x1_S65536x512_1_0_n_n_0_1_1512.offCoord (ix2 r a) 1 = a.val
    rw [GatherDims.batchCoord_eq_zero _ _ _ List.not_mem_nil]
    unfold GatherDims.start GatherDims.offCoord
    rw [dif_neg (by decide), dif_pos (by decide)]
    show 0 + 0 + a.val = a.val
    omega

end Cert.RefScatter

end
-- ==== Proof.RefValue.lean ====
/-
  The reference program's results, read off its run: at every class c and column a the three
  results are the running-moments formulas applied to the class count, the class sum and the
  class sum of squared deviations from the class mean.
-/
import proofs.«419242_j18021682774195_3_alg».proof.Proof.RefRun
import proofs.«419242_j18021682774195_3_alg».proof.Proof.RefRead
import proofs.«419242_j18021682774195_3_alg».proof.Proof.Stats
import proofs.«419242_j18021682774195_3_alg».proof.Proof.RefScatter
import proofs.«419242_j18021682774195_3_alg».proof.Proof.StatsConsts

noncomputable section

open scoped BigOperators

namespace Cert.RefValue

open Cert.ReferenceIdeal Cert.ReferenceIdeal.Read Cert.Stats Cert.RefScatter Idealize.ShloMosaic Idealize.ShloMosaic.ValueIdx

/-! ## The layout operations' index maps at explicit coordinates -/

/-- A row's label, read through the [65536] → [65536, 1] broadcast. -/
theorem idx_v2 (r : Fin 65536) : idx_main_v2 (ix2 r (0 : Fin 1)) = ix1 r := by
  funext d; match d with | ⟨0, _⟩ => rfl
theorem idx_v5 (r : Fin 65536) : idx_main_v5 (ix2 r (0 : Fin 1)) = ix1 r := by
  funext d; match d with | ⟨0, _⟩ => rfl
theorem idx_v18 (r : Fin 65536) : idx_main_v18 (ix2 r (0 : Fin 1)) = ix1 r := by
  funext d; match d with | ⟨0, _⟩ => rfl
theorem idx_v23 (r : Fin 65536) : idx_main_v23 (ix2 r (0 : Fin 1)) = ix1 r := by
  funext d; match d with | ⟨0, _⟩ => rfl

/-- A per-class value, read through [1000] → [1000, 1] → [1000, 512]. -/
theorem idx_v10 (c : Fin 1000) : idx_main_v10 (ix2 c (0 : Fin 1)) = ix1 c := by
  funext d; match d with | ⟨0, _⟩ => rfl
theorem idx_v25 (c : Fin 1000) : idx_main_v25 (ix2 c (0 : Fin 1)) = ix1 c := by
  funext d; match d with | ⟨0, _⟩ => rfl
theorem idx_v36 (c : Fin 1000) : idx_main_v36 (ix2 c (0 : Fin 1)) = ix1 c := by
  funext d; match d with | ⟨0, _⟩ => rfl
theorem idx_v11 (c : Fin 1000) (a : Fin 512) : idx_main_v11 (ix2 c a) = ix2 c (0 : Fin 1) := by
  funext d; match d with | ⟨0, _⟩ => rfl | ⟨1, _⟩ => rfl
theorem idx_v26 (c : Fin 1000) (a : Fin 512) : idx_main_v26 (ix2 c a) = ix2 c (0 : Fin 1) := by
  funext d; match d with | ⟨0, _⟩ => rfl | ⟨1, _⟩ => rfl
theorem idx_v39 (c : Fin 1000) (a : Fin 512) : idx_main_v39 (ix2 c a) = ix2 c (0 : Fin 1) := by
  funext d; match d with | ⟨0, _⟩ => rfl | ⟨1, _⟩ => rfl
theorem idx_v41 (c : Fin 1000) (a : Fin 512) : idx_main_v41 (ix2 c a) = ix2 c (0 : Fin 1) := by
  funext d; match d with | ⟨0, _⟩ => rfl | ⟨1, _⟩ => rfl
theorem idx_v49 (c : Fin 1000) (a : Fin 512) : idx_main_v49 (ix2 c a) = ix2 c (0 : Fin 1) := by
  funext d; match d with | ⟨0, _⟩ => rfl | ⟨1, _⟩ => rfl
theorem idx_v54 (c : Fin 1000) (a : Fin 512) : idx_main_v54 (ix2 c a) = ix2 c (0 : Fin 1) := by
  funext d; match d with | ⟨0, _⟩ => rfl | ⟨1, _⟩ => rfl
theorem idx_v56 (c : Fin 1000) (a : Fin 512) : idx_main_v56 (ix2 c a) = ix2 c (0 : Fin 1) := by
  funext d; match d with | ⟨0, _⟩ => rfl | ⟨1, _⟩ => rfl

variable (X : (⟨S65536x512, .f32⟩ : BufTy).Contents (Elt Ideal)) (L : (⟨S65536, .i32⟩ : BufTy).Contents (Elt Ideal))
  (K : (⟨S1000, .f32⟩ : BufTy).Contents (Elt Ideal)) (M C : (⟨S1000x512, .f32⟩ : BufTy).Contents (Elt Ideal))

/-! ## The class count, the divisor, the class sum and the class mean -/

/-- The first segment sum adds a one for every row of the class: the class count. -/
theorem v3_eq (c : Fin 1000) : val_main_v3 (F := Ideal) L (ix1 c) = cnt L c := by
  unfold val_main_v3
  rw [scat1_apply]
  simp only [val_main_v1_apply, val_main_cst_0_apply, val_main_v2_apply, val_main_v0_apply, val_main_cst_apply,
    Ideal.ofBits_def, idx_v2]
  show zero + ∑ r : Fin 65536, hit (L (ix1 r)) c * one = cnt L c
  rw [zero_eq, one_eq, zero_add]
  simp only [mul_one]
  rfl

/-- The divisor: one for an empty class, else the count. -/
theorem v9_eq (c : Fin 1000) : val_main_v9 (F := Ideal) L (ix1 c) = amtR (cnt L c) := by
  rw [val_main_v9_apply, val_main_v8_apply, val_main_v7_apply, val_main_cst_2_apply, val_main_call0_v1_apply,
    val_main_call0_v0_apply, val_main_cst_3_apply, v3_eq]
  rfl

theorem v11_eq (c : Fin 1000) (a : Fin 512) : val_main_v11 (F := Ideal) L (ix2 c a) = amtR (cnt L c) := by
  rw [val_main_v11_apply, val_main_v10_apply, idx_v11, idx_v10, v9_eq]

theorem v26_eq (c : Fin 1000) (a : Fin 512) : val_main_v26 (F := Ideal) L (ix2 c a) = amtR (cnt L c) := by
  rw [val_main_v26_apply, val_main_v25_apply, idx_v26, idx_v25, v9_eq]

/-- The second segment sum adds the class's rows: the class sum. -/
theorem v6_eq (c : Fin 1000) (a : Fin 512) : val_main_v6 (F := Ideal) X L (ix2 c a) = sm X L c a := by
  unfold val_main_v6
  rw [scat2_apply]
  simp only [val_main_v4_apply, val_main_cst_1_apply, val_main_v5_apply, Ideal.ofBits_def, idx_v5]
  show zero + ∑ r : Fin 65536, hit (L (ix1 r)) c * X (ix2 r a) = sm X L c a
  rw [zero_eq, zero_add]
  rfl

/-- The class mean. -/
theorem v12_eq (c : Fin 1000) (a : Fin 512) :
    val_main_v12 (F := Ideal) X L (ix2 c a) = Ideal.div (sm X L c a) (amtR (cnt L c)) := by
  rw [val_main_v12_apply, v6_eq, v11_eq]
  rfl

/-! ## The gathered class mean and the squared deviations -/

/-- A class number below 1000 is a non-negative 32-bit word. -/
theorem slt_zero (c : Fin 1000) : (BitVec.ofNat 32 c.val).slt 0#32 = false := by
  have h : c.val < 1000 := c.isLt
  simp only [BitVec.slt, BitVec.toInt_zero, decide_eq_false_iff_not, not_lt]
  rw [BitVec.toInt_eq_toNat_cond, BitVec.toNat_ofNat]
  have h2 : c.val % 2 ^ 32 = c.val := Nat.mod_eq_of_lt (by omega)
  rw [h2]
  split <;> omega

/-- The gather's start index of a row of class c is the label itself: no wrap-around. -/
theorem v17_eq (r : Fin 65536) (c : Fin 1000) (h : L (ix1 r) = BitVec.ofNat 32 c) :
    val_main_v17 (F := Ideal) L (ix1 r) = BitVec.ofNat 32 c := by
  rw [val_main_v17_apply, val_main_v14_apply, val_main_v13_apply, val_main_c_apply, h]
  show Scalar.select (BitVec.ofBool ((BitVec.ofNat 32 c.val).slt 0#32)) _ _ = _
  rw [slt_zero]
  rfl

theorem v18_eq (r : Fin 65536) (c : Fin 1000) (h : L (ix1 r) = BitVec.ofNat 32 c) :
    val_main_v18 (F := Ideal) L (ix2 r (0 : Fin 1)) = BitVec.ofNat 32 c := by
  rw [val_main_v18_apply, idx_v18, v17_eq L r c h]

/-- A row of class c gathers the class mean of c. -/
theorem v19_eq (r : Fin 65536) (a : Fin 512) (c : Fin 1000) (h : L (ix1 r) = BitVec.ofNat 32 c) :
    val_main_v19 (F := Ideal) X L (ix2 r a) = Ideal.div (sm X L c a) (amtR (cnt L c)) := by
  unfold val_main_v19
  rw [gather_apply _ _ r a c (v18_eq L r c h), v12_eq]

/-- The squared deviation of a row of class c from the class mean. -/
theorem v21_eq (r : Fin 65536) (a : Fin 512) (c : Fin 1000) (h : L (ix1 r) = BitVec.ofNat 32 c) :
    val_main_v21 (F := Ideal) X L (ix2 r a)
      = (X (ix2 r a) - Ideal.div (sm X L c a) (amtR (cnt L c))) * (X (ix2 r a) - Ideal.div (sm X L c a) (amtR (cnt L c))) := by
  rw [val_main_v21_apply, val_main_v20_apply, v19_eq X L r a c h]
  rfl

/-- The third segment sum: the class's sum of squared deviations from its mean. -/
theorem v24_eq (c : Fin 1000) (a : Fin 512) :
    val_main_v24 (F := Ideal) X L (ix2 c a) = dev X L c a (Ideal.div (sm X L c a) (amtR (cnt L c))) := by
  unfold val_main_v24
  rw [scat2_apply]
  simp only [val_main_v22_apply, val_main_cst_5_apply, val_main_v23_apply, Ideal.ofBits_def, idx_v23]
  show zero + ∑ r : Fin 65536, hit (L (ix1 r)) c * val_main_v21 (F := Ideal) X L (ix2 r a) = _
  rw [zero_eq, zero_add]
  unfold dev
  refine Finset.sum_congr rfl fun r _ => ?_
  by_cases h : L (ix1 r) = BitVec.ofNat 32 c
  · rw [v21_eq X L r a c h]
  · unfold hit
    rw [if_neg h, zero_mul, zero_mul]

/-- The class variance. -/
theorem v27_eq (c : Fin 1000) (a : Fin 512) :
    val_main_v27 (F := Ideal) X L (ix2 c a)
      = Ideal.div (dev X L c a (Ideal.div (sm X L c a) (amtR (cnt L c)))) (amtR (cnt L c)) := by
  rw [val_main_v27_apply, v24_eq, v26_eq]
  rfl

/-! ## The blend weight -/

theorem v28_eq (c : Fin 1000) : val_main_v28 (F := Ideal) L K (ix1 c) = cnt L c + K (ix1 c) := by
  rw [val_main_v28_apply, v3_eq]
  rfl

theorem v35_eq (c : Fin 1000) : val_main_v35 (F := Ideal) L K (ix1 c) = weight (cnt L c) (K (ix1 c)) := by
  rw [val_main_v35_apply, val_main_v30_apply, val_main_v29_apply, val_main_cst_6_apply, val_main_call2_v1_apply,
    val_main_call2_v0_apply, val_main_cst_9_apply, val_main_v34_apply, val_main_v33_apply, val_main_v32_apply,
    val_main_v31_apply, val_main_cst_7_apply, val_main_call1_v1_apply, val_main_call1_v0_apply, val_main_cst_8_apply,
    v28_eq, v3_eq]
  rfl

theorem v36_eq (c : Fin 1000) : val_main_v36 (F := Ideal) L K (ix2 c (0 : Fin 1)) = weight (cnt L c) (K (ix1 c)) := by
  rw [val_main_v36_apply, idx_v36, v35_eq]

/-! ## The three results -/

theorem ref_v59 (c : Fin 1000) : val_main_v59 (F := Ideal) L K (ix1 c) = K (ix1 c) + cnt L c := by
  rw [val_main_v59_apply, v3_eq]
  rfl

theorem ref_v58 (c : Fin 1000) (a : Fin 512) :
    val_main_v58 (F := Ideal) X L K M (ix2 c a)
      = meanNew (M (ix2 c a)) (weight (cnt L c) (K (ix1 c))) (Ideal.div (sm X L c a) (amtR (cnt L c))) := by
  rw [val_main_v58_apply, val_main_v55_apply, val_main_v54_apply, val_main_v53_apply, val_main_v52_apply,
    val_main_cst_12_apply, val_main_v57_apply, val_main_v56_apply, idx_v54, idx_v56, v36_eq, v12_eq]
  rfl

theorem ref_v51 (c : Fin 1000) (a : Fin 512) :
    val_main_v51 (F := Ideal) X L K M C (ix2 c a)
      = covNew (C (ix2 c a))
          (Ideal.div (dev X L c a (Ideal.div (sm X L c a) (amtR (cnt L c)))) (amtR (cnt L c)))
          (weight (cnt L c) (K (ix1 c))) (M (ix2 c a)) (Ideal.div (sm X L c a) (amtR (cnt L c))) := by
  rw [val_main_v51_apply, val_main_v43_apply, val_main_v40_apply, val_main_v39_apply, val_main_v38_apply,
    val_main_v37_apply, val_main_cst_10_apply, val_main_v42_apply, val_main_v41_apply, val_main_v50_apply,
    val_main_v49_apply, val_main_v46_apply, val_main_v45_apply, val_main_v44_apply, val_main_cst_11_apply,
    val_main_v48_apply, val_main_v47_apply, idx_v39, idx_v41, idx_v49, v36_eq, v27_eq, v12_eq]
  rfl

end Cert.RefValue

end
-- ==== Proof.Bridge.lean ====
/-
  The reference's results are the same whole-array functions: its divisor (1 where the count is
  zero) is the kernel program's (1 where the count is below one half) because a count is a natural
  number, and its variance — the class's mean squared deviation from the class mean — is the
  mean square minus the squared mean, which is never negative, when the features are real numbers.
-/
import proofs.«419242_j18021682774195_3_alg».proof.Proof.Results
import proofs.«419242_j18021682774195_3_alg».proof.Proof.StatsLaws
import proofs.«419242_j18021682774195_3_alg».proof.Proof.RefValue

noncomputable section

namespace Cert.Bridge

open Cert.Stats Idealize.ShloMosaic Idealize.ShloMosaic.ValueIdx

variable (X : Feat) (L : Lab) (K : ClassVec) (M C : ClassMat)

theorem cov_eq (hX : ∀ i, ∃ x : ℝ, X i = (x : EReal)) :
    Cert.ReferenceIdeal.Read.val_main_v51 (F := Ideal) X L K M C = covOut X L K M C := by
  funext j
  obtain ⟨c, a, rfl⟩ : ∃ (c : Fin 1000) (a : Fin 512), j = ix2 c a := ⟨j 0, j 1, eq_ix2 j⟩
  rw [Cert.RefValue.ref_v51]
  unfold covOut
  rw [var_eq X L c.val a (fun r => hX _), amtK_eq_amtR]

theorem mean_eq :
    Cert.ReferenceIdeal.Read.val_main_v58 (F := Ideal) X L K M = meanOut X L K M := by
  funext j
  obtain ⟨c, a, rfl⟩ : ∃ (c : Fin 1000) (a : Fin 512), j = ix2 c a := ⟨j 0, j 1, eq_ix2 j⟩
  rw [Cert.RefValue.ref_v58]
  unfold meanOut
  rw [amtK_eq_amtR]

theorem count_eq :
    Cert.ReferenceIdeal.Read.val_main_v59 (F := Ideal) L K = countOut L K := by
  funext j
  obtain ⟨c, rfl⟩ : ∃ (c : Fin 1000), j = ix1 c := ⟨j 0, eq_ix1 j⟩
  rw [Cert.RefValue.ref_v59]
  rfl

end Cert.Bridge

end
-- ==== Proof.Finite.lean ====
import proofs.«419242_j18021682774195_3_alg».proof.Defs
import Idealize.ShloMosaic.Lib.ReduceAll
import Idealize.ShloMosaic.Lib.ValueIdx

noncomputable section

namespace Cert.Finite

open Idealize.ShloMosaic Idealize.SL.Sem

/-- The shape of a scalar has exactly one index: the empty tuple. -/
instance : Subsingleton Cert.Pre_finite_inputs.S_.Idx := ⟨fun a b => funext fun d => d.elim0⟩

/-- The f32 pattern with all exponent bits set and a zero significand denotes +∞. -/
theorem inf_bits : Ideal.ofBits .f32 0x7F800000#32 = (⊤ : EReal) := by
  simp [Ideal.ofBits, Ideal.ieee]

/-- An extended real whose absolute value, max x (-x), lies strictly below +∞ is a real number:
    at -∞ and at +∞ the maximum is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- A truth value whose one-bit word is 1 is true. -/
theorem ofBool_eq_one {b : Bool} (h : BitVec.ofBool b = 1#1) : b = true := by
  cases b with
  | true => rfl
  | false => exact absurd h (by decide)

/-- The test the precondition applies to one entry v, "|v| is ordered strictly below the f32 infinity",
    read on the extended reals: the absolute value is max v (-v), the comparison is the linear order's,
    and the constant is +∞. -/
theorem abs_lt_top_of_test (v : EReal)
    (hv : FloatOps.cmpf (F := Ideal) (φ := .f32) .olt (FloatOps.hostAbsf (F := Ideal) (φ := .f32) v)
            (FloatOps.ofBits (F := Ideal) .f32 0x7F800000#32) = 1#1) :
    max v (-v) < (⊤ : EReal) := by
  change BitVec.ofBool (decide (max v (-v) < Ideal.ofBits .f32 0x7F800000#32)) = 1#1 at hv
  rw [inf_bits] at hv
  exact of_decide_eq_true (ofBool_eq_one hv)

/-- From the precondition, every entry of the feature array is a real number.  The precondition is a
    conjunction of four "all entries satisfy |x| < +∞" tests, one per float argument; the first
    conjunct is the features'.  Read at one index it says max x (-x) < +∞, and such an x is real. -/
theorem feat_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S65536x512.Idx) :
    ∃ x : ℝ, m ((c.tc : Thread Cert.KernelIdeal.nD Cert.KernelIdeal.τ).loc Cert.KernelIdeal.main_arg0) i = (x : EReal) := by
  have h0 := congrFun (h c) ValueIdx.ix0
  dsimp only [Cert.Pre_finite_inputs.fn, Cert.Pre_finite_inputs.fn_part1] at h0
  -- the conjunction of the four tests is 1, so each is; keep the first
  have h1 := (IntOp.andi_eq_one.1 h0).1
  have h2 := (IntOp.andi_eq_one.1 h1).1
  have h3 := (IntOp.andi_eq_one.1 h2).1
  -- a reduction by "and" over all axes that is 1 met a 1 at every index
  have hx := Host.reduce_andi_all _ _ _ _ ValueIdx.ix0 h3 i
  -- the entry's test says its absolute value is below +∞, so the entry is real
  exact real_of_abs_lt_top _ (abs_lt_top_of_test _ hx)

end Cert.Finite
-- ==== Proof.lean ====
/-
  Per-class running moments: the kernel accumulates, for each of 1000 classes, the count, the
  feature sum and the sum of squares of the rows carrying that class's label (a one-hot matrix
  times the features, block by block over a 2 x 32 grid), and updates count, mean and second
  moment from them; the reference obtains the same three sums by segment sums and takes the
  variance as the mean squared deviation from the class mean.  Over the extended reals, with
  finite features, both programs end at the same three arrays: the counts and sums agree as
  sums over the rows, the divisors agree because a count is a natural number, and
  E[x²] − E[x]² is the mean squared deviation and is never negative.  Both programs' frames
  come from their runs; the one rewrite of the idealization (a rounding to half width and back
  dropped) is the rule's own statement.
-/
import proofs.«419242_j18021682774195_3_alg».proof.Defs
import proofs.«419242_j18021682774195_3_alg».proof.Proof.Gen.Kernel
import proofs.«419242_j18021682774195_3_alg».proof.Proof.Gen.KernelIdeal
import proofs.«419242_j18021682774195_3_alg».proof.Proof.Gen.ReferenceIdeal
import proofs.«419242_j18021682774195_3_alg».proof.Proof.Gen.Pre_finite_inputs
import proofs.«419242_j18021682774195_3_alg».proof.Proof.K.Frame
import proofs.«419242_j18021682774195_3_alg».proof.Proof.KI.Value
import proofs.«419242_j18021682774195_3_alg».proof.Proof.Bridge
import proofs.«419242_j18021682774195_3_alg».proof.Proof.Finite
import Idealize.ShloMosaic.Adequacy
import Idealize.ShloMosaic.Init

noncomputable section

namespace Cert.Proof

open Idealize.ShloMosaic Idealize.SL.Sem Cert.Stats

/-- The word-level program runs to its end and leaves its arguments as they were. -/
theorem frame_k : Cert.frame_Kernel := fun m ρ _ => Cert.Kernel.Fr.frame m ρ

/-- So does the idealized program. -/
theorem frame_ki : Cert.frame_KernelIdeal := fun m ρ _ => Cert.KernelIdeal.Fr.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization dropped one rounding to half width and back: the rule's statement at that shape. -/
theorem preserves : Cert.preserves_Kernel_KernelIdeal := IdealRules.truncf_extf.statement _ .f32 .bf16

/-- Both idealized programs end at the updated second moment, mean and count of the same
    per-class sums; the reference's divisor and variance are the kernel program's when the
    features are finite. -/
theorem algebraic : Cert.algebraic_KernelIdeal_ReferenceIdeal := by
  intro m ρ m' ρ' hpre hagree
  refine ⟨_, _, _, Cert.KernelIdeal.Val.run_value m ρ, ?_⟩
  refine (θ_run Cert.ReferenceIdeal.defs _ _).mono (fun _ h c => ?_) (Cert.ReferenceIdeal.Value.run (F := Ideal) m' ρ')
  obtain ⟨h51, h58, h59, hargs⟩ := h c
  obtain ⟨e0, e1, e2, e3, e4⟩ := hagree c
  refine ⟨?_, ?_, ?_, hargs⟩
  · rw [h51, Cert.ReferenceIdeal.Read.val_main_v51_eq, e0, e1, e2, e3, e4]
    exact Cert.Bridge.cov_eq _ _ _ _ _ (fun i => Cert.Finite.feat_real m hpre c i)
  · rw [h58, Cert.ReferenceIdeal.Read.val_main_v58_eq, e0, e1, e2, e3]
    exact Cert.Bridge.mean_eq _ _ _ _
  · rw [h59, e1, e2]
    exact (Cert.ReferenceIdeal.Read.val_main_v59_eq _ _).trans (Cert.Bridge.count_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
